-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S128x64 : Shape := ⟨2, ![128, 64]⟩
abbrev S64 : Shape := ⟨1, ![64]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg3 : IVec S800000 32) (main_arg4 : IVec S800000 32) (main_v13 : IVec S_ 1) (main_v15 : IVec S800000 1) (main_c_5 : IVec S_ 32) : IVec S_ 1 :=
  let main_v16 : IVec S800000 32 := broadcastInDim S800000 ![] bcast_S_S800000 main_c_5
  let main_v17 : IVec S800000 1 := cmpi .slt main_arg3 main_v16
  let main_v18 : IVec S800000 1 := andi main_v15 main_v17
  let main_c_6 : IVec S_ 1 := constantI S_ 1 1#1
  let main_v19 : IVec S_ 1 := (fun x v => Host.reduce IntOp.andi x v reducesTo_S800000_S_d0 h_S_) main_v18 main_c_6
  let main_v20 : IVec S_ 1 := andi main_v13 main_v19
  let main_c_7 : IVec S_ 32 := constantI S_ 32 0#32
  let main_v21 : IVec S800000 32 := broadcastInDim S800000 ![] bcast_S_S800000 main_c_7
  let main_v22 : IVec S800000 1 := cmpi .sge main_arg4 main_v21
  let main_c_8 : IVec S_ 32 := constantI S_ 32 50000#32
  let main_v23 : IVec S800000 32 := broadcastInDim S800000 ![] bcast_S_S800000 main_c_8
  let main_v24 : IVec S800000 1 := cmpi .slt main_arg4 main_v23
  let main_v25 : IVec S800000 1 := andi main_v22 main_v24
  let main_c_9 : IVec S_ 1 := constantI S_ 1 1#1
  let main_v26 : IVec S_ 1 := (fun x v => Host.reduce IntOp.andi x v reducesTo_S800000_S_d0 h_S_) main_v25 main_c_9
  let main_v27 : IVec S_ 1 := andi main_v20 main_v26
  main_v27

def fn {F : FTy → Type} [FloatOps F] (main_arg0 : FVec F S50000x64 .f32) (main_arg1 : FVec F S128x64 .f32) (main_arg2 : FVec F S64 .f32) (main_arg3 : IVec S800000 32) (main_arg4 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_c_4 : IVec S_ 32 := constantI S_ 32 0#32
  let main_v14 : IVec S800000 32 := broadcastInDim S800000 ![] bcast_S_S800000 main_c_4
  let main_v15 : IVec S800000 1 := cmpi .sge main_arg3 main_v14
  let main_c_5 : IVec S_ 32 := constantI S_ 32 50000#32
  fn_part1 (F := F) main_arg3 main_arg4 main_v13 main_v15 main_c_5
-- ==== Kernel.lean ====
abbrev S50000x64 : Shape := ⟨2, ![50000, 64]⟩
abbrev S128x64 : Shape := ⟨2, ![128, 64]⟩
abbrev S64 : Shape := ⟨1, ![64]⟩
abbrev S800000 : Shape := ⟨1, ![800000]⟩
abbrev S800000x1 : Shape := ⟨2, ![800000, 1]⟩
abbrev S1x64 : Shape := ⟨2, ![1, 64]⟩
abbrev S5000x64 : Shape := ⟨2, ![5000, 64]⟩
abbrev S64x64 : Shape := ⟨2, ![64, 64]⟩
abbrev S800000x64 : Shape := ⟨2, ![800000, 64]⟩
abbrev S2000x1 : Shape := ⟨2, ![2000, 1]⟩
abbrev S2000x64 : Shape := ⟨2, ![2000, 64]⟩
abbrev S1x2000 : Shape := ⟨2, ![1, 2000]⟩
abbrev S2000x2000 : Shape := ⟨2, ![2000, 2000]⟩

abbrev nBuf : Space → Nat
  | .hbm => 11
  | .vmem => 19
  | .smem => 0
  | _ => 0

abbrev bufTy : (tb : Table) → Fin (tcTables nBuf tb) → BufTy
  | .hbm, ⟨0, _⟩ => ⟨S50000x64, .f32⟩
  | .hbm, ⟨1, _⟩ => ⟨S128x64, .f32⟩
  | .hbm, ⟨2, _⟩ => ⟨S64, .f32⟩
  | .hbm, ⟨3, _⟩ => ⟨S800000, .i32⟩
  | .hbm, ⟨4, _⟩ => ⟨S800000, .i32⟩
  | .hbm, ⟨5, _⟩ => ⟨S800000x1, .i32⟩
  | .hbm, ⟨6, _⟩ => ⟨S800000x1, .i32⟩
  | .hbm, ⟨7, _⟩ => ⟨S1x64, .f32⟩
  | .hbm, ⟨8, _⟩ => ⟨S50000x64, .f32⟩
  | .hbm, ⟨9, _⟩ => ⟨S50000x64, .f32⟩
  | .hbm, ⟨10, _⟩ => ⟨S800000x64, .f32⟩
  | .local _ .vmem, ⟨0, _⟩ => ⟨S5000x64, .f32⟩
  | .local _ .vmem, ⟨1, _⟩ => ⟨S5000x64, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S2000x1, .i32⟩
  | .local _ .vmem, ⟨8, _⟩ => ⟨S2000x1, .i32⟩
  | .local _ .vmem, ⟨9, _⟩ => ⟨S2000x1, .i32⟩
  | .local _ .vmem, ⟨10, _⟩ => ⟨S2000x1, .i32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S2000x64, .f32⟩
  | .local _ .vmem, ⟨15, _⟩ => ⟨S1x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![400, 25], ![false, false]⟩

def k1_cond2 (i : grid1.Coords) : BitVec 1 :=
  let arg1 : BitVec 32 := BitVec.ofNat 32 (i 1).val
  let c24_i32 : BitVec 32 := 24#32
  let v37 : BitVec 1 := Scalar.cmpi .eq arg1 c24_i32
  let v38 : BitVec 32 := Scalar.extui v37
  let c0_i32_13 : BitVec 32 := 0#32
  let v39 : BitVec 1 := Scalar.cmpi .ne v38 c0_i32_13
  v39

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2000x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  shapeCasts_S800000_S800000x1 : S800000.ShapeCasts S800000x1
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  slices_S128x64_o0_0_S64x64 : S128x64.Slices ![0, 0] S64x64
  slices_S128x64_o64_0_S64x64 : S128x64.Slices ![64, 0] S64x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  iota_S1x2000_d1_w32 : S1x2000.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x2000 : S2000x1.Broadcasts S2000x2000
  broadcasts_S1x2000_S2000x2000 : S1x2000.Broadcasts S2000x2000
  natLt_1_32 : 1 < 32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  dot_S5000x64_S64x64_S5000x64_1_0_0_1_n_n_wf : DotDims.WF S5000x64 S64x64 S5000x64 [1] [0] [0] [1] [] []
  dot_S2000x2000_S2000x64_S2000x64_1_0_0_1_n_n_wf : DotDims.WF S2000x2000 S2000x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x1.size a ≤ S800000x1.size a
  hwx1_0 : ∀ i : grid1.Coords, EltTy.bits .i32 = 32 ∨ (Rect.block (s := S800000x1) S2000x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S800000x1.size a
  hwx1_1 : ∀ i : grid1.Coords, EltTy.bits .i32 = 32 ∨ (Rect.block (s := S800000x1) S2000x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S800000x64.size a
  hwx1_5 : ∀ i : grid1.Coords, EltTy.bits .f32 = 32 ∨ (Rect.block (s := S800000x64) S2000x64.size (cc1_transform_5 i) (hinb1_5 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S2000x2000_S2000x64_S2000x64_1_0_0_1_n_n : DotDims S2000x2000 S2000x64 S2000x64 where
  lhsContracting := [1]
  rhsContracting := [0]
  lhsNonContracting := [0]
  rhsNonContracting := [1]
  lhsBatch := []
  rhsBatch := []
  wf := dot_S2000x2000_S2000x64_S2000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S5000x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S2000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_0) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3_1) S2000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S50000x64 : Shape := ⟨2, ![50000, 64]⟩
abbrev S128x64 : Shape := ⟨2, ![128, 64]⟩
abbrev S64 : Shape := ⟨1, ![64]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S1x64 : Shape := ⟨2, ![1, 64]⟩

abbrev nBuf : Space → Nat
  | .hbm => 28
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S128x64, .f32⟩
  | .hbm, ⟨2, _⟩ => ⟨S64, .f32⟩
  | .hbm, ⟨3, _⟩ => ⟨S800000, .i32⟩
  | .hbm, ⟨4, _⟩ => ⟨S800000, .i32⟩
  | .hbm, ⟨5, _⟩ => ⟨S_, .i32⟩
  | .hbm, ⟨6, _⟩ => ⟨S800000, .i32⟩
  | .hbm, ⟨7, _⟩ => ⟨S800000, .i1⟩
  | .hbm, ⟨8, _⟩ => ⟨S_, .i32⟩
  | .hbm, ⟨9, _⟩ => ⟨S800000, .i32⟩
  | .hbm, ⟨10, _⟩ => ⟨S800000, .i32⟩
  | .hbm, ⟨11, _⟩ => ⟨S800000, .i32⟩
  | .hbm, ⟨12, _⟩ => ⟨S800000x1, .i32⟩
  | .hbm, ⟨13, _⟩ => ⟨S800000x64, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x64, .f32⟩
  | .hbm, ⟨23, _⟩ => ⟨S800000x128, .f32⟩
  | .hbm, ⟨24, _⟩ => ⟨S800000x64, .f32⟩
  | .hbm, ⟨25, _⟩ => ⟨S1x64, .f32⟩
  | .hbm, ⟨26, _⟩ => ⟨S800000x64, .f32⟩
  | .hbm, ⟨27, _⟩ => ⟨S800000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  gather_S50000x64_S800000x1_S800000x64_1_0_n_n_0_1_164_wf : GatherDims.WF S50000x64 S800000x1 S800000x64 [1] [0] [] [0] [] 1 ![1, 64]
  dot_S800000x128_S128x64_S800000x64_1_0_0_1_n_n_wf : DotDims.WF S800000x128 S128x64 S800000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf

class Facts : Prop extends Facts₀ where

variable [Facts]
-- ==== Proof.Spec.lean ====
/-
  The message-passing layer as one function of its inputs.

  Nodes carry feature rows `x[n, ·]` (50000 nodes, 64 features); an edge `e` joins node `src[e]` to node `dst[e]`.
  With `W` (128 × 64) split into its upper half (rows 0–63) and its lower half (rows 64–127), the layer's output on
  edge `e` is

      out[e, j] = Σ_{f<64} x[src e, f] · W[f, j]  +  Σ_{f<64} x[dst e, f] · W[64 + f, j]  +  b[j].

  Both programs compute this: one projects every node first (`projSrc`, `projDst`) and then picks the two rows of each
  edge, the other gathers the two feature rows of each edge, lays them side by side and multiplies by the whole `W`.
  Everything here is over the extended reals, index by index, and mentions no program.
-/
import Idealize.ShloMosaic.PureOps.Ideal
import Idealize.ShloMosaic.Lib.ValueIdx

noncomputable section

namespace Cert.Spec

open Idealize.ShloMosaic Idealize.ShloMosaic.ValueIdx

/-- A 32-bit word read as a node number (its value when that is below 50000). -/
def node (w : BitVec 32) : Fin 50000 := ⟨w.toNat % 50000, Nat.mod_lt _ (by norm_num)⟩

theorem node_val_of_lt {w : BitVec 32} (h : w.toNat < 50000) : (node w).val = w.toNat := Nat.mod_eq_of_lt h

/-- Feature `f` as a row of the upper half of `W`. -/
def upper (f : Fin 64) : Fin 128 := ⟨f.val, by omega⟩
/-- Feature `f` as a row of the lower half of `W`. -/
def lower (f : Fin 64) : Fin 128 := ⟨64 + f.val, by omega⟩

/-- Every node projected by the upper half of `W`: `A[n, j] = Σ_f x[n, f] · W[f, j]`. -/
def projSrc (x : (⟨2, ![50000, 64]⟩ : Shape).Idx → EReal) (W : (⟨2, ![128, 64]⟩ : Shape).Idx → EReal) :
    (⟨2, ![50000, 64]⟩ : Shape).Idx → EReal :=
  fun i => ∑ f : Fin 64, x (ix2 (i 0) f) * W (ix2 (upper f) (i 1))

/-- Every node projected by the lower half of `W`: `B[n, j] = Σ_f x[n, f] · W[64 + f, j]`. -/
def projDst (x : (⟨2, ![50000, 64]⟩ : Shape).Idx → EReal) (W : (⟨2, ![128, 64]⟩ : Shape).Idx → EReal) :
    (⟨2, ![50000, 64]⟩ : Shape).Idx → EReal :=
  fun i => ∑ f : Fin 64, x (ix2 (i 0) f) * W (ix2 (lower f) (i 1))

/-- The layer from projected nodes: on edge `e` the source's row of `A`, the destination's row of `B`, and the bias.
    The edge lists are columns (800000 × 1), the bias a row (1 × 64). -/
def pick (A B : (⟨2, ![50000, 64]⟩ : Shape).Idx → EReal) (bias : (⟨2, ![1, 64]⟩ : Shape).Idx → EReal)
    (src dst : (⟨2, ![800000, 1]⟩ : Shape).Idx → BitVec 32) : (⟨2, ![800000, 64]⟩ : Shape).Idx → EReal :=
  fun i => (A (ix2 (node (src (ix2 (i 0) (0 : Fin 1)))) (i 1)) + B (ix2 (node (dst (ix2 (i 0) (0 : Fin 1)))) (i 1)))
    + bias (ix2 (0 : Fin 1) (i 1))

/-- The layer from its inputs as the programs receive them: flat edge lists, a flat bias. -/
def layer (x : (⟨2, ![50000, 64]⟩ : Shape).Idx → EReal) (W : (⟨2, ![128, 64]⟩ : Shape).Idx → EReal)
    (b : (⟨1, ![64]⟩ : Shape).Idx → EReal) (src dst : (⟨1, ![800000]⟩ : Shape).Idx → BitVec 32) :
    (⟨2, ![800000, 64]⟩ : Shape).Idx → EReal :=
  fun i => (projSrc x W (ix2 (node (src (ix1 (i 0)))) (i 1)) + projDst x W (ix2 (node (dst (ix1 (i 0)))) (i 1)))
    + b (ix1 (i 1))

end Cert.Spec

end
-- ==== Proof.IndexRange.lean ====
/-
  The edge lists name nodes.

  Beside the finiteness of the float inputs, the precondition says of each of the two edge lists that all of its
  entries w satisfy (w ≥ 0) ∧ (w < 50000), the comparisons being those of signed 32-bit integers. The whole
  precondition is one conjunction, so from "the precondition is true" each of the two "for all entries" conjuncts is
  true, and a conjunction over all entries that is true is true at each entry.

  For one word w: a signed value ≥ 0 means the top bit is clear, so the signed value is the unsigned value; the
  signed value being below 50000 is then the unsigned value being below 50000. Hence every entry of either list,
  read as a natural number, is a node number: it is below 50000.

  Nothing here depends on how floats are modelled: the statements hold over every float model.
-/
import proofs.«426469_j38474317037707_1_alg».proof.Pre_finite_inputs
import Idealize.ShloMosaic.Lib.ReduceAll
import Idealize.ShloMosaic.Lib.ValueIdx

noncomputable section

namespace Cert.IndexRange

open Idealize.ShloMosaic Cert.Pre_finite_inputs

/-- A shape of rank zero has exactly one index. -/
instance : Subsingleton S_.Idx := ⟨fun a b => funext fun d => d.elim0⟩

/-- A 32-bit word that is, as a signed integer, at least 0 and below 50000 is below 50000 as a natural number:
    signed non-negative means unsigned below 2³¹, where the two readings agree. -/
theorem toNat_lt_of_signed_range (w : BitVec 32) (h0 : IntOp.cmpi .sge w 0#32 = 1#1)
    (h1 : IntOp.cmpi .slt w 50000#32 = 1#1) : w.toNat < 50000 := by
  rw [IntOp.cmpi_sge] at h0
  rw [IntOp.cmpi_slt] at h1
  have e0 : (0#32 : BitVec 32).toInt = 0 := by decide
  have e1 : (50000#32 : BitVec 32).toInt = 50000 := by decide
  rw [e0] at h0
  rw [e1] at h1
  have hw := w.isLt
  rw [BitVec.toInt_eq_toNat_cond] at h0 h1
  split at h0 <;> omega

variable [Facts]

/-- The two integer conjuncts of the precondition, read at one edge: both of its words are in [0, 50000) signed. -/
theorem words_in_range {F : FTy → Type} [FloatOps F] (x : FVec F S50000x64 .f32) (W : FVec F S128x64 .f32)
    (b : FVec F S64 .f32) (src dst : IVec S800000 32) (h : fn (F := F) x W b src dst = fun _ => 1#1)
    (e : S800000.Idx) :
    (IntOp.cmpi .sge (src e) 0#32 = 1#1 ∧ IntOp.cmpi .slt (src e) 50000#32 = 1#1) ∧
      (IntOp.cmpi .sge (dst e) 0#32 = 1#1 ∧ IntOp.cmpi .slt (dst e) 50000#32 = 1#1) := by
  have h0 := congrFun h ValueIdx.ix0
  dsimp only [fn, fn_part1, andi] at h0
  rw [IntOp.andi_eq_one, IntOp.andi_eq_one] at h0
  obtain ⟨⟨-, hs⟩, hd⟩ := h0
  have hs' := Host.reduce_andi_all _ _ _ _ _ hs e
  have hd' := Host.reduce_andi_all _ _ _ _ _ hd e
  dsimp only [andi, cmpi, broadcastInDim, constantI] at hs' hd'
  rw [IntOp.andi_eq_one] at hs' hd'
  exact ⟨hs', hd'⟩

/-- Every entry of the source list is a node number. -/
theorem src_lt {F : FTy → Type} [FloatOps F] (x : FVec F S50000x64 .f32) (W : FVec F S128x64 .f32)
    (b : FVec F S64 .f32) (src dst : IVec S800000 32) (h : fn (F := F) x W b src dst = fun _ => 1#1) :
    ∀ e : S800000.Idx, (src e).toNat < 50000 := fun e =>
  let r := (words_in_range x W b src dst h e).1
  toNat_lt_of_signed_range _ r.1 r.2

/-- Every entry of the destination list is a node number. -/
theorem dst_lt {F : FTy → Type} [FloatOps F] (x : FVec F S50000x64 .f32) (W : FVec F S128x64 .f32)
    (b : FVec F S64 .f32) (src dst : IVec S800000 32) (h : fn (F := F) x W b src dst = fun _ => 1#1) :
    ∀ e : S800000.Idx, (dst e).toNat < 50000 := fun e =>
  let r := (words_in_range x W b src dst h e).2
  toNat_lt_of_signed_range _ r.1 r.2

end Cert.IndexRange

end
-- ==== Proof.Bits.Proj.lean ====
/-
  The projection call (the first of the program's two kernel calls): at grid point `t` (ten points) it takes rows
  5000·t … 5000·t + 4999 of the node features `x` and the whole weight matrix `W`, and writes the same rows of two
  arrays: the block times the upper half of `W` and the block times the lower half. Nothing is kept between points.

  This module states what each of the two output blocks holds after the body as a function of the two input blocks
  (`outA`, `outB`: the body's single whole-block store of each, over the body's arithmetic as the program's payload
  terms), runs the body once on arbitrary whole staging buffers, and gives the call's proof data over any contents
  `V` of the device's buffers at the call's entry: every input buffer holds its block of `V`'s array at every point,
  every output buffer is left at `outA` / `outB` of those blocks. It holds at any float instance.
-/
import proofs.«426469_j38474317037707_1_alg».proof.Proof.Gen.Kernel.Launch
import proofs.«426469_j38474317037707_1_alg».proof.Proof.Gen.Kernel.Skeleton
import proofs.«426469_j38474317037707_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the device's buffer contents when the call is entered
variable (V : (c : Dev nD) → (b : Ref sig .tc) → Buf (Elt F) ((c : Thread nD τ).loc b))

/-- Window `w`'s block at point `t`: the rows of its array (as the call finds it) that the point works on. -/
def blkP (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature block's staging buffer holds the point's rows at every point, for any proof data over `V` whose body
    leaves that buffer alone. -/
theorem beforeP0_of {c : Dev nD} (dat : Dat τ (Elt F) Unit ℕ (UR sig nD τ) ℕ cfg0 c) (hA : dat.A 0 = V c (Pipeline.arrRef spec0 0))
    (hafter : ∀ t, dat.after 0 t = blkP V c 0 t) (t : Fin cfg0.N) (d) : dat.before 0 t d = blkP V c 0 t :=
  (dat.before_in_eq_fetched 0 rfl (fun _ => rfl) (fun _ _ _ => rfl) (fun t => by rw [hafter]; unfold Dat.blockOf blkP; rw [hA]; try rfl) t d).trans
    (by unfold Dat.fetched Dat.blockOf blkP; rw [hA]; try rfl)

/-- The weight matrix's staging buffer holds the whole matrix at every point (it is brought in once, at the first). -/
theorem beforeP1_of {c : Dev nD} (dat : Dat τ (Elt F) Unit ℕ (UR sig nD τ) ℕ cfg0 c) (hA : dat.A 1 = V c (Pipeline.arrRef spec0 1))
    (hafter : ∀ t, dat.after 1 t = blkP V c 1 t) (t : Fin cfg0.N) (d) : dat.before 1 t d = blkP V c 1 t :=
  (dat.before_in_eq_fetched 1 rfl (fun _ => rfl) (fun _ _ _ => rfl) (fun t => by rw [hafter]; unfold Dat.blockOf blkP; rw [hA]; try rfl) t d).trans
    (by unfold Dat.fetched Dat.blockOf blkP; rw [hA]; try rfl)

/-- The whole 5000 × 64 block and the whole 128 × 64 matrix, as rectangles of their buffers. -/
abbrev rRows : Rect S5000x64 := Rect.unit (s := S5000x64) ![0, 0] S5000x64.size inb_S5000x64_S5000x64_0_0
abbrev rW : Rect S128x64 := Rect.unit (s := S128x64) ![0, 0] S128x64.size inb_S128x64_S128x64_0_0

/-- What the body leaves in the first output block: its one store, the rows times the upper half of `W`. -/
def outA (x0 : Vec F S5000x64 .f32) (x1 : Vec F S128x64 .f32) : Vec F S5000x64 .f32 :=
  View.canon [⟨rRows, k0_pay3 (View.ld x0 rRows) (View.ld x1 rW)⟩]

/-- What the body leaves in the second output block: its one store, the rows times the lower half of `W`. -/
def outB (x0 : Vec F S5000x64 .f32) (x1 : Vec F S128x64 .f32) : Vec F S5000x64 .f32 :=
  View.canon [⟨rRows, k0_pay4 (View.ld x0 rRows) (View.ld x1 rW)⟩]

/-- One whole-block store covers the block. -/
theorem coverRows (p0 : Vec F S5000x64 .f32) (y : S5000x64.Idx) :
    ∃ pc ∈ ([⟨rRows, p0⟩] : List (View.Piece (Elt F) S5000x64 .f32)), y ∈ pc.1.set :=
  View.cover_of_tiled [⟨rRows, p0⟩] S5000x64.size (by rfl) y

set_option maxHeartbeats 1000000 in
/-- The body on whole staging buffers — the two inputs at contents `x0`, `x1`, the two outputs at anything — runs to
    its end with the inputs as they were and the outputs at `outA x0 x1`, `outB x0 x1`. -/
theorem sound_proj (c : Dev nD) (E : Set ℕ) (i : grid0.Coords) (arg1 : Memref sig .tc .vmem S5000x64 .f32) (harg1 : arg1.IsWhole)
    (arg2 : Memref sig .tc .vmem S128x64 .f32) (harg2 : arg2.IsWhole) (arg3 : Memref sig .tc .vmem S5000x64 .f32) (harg3 : arg3.IsWhole)
    (arg4 : Memref sig .tc .vmem S5000x64 .f32) (harg4 : arg4.IsWhole)
    (x0 : Vec F S5000x64 .f32) (x1 : Vec F S128x64 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (outA x0 x1) ∗ owns (c : Thread nD τ) arg4 fullShare (outB x0 x1)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverRows _)
  iexists _; isplitr
  swap; · iexact H3
  ipureintro
  exact View.read_writes_eq_canon _ _ _ (coverRows _)

/-- The call's proof data on core `c`: the arrays as the call finds them; after the body at point `t` the inputs'
    buffers at their blocks and the outputs' at `outA`, `outB` of those blocks; nothing carried, nothing owed. -/
def datP (c : Dev nD) : Dat τ (Elt F) Unit ℕ (UR sig nD τ) ℕ cfg0 c where
  A w := V c (Pipeline.arrRef spec0 w)
  after w t := match w with
    | ⟨0, _⟩ => blkP V c 0 t
    | ⟨1, _⟩ => blkP V c 1 t
    | ⟨2, _⟩ => outA (blkP V c 0 t) (blkP V c 1 t)
    | ⟨3, _⟩ => outB (blkP V c 0 t) (blkP V c 1 t)
  Φ _ := Pipeline.ΦA spec0 c
  q _ := fullShare
  owed _ := 0

theorem A_eqP (c : Dev nD) (w : Fin cfg0.W) : (datP V c).A w = V c (Pipeline.arrRef spec0 w) := by
  dsimp only [datP]

theorem afterP0 (c : Dev nD) (t : Fin cfg0.N) : (datP V c).after 0 t = blkP V c 0 t := by dsimp only [datP]
theorem afterP1 (c : Dev nD) (t : Fin cfg0.N) : (datP V c).after 1 t = blkP V c 1 t := by dsimp only [datP]
theorem afterP2 (c : Dev nD) (t : Fin cfg0.N) : (datP V c).after 2 t = outA (blkP V c 0 t) (blkP V c 1 t) := by dsimp only [datP]
theorem afterP3 (c : Dev nD) (t : Fin cfg0.N) : (datP V c).after 3 t = outB (blkP V c 0 t) (blkP V c 1 t) := by dsimp only [datP]

theorem beforeP0 (c : Dev nD) (t : Fin cfg0.N) (d) : (datP V c).before 0 t d = blkP V c 0 t :=
  beforeP0_of V (datP V c) (A_eqP V c 0) (afterP0 V c) t d
theorem beforeP1 (c : Dev nD) (t : Fin cfg0.N) (d) : (datP V c).before 1 t d = blkP V c 1 t :=
  beforeP1_of V (datP V c) (A_eqP V c 1) (afterP1 V c) t d

/-- What the body is handed at point `t`, window by window, -/
def prePt (c : Dev nD) (t : Fin cfg0.N) : sProp 𝕄 :=
  iprop((datP V c).Φ t.castSucc ∗ (datP V c).owesAt () t.castSucc
    ∗ (∃ d, owns (c : Thread nD τ) (st0_0 t) fullShare ((datP V c).before 0 t d))
    ∗ (∃ d, owns (c : Thread nD τ) (st0_1 t) fullShare ((datP V c).before 1 t d))
    ∗ (∃ d, owns (c : Thread nD τ) (st0_2 t) fullShare ((datP V c).before 2 t d))
    ∗ (∃ d, owns (c : Thread nD τ) (st0_3 t) fullShare ((datP V c).before 3 t d)))

/-- and what it hands back. -/
def postPt (c : Dev nD) (t : Fin cfg0.N) : sProp 𝕄 :=
  iprop((datP V c).Φ t.succ ∗ (datP V c).owesAt () t.succ
    ∗ owns (c : Thread nD τ) (st0_0 t) fullShare ((datP V c).after 0 t)
    ∗ owns (c : Thread nD τ) (st0_1 t) fullShare ((datP V c).after 1 t)
    ∗ owns (c : Thread nD τ) (st0_2 t) fullShare ((datP V c).after 2 t)
    ∗ owns (c : Thread nD τ) (st0_3 t) fullShare ((datP V c).after 3 t))

/-- The body at any point: the inputs' buffers hold their blocks, so `sound_proj` applies. -/
theorem sound_pt (c : Dev nD) (t : Fin cfg0.N) :
    prePt V c t ⊢ wp frame (wpE (defs₀ (F := F)) Variants.none c none) Set.univ (bodyAt0 t) (fun _ => postPt V c t) := by
  unfold prePt postPt bodyAt0
  simp only [beforeP0, beforeP1]
  rw [show (datP V c).Φ t.succ = (datP V c).Φ t.castSucc from rfl,
    show (datP V c).owesAt () t.succ = (datP V c).owesAt () t.castSucc from rfl,
    afterP0, afterP1, afterP2, afterP3]
  iintro ⟨HΦ, Ho, ⟨%d0, H0⟩, ⟨%d1, H1⟩, ⟨%d2, H2⟩, ⟨%d3, H3⟩⟩
  iapply (sound_proj c Set.univ _ _ _ _ _ _ _ _ _ (blkP V c 0 t) (blkP V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the projection call, at every point. -/
theorem obligationP (c : Dev nD) : BodyObligation (datP (F := F) V c) (defs₀ (F := F)) Variants.none () Set.univ := fun t => by
  rw [bigSep_W0, bigSep_W0]
  exact sound_pt V c t

end Cert.Kernel.Fr

end
-- ==== Proof.Bits.GmRuns.lean ====
/-
  The gather call (the second kernel call), on a 400 × 25 grid: point `t` is edge block `t / 25` (2000 edges) against
  node block `t % 25` (2000 nodes). Its body keeps a 2000 × 64 accumulator between points: at a block's first node
  block it zeroes it, at every node block it adds the two one-hot products of the point, and at the last node block
  it writes accumulator plus bias to the edge block's output rows. So the body has three courses — first node block,
  a middle one, the last — told apart by the two conditions below, which the grid decides in closed form.

  This module holds what the three courses share: the windows' blocks of the arrays the call finds, that every input
  buffer holds its block at every point, the two conditions, where the output window is idle (everywhere but at a last
  node block), the staging and accumulator buffers by name, and the call's resting invariant with the accumulator's
  buffer named apart from the first call's staging buffers, which merely lie idle during this call.
-/
import proofs.«426469_j38474317037707_1_alg».proof.Proof.Gen.Kernel.Launch
import proofs.«426469_j38474317037707_1_alg».proof.Proof.Gen.Kernel.Skeleton
import proofs.«426469_j38474317037707_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the device's buffer contents when the call is entered
variable (V : (c : Dev nD) → (b : Ref sig .tc) → Buf (Elt F) ((c : Thread nD τ).loc b))

/-- Window `w`'s block at point `t`, read off its array as the call finds it. -/
def blkG (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the point's block at every point, brought in there or earlier, for any
    proof data over `V` whose body leaves that buffer alone: the source column, -/
theorem beforeG0_of {c : Dev nD} (dat : Dat τ (Elt F) Unit ℕ (UR sig nD τ) ℕ cfg1 c) (hA : dat.A 0 = V c (Pipeline.arrRef spec1 0))
    (hafter : ∀ t, dat.after 0 t = blkG V c 0 t) (t : Fin cfg1.N) (d) : dat.before 0 t d = blkG V c 0 t :=
  (dat.before_in_eq_fetched 0 rfl (fun _ => rfl) (fun _ _ _ => rfl) (fun t => by rw [hafter]; unfold Dat.blockOf blkG; rw [hA]; try rfl) t d).trans
    (by unfold Dat.fetched Dat.blockOf blkG; rw [hA]; try rfl)
/-- the destination column, -/
theorem beforeG1_of {c : Dev nD} (dat : Dat τ (Elt F) Unit ℕ (UR sig nD τ) ℕ cfg1 c) (hA : dat.A 1 = V c (Pipeline.arrRef spec1 1))
    (hafter : ∀ t, dat.after 1 t = blkG V c 1 t) (t : Fin cfg1.N) (d) : dat.before 1 t d = blkG V c 1 t :=
  (dat.before_in_eq_fetched 1 rfl (fun _ => rfl) (fun _ _ _ => rfl) (fun t => by rw [hafter]; unfold Dat.blockOf blkG; rw [hA]; try rfl) t d).trans
    (by unfold Dat.fetched Dat.blockOf blkG; rw [hA]; try rfl)
/-- the node block of the first projection, -/
theorem beforeG2_of {c : Dev nD} (dat : Dat τ (Elt F) Unit ℕ (UR sig nD τ) ℕ cfg1 c) (hA : dat.A 2 = V c (Pipeline.arrRef spec1 2))
    (hafter : ∀ t, dat.after 2 t = blkG V c 2 t) (t : Fin cfg1.N) (d) : dat.before 2 t d = blkG V c 2 t :=
  (dat.before_in_eq_fetched 2 rfl (fun _ => rfl) (fun _ _ _ => rfl) (fun t => by rw [hafter]; unfold Dat.blockOf blkG; rw [hA]; try rfl) t d).trans
    (by unfold Dat.fetched Dat.blockOf blkG; rw [hA]; try rfl)
/-- the node block of the second projection, -/
theorem beforeG3_of {c : Dev nD} (dat : Dat τ (Elt F) Unit ℕ (UR sig nD τ) ℕ cfg1 c) (hA : dat.A 3 = V c (Pipeline.arrRef spec1 3))
    (hafter : ∀ t, dat.after 3 t = blkG V c 3 t) (t : Fin cfg1.N) (d) : dat.before 3 t d = blkG V c 3 t :=
  (dat.before_in_eq_fetched 3 rfl (fun _ => rfl) (fun _ _ _ => rfl) (fun t => by rw [hafter]; unfold Dat.blockOf blkG; rw [hA]; try rfl) t d).trans
    (by unfold Dat.fetched Dat.blockOf blkG; rw [hA]; try rfl)
/-- the bias row. -/
theorem beforeG4_of {c : Dev nD} (dat : Dat τ (Elt F) Unit ℕ (UR sig nD τ) ℕ cfg1 c) (hA : dat.A 4 = V c (Pipeline.arrRef spec1 4))
    (hafter : ∀ t, dat.after 4 t = blkG V c 4 t) (t : Fin cfg1.N) (d) : dat.before 4 t d = blkG V c 4 t :=
  (dat.before_in_eq_fetched 4 rfl (fun _ => rfl) (fun _ _ _ => rfl) (fun t => by rw [hafter]; unfold Dat.blockOf blkG; rw [hA]; try rfl) t d).trans
    (by unfold Dat.fetched Dat.blockOf blkG; rw [hA]; try rfl)

/-! ## The two conditions -/

/-- "This is the edge block's first node block": the body's first branch condition, from the grid coordinates. -/
abbrev isFirst (i : grid1.Coords) : Prop := (Scalar.cmpi .ne (Scalar.extui (Scalar.cmpi .eq (BitVec.ofNat 32 (i 1).val) 0#32)) 0#32) = 1#1
/-- It holds at the points ≡ 0 (mod 25). -/
theorem isFirst_iff : ∀ t : Fin cfg1.N, isFirst (grid1.coords t) ↔ t.val % 25 = 0 :=
  (by decide +kernel : ∀ t : Fin grid1.N, isFirst (grid1.coords t) ↔ t.val % 25 = 0)

/-- "This is the edge block's last node block": the body's second branch condition. -/
abbrev isLast (i : grid1.Coords) : Prop := k1_cond2 i = 1#1
/-- It holds at the points ≡ 24 (mod 25). -/
theorem isLast_iff : ∀ t : Fin cfg1.N, isLast (grid1.coords t) ↔ t.val % 25 = 24 :=
  (by decide +kernel : ∀ t : Fin grid1.N, isLast (grid1.coords t) ↔ t.val % 25 = 24)

/-! ## Where the output window is idle -/

/-- The output window is idle exactly where the point is not a last node block. -/
theorem idle_out (i : grid1.Coords) : cfg1.idle 5 i = !(k1_cond2 i == 1#1) := rfl

theorem idle_out_of_not_last (i : grid1.Coords) (h : ¬isLast i) : cfg1.idle 5 i = true := by
  rw [idle_out]; simp only [Bool.not_eq_eq_eq_not, Bool.not_true, beq_eq_false_iff_ne, ne_eq]; exact h
theorem live_out_of_last (i : grid1.Coords) (h : isLast i) : cfg1.idle 5 i = false := by
  rw [idle_out, show k1_cond2 i = 1#1 from h]; rfl
/-- and there its block is not written back. -/
theorem noFlush_of_not_last (t : Fin cfg1.N) (h : ¬isLast (grid1.coords t)) : (cfg1.win 5).flush t = false := by
  have := (flush1_5 t).not.mpr (fun e => h ((isLast_iff t).mpr e))
  simpa using this

/-! ## The buffers by name -/

/-- Each window's current staging buffer at point `t`, as the body is called with it, and that it is a whole buffer. -/
abbrev mG0 (t : Fin cfg1.N) : Memref sig .tc .vmem S2000x1 .i32 := win1_0.stage (cfg1.slots t 0)
abbrev hG0 (t : Fin cfg1.N) : (mG0 t).IsWhole := hstage1_0 ((cfg1.slots t 0).cast nbuf1_0)
abbrev mG1 (t : Fin cfg1.N) : Memref sig .tc .vmem S2000x1 .i32 := win1_1.stage (cfg1.slots t 1)
abbrev hG1 (t : Fin cfg1.N) : (mG1 t).IsWhole := hstage1_1 ((cfg1.slots t 1).cast nbuf1_1)
abbrev mG2 (t : Fin cfg1.N) : Memref sig .tc .vmem S2000x64 .f32 := win1_2.stage (cfg1.slots t 2)
abbrev hG2 (t : Fin cfg1.N) : (mG2 t).IsWhole := hstage1_2 ((cfg1.slots t 2).cast nbuf1_2)
abbrev mG3 (t : Fin cfg1.N) : Memref sig .tc .vmem S2000x64 .f32 := win1_3.stage (cfg1.slots t 3)
abbrev hG3 (t : Fin cfg1.N) : (mG3 t).IsWhole := hstage1_3 ((cfg1.slots t 3).cast nbuf1_3)
abbrev mG4 (t : Fin cfg1.N) : Memref sig .tc .vmem S1x64 .f32 := win1_4.stage (cfg1.slots t 4)
abbrev hG4 (t : Fin cfg1.N) : (mG4 t).IsWhole := hstage1_4 ((cfg1.slots t 4).cast nbuf1_4)
abbrev mG5 (t : Fin cfg1.N) : Memref sig .tc .vmem S2000x64 .f32 := win1_5.stage (cfg1.slots t 5)
abbrev hG5 (t : Fin cfg1.N) : (mG5 t).IsWhole := hstage1_5 ((cfg1.slots t 5).cast nbuf1_5)
/-- The accumulator: a whole buffer of the call's own, passed beside the windows. -/
abbrev accM : Memref sig .tc .vmem S2000x64 .f32 := Memref.whole cc1_scratch0
/-- The accumulator as a view: what it holds is stated through it. -/
abbrev accV : View sig .tc .vmem S2000x64 .f32 := accM.view
/-- One staging buffer of the output window, through which its contents are stated (the choice does not matter). -/
abbrev outV : View sig .tc .vmem S2000x64 .f32 := (Memref.whole cc1_stg5_0 : Memref sig .tc .vmem S2000x64 .f32).view

/-- The first call's seven staging buffers, each whole at some contents: they lie idle during this call. -/
def idleBufs (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The call's resting invariant with the accumulator's buffer named: the idle buffers, the accumulator at some
    contents, the generator register at some state. -/
theorem restG_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) accM fullShare d)) ∗ (∃ r, prngReg c r)) := by
  unfold Pipeline.ΦA; rw [scopedRest1_eq]; simp only [accM, owns_whole]; try rfl

end Cert.Kernel.Fr

end
-- ==== Proof.Bits.GmRunA.lean ====
/-
  The gather call's body on the first node block of an edge block (and not its last): the accumulator, whatever it
  held, is zeroed and the point's two one-hot products are added; the output window is not touched. The run of the
  body on arbitrary whole buffers; what it leaves in the accumulator is found by the run itself, as the list of the
  body's stores there.
-/
import proofs.«426469_j38474317037707_1_alg».proof.Proof.Bits.GmRuns

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole buffers — the five inputs at their contents, the output's at contents `xi5` handed back untouched, the
    accumulator at anything — the body runs to its end holding the inputs as they were and the accumulator with the
    stores `LS` written. -/
noncomputable def runFirst (c : Dev nD) (i : grid1.Coords) (arg2 : Memref sig .tc .vmem S2000x1 .i32) (harg2 : arg2.IsWhole) (arg3 : Memref sig .tc .vmem S2000x1 .i32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S2000x64 .f32) (harg8 : arg8.IsWhole) (hc0 : isFirst i) (hc1 : ¬isLast i)
    (x0 : Vec F S2000x1 .i32) (x1 : Vec F S2000x1 .i32) (x2 : Vec F S2000x64 .f32) (x3 : Vec F S2000x64 .f32) (x4 : Vec F S1x64 .f32) :
    Σ' (L5 : List (View.Piece (Elt F) S2000x64 .f32)), { LS : List (View.Piece (Elt F) S2000x64 .f32) //
      ∀ (xi5 : Vec F S2000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc1__gm_kernel i arg2 harg2 arg3 harg3 arg4 harg4 arg5 harg5 arg6 harg6 arg7 harg7 arg8 harg8) K } := by
  refine ⟨[], ?_, fun xi5 E K => ?run⟩
  case run =>
    simp only [cc1__gm_kernel_eq_skeleton]; unfold cc1__gm_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Fr

end
-- ==== Proof.Bits.GmRunB.lean ====
/-
  The gather call's body on a middle node block (neither first nor last): the point's two one-hot products are added
  to what the accumulator held; the output window is not touched.
-/
import proofs.«426469_j38474317037707_1_alg».proof.Proof.Bits.GmRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole buffers — the five inputs at their contents, the output's at contents `xi5` handed back untouched, the
    accumulator at the contents `xs` the point before left — the body runs to its end holding the inputs as they were
    and the accumulator with the stores `LS` written. -/
noncomputable def runMiddle (c : Dev nD) (i : grid1.Coords) (arg2 : Memref sig .tc .vmem S2000x1 .i32) (harg2 : arg2.IsWhole) (arg3 : Memref sig .tc .vmem S2000x1 .i32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S2000x64 .f32) (harg8 : arg8.IsWhole) (hc0 : ¬isFirst i) (hc1 : ¬isLast i)
    (x0 : Vec F S2000x1 .i32) (x1 : Vec F S2000x1 .i32) (x2 : Vec F S2000x64 .f32) (x3 : Vec F S2000x64 .f32) (x4 : Vec F S1x64 .f32) (xs : Vec F S2000x64 .f32) :
    Σ' (L5 : List (View.Piece (Elt F) S2000x64 .f32)), { LS : List (View.Piece (Elt F) S2000x64 .f32) //
      ∀ (xi5 : Vec F S2000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc1__gm_kernel i arg2 harg2 arg3 harg3 arg4 harg4 arg5 harg5 arg6 harg6 arg7 harg7 arg8 harg8) K } := by
  refine ⟨[], ?_, fun xi5 E K => ?run⟩
  case run =>
    simp only [cc1__gm_kernel_eq_skeleton]; unfold cc1__gm_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Fr

end
-- ==== Proof.Bits.GmRunC.lean ====
/-
  The gather call's body on the last node block of an edge block (and not its first): the point's two one-hot products
  are added to what the accumulator held, and the sum plus the bias row is stored over the whole output block.
-/
import proofs.«426469_j38474317037707_1_alg».proof.Proof.Bits.GmRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole buffers — the five inputs at their contents, the output's at anything, the accumulator at the contents
    `xs` the point before left — the body runs to its end holding the inputs as they were, the output's buffer with
    the stores `L5` written and the accumulator with the stores `LS` written. -/
noncomputable def runLast (c : Dev nD) (i : grid1.Coords) (arg2 : Memref sig .tc .vmem S2000x1 .i32) (harg2 : arg2.IsWhole) (arg3 : Memref sig .tc .vmem S2000x1 .i32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S2000x64 .f32) (harg8 : arg8.IsWhole) (hc0 : ¬isFirst i) (hc1 : isLast i)
    (x0 : Vec F S2000x1 .i32) (x1 : Vec F S2000x1 .i32) (x2 : Vec F S2000x64 .f32) (x3 : Vec F S2000x64 .f32) (x4 : Vec F S1x64 .f32) (xs : Vec F S2000x64 .f32) :
    Σ' (L5 : List (View.Piece (Elt F) S2000x64 .f32)), { LS : List (View.Piece (Elt F) S2000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc1__gm_kernel i arg2 harg2 arg3 harg3 arg4 harg4 arg5 harg5 arg6 harg6 arg7 harg7 arg8 harg8) K } := by
  refine ⟨?_, ?_, fun E K => ?run⟩
  case run =>
    simp only [cc1__gm_kernel_eq_skeleton]; unfold cc1__gm_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Fr

end
-- ==== Proof.Bits.Gm.lean ====
/-
  The gather call, point by point. The three courses of its body (first node block, a middle one, the last: the three
  runs of the modules before this one) leave their stores in the accumulator and, at a last node block, in the output
  block; read back, those stores are what the buffers hold. `heldAt` follows them through the grid: what the output
  window's buffer and the accumulator hold after the body at point `n`, the accumulator of a middle or last node
  block built on what the point before left. The call's invariant before point `n + 1` is then: the accumulator holds
  `heldAt`'s second component at `n` (before the first point: anything). With that, the call's proof data over any
  entry contents `V` and its body obligation at every point: at a first node block the accumulator's old contents are
  not consulted; at a last one the output block is stored whole; elsewhere the output window is idle and handed back
  as found. It holds at any float instance.
-/
import proofs.«426469_j38474317037707_1_alg».proof.Proof.Bits.GmRunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the device's buffer contents when the call is entered
variable (V : (c : Dev nD) → (b : Ref sig .tc) → Buf (Elt F) ((c : Thread nD τ).loc b))

/-! ## What each course leaves -/

/-- The first course stores nothing into the output block: a placeholder that nothing consults (the window is idle
    there and not written back). -/
def outFirst (c : Dev nD) (i : grid1.Coords) (arg2 : Memref sig .tc .vmem S2000x1 .i32) (harg2 : arg2.IsWhole) (arg3 : Memref sig .tc .vmem S2000x1 .i32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S2000x64 .f32) (harg8 : arg8.IsWhole) (hc0 : isFirst i) (hc1 : ¬isLast i)
    (x0 : Vec F S2000x1 .i32) (x1 : Vec F S2000x1 .i32) (x2 : Vec F S2000x64 .f32) (x3 : Vec F S2000x64 .f32) (x4 : Vec F S1x64 .f32) : Vec F S2000x64 .f32 :=
  outV.read (Elt F) (outV.writes (Elt F) outV.junk (runFirst c i arg2 harg2 arg3 harg3 arg4 harg4 arg5 harg5 arg6 harg6 arg7 harg7 arg8 harg8 hc0 hc1 x0 x1 x2 x3 x4).1)

/-- The first course's stores into the accumulator cover it. -/
theorem accCoverFirst (c : Dev nD) (i : grid1.Coords) (arg2 : Memref sig .tc .vmem S2000x1 .i32) (harg2 : arg2.IsWhole) (arg3 : Memref sig .tc .vmem S2000x1 .i32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S2000x64 .f32) (harg8 : arg8.IsWhole) (hc0 : isFirst i) (hc1 : ¬isLast i)
    (x0 : Vec F S2000x1 .i32) (x1 : Vec F S2000x1 .i32) (x2 : Vec F S2000x64 .f32) (x3 : Vec F S2000x64 .f32) (x4 : Vec F S1x64 .f32) (y : S2000x64.Idx) :
    ∃ pc ∈ (runFirst c i arg2 harg2 arg3 harg3 arg4 harg4 arg5 harg5 arg6 harg6 arg7 harg7 arg8 harg8 hc0 hc1 x0 x1 x2 x3 x4).2.1, y ∈ pc.1.set :=
  View.cover_of_tiledL (runFirst c i arg2 harg2 arg3 harg3 arg4 harg4 arg5 harg5 arg6 harg6 arg7 harg7 arg8 harg8 hc0 hc1 x0 x1 x2 x3 x4).2.1 S2000x64.size (by sl_kernel_rfl) y

/-- What the first course leaves in the accumulator: its stores read back. -/
def accFirst (c : Dev nD) (i : grid1.Coords) (arg2 : Memref sig .tc .vmem S2000x1 .i32) (harg2 : arg2.IsWhole) (arg3 : Memref sig .tc .vmem S2000x1 .i32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S2000x64 .f32) (harg8 : arg8.IsWhole) (hc0 : isFirst i) (hc1 : ¬isLast i)
    (x0 : Vec F S2000x1 .i32) (x1 : Vec F S2000x1 .i32) (x2 : Vec F S2000x64 .f32) (x3 : Vec F S2000x64 .f32) (x4 : Vec F S1x64 .f32) : Vec F S2000x64 .f32 :=
  accV.read (Elt F) (accV.writes (Elt F) accV.junk (runFirst c i arg2 harg2 arg3 harg3 arg4 harg4 arg5 harg5 arg6 harg6 arg7 harg7 arg8 harg8 hc0 hc1 x0 x1 x2 x3 x4).2.1)

/-- A middle course stores nothing into the output block either. -/
def outMiddle (c : Dev nD) (i : grid1.Coords) (arg2 : Memref sig .tc .vmem S2000x1 .i32) (harg2 : arg2.IsWhole) (arg3 : Memref sig .tc .vmem S2000x1 .i32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S2000x64 .f32) (harg8 : arg8.IsWhole) (hc0 : ¬isFirst i) (hc1 : ¬isLast i)
    (x0 : Vec F S2000x1 .i32) (x1 : Vec F S2000x1 .i32) (x2 : Vec F S2000x64 .f32) (x3 : Vec F S2000x64 .f32) (x4 : Vec F S1x64 .f32) (xs : Vec F S2000x64 .f32) : Vec F S2000x64 .f32 :=
  outV.read (Elt F) (outV.writes (Elt F) outV.junk (runMiddle c i arg2 harg2 arg3 harg3 arg4 harg4 arg5 harg5 arg6 harg6 arg7 harg7 arg8 harg8 hc0 hc1 x0 x1 x2 x3 x4 xs).1)

theorem accCoverMiddle (c : Dev nD) (i : grid1.Coords) (arg2 : Memref sig .tc .vmem S2000x1 .i32) (harg2 : arg2.IsWhole) (arg3 : Memref sig .tc .vmem S2000x1 .i32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S2000x64 .f32) (harg8 : arg8.IsWhole) (hc0 : ¬isFirst i) (hc1 : ¬isLast i)
    (x0 : Vec F S2000x1 .i32) (x1 : Vec F S2000x1 .i32) (x2 : Vec F S2000x64 .f32) (x3 : Vec F S2000x64 .f32) (x4 : Vec F S1x64 .f32) (xs : Vec F S2000x64 .f32) (y : S2000x64.Idx) :
    ∃ pc ∈ (runMiddle c i arg2 harg2 arg3 harg3 arg4 harg4 arg5 harg5 arg6 harg6 arg7 harg7 arg8 harg8 hc0 hc1 x0 x1 x2 x3 x4 xs).2.1, y ∈ pc.1.set :=
  View.cover_of_tiledL (runMiddle c i arg2 harg2 arg3 harg3 arg4 harg4 arg5 harg5 arg6 harg6 arg7 harg7 arg8 harg8 hc0 hc1 x0 x1 x2 x3 x4 xs).2.1 S2000x64.size (by sl_kernel_rfl) y

/-- What a middle course leaves in the accumulator, over what the point before left (`xs`). -/
def accMiddle (c : Dev nD) (i : grid1.Coords) (arg2 : Memref sig .tc .vmem S2000x1 .i32) (harg2 : arg2.IsWhole) (arg3 : Memref sig .tc .vmem S2000x1 .i32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S2000x64 .f32) (harg8 : arg8.IsWhole) (hc0 : ¬isFirst i) (hc1 : ¬isLast i)
    (x0 : Vec F S2000x1 .i32) (x1 : Vec F S2000x1 .i32) (x2 : Vec F S2000x64 .f32) (x3 : Vec F S2000x64 .f32) (x4 : Vec F S1x64 .f32) (xs : Vec F S2000x64 .f32) : Vec F S2000x64 .f32 :=
  accV.read (Elt F) (accV.writes (Elt F) accV.junk (runMiddle c i arg2 harg2 arg3 harg3 arg4 harg4 arg5 harg5 arg6 harg6 arg7 harg7 arg8 harg8 hc0 hc1 x0 x1 x2 x3 x4 xs).2.1)

/-- The last course's stores into the output block cover it. -/
theorem outCoverLast (c : Dev nD) (i : grid1.Coords) (arg2 : Memref sig .tc .vmem S2000x1 .i32) (harg2 : arg2.IsWhole) (arg3 : Memref sig .tc .vmem S2000x1 .i32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S2000x64 .f32) (harg8 : arg8.IsWhole) (hc0 : ¬isFirst i) (hc1 : isLast i)
    (x0 : Vec F S2000x1 .i32) (x1 : Vec F S2000x1 .i32) (x2 : Vec F S2000x64 .f32) (x3 : Vec F S2000x64 .f32) (x4 : Vec F S1x64 .f32) (xs : Vec F S2000x64 .f32) (y : S2000x64.Idx) :
    ∃ pc ∈ (runLast c i arg2 harg2 arg3 harg3 arg4 harg4 arg5 harg5 arg6 harg6 arg7 harg7 arg8 harg8 hc0 hc1 x0 x1 x2 x3 x4 xs).1, y ∈ pc.1.set :=
  View.cover_of_tiledL (runLast c i arg2 harg2 arg3 harg3 arg4 harg4 arg5 harg5 arg6 harg6 arg7 harg7 arg8 harg8 hc0 hc1 x0 x1 x2 x3 x4 xs).1 S2000x64.size (by sl_kernel_rfl) y

/-- What the last course leaves in the output block. -/
def outLast (c : Dev nD) (i : grid1.Coords) (arg2 : Memref sig .tc .vmem S2000x1 .i32) (harg2 : arg2.IsWhole) (arg3 : Memref sig .tc .vmem S2000x1 .i32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S2000x64 .f32) (harg8 : arg8.IsWhole) (hc0 : ¬isFirst i) (hc1 : isLast i)
    (x0 : Vec F S2000x1 .i32) (x1 : Vec F S2000x1 .i32) (x2 : Vec F S2000x64 .f32) (x3 : Vec F S2000x64 .f32) (x4 : Vec F S1x64 .f32) (xs : Vec F S2000x64 .f32) : Vec F S2000x64 .f32 :=
  outV.read (Elt F) (outV.writes (Elt F) outV.junk (runLast c i arg2 harg2 arg3 harg3 arg4 harg4 arg5 harg5 arg6 harg6 arg7 harg7 arg8 harg8 hc0 hc1 x0 x1 x2 x3 x4 xs).1)

theorem accCoverLast (c : Dev nD) (i : grid1.Coords) (arg2 : Memref sig .tc .vmem S2000x1 .i32) (harg2 : arg2.IsWhole) (arg3 : Memref sig .tc .vmem S2000x1 .i32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S2000x64 .f32) (harg8 : arg8.IsWhole) (hc0 : ¬isFirst i) (hc1 : isLast i)
    (x0 : Vec F S2000x1 .i32) (x1 : Vec F S2000x1 .i32) (x2 : Vec F S2000x64 .f32) (x3 : Vec F S2000x64 .f32) (x4 : Vec F S1x64 .f32) (xs : Vec F S2000x64 .f32) (y : S2000x64.Idx) :
    ∃ pc ∈ (runLast c i arg2 harg2 arg3 harg3 arg4 harg4 arg5 harg5 arg6 harg6 arg7 harg7 arg8 harg8 hc0 hc1 x0 x1 x2 x3 x4 xs).2.1, y ∈ pc.1.set :=
  View.cover_of_tiledL (runLast c i arg2 harg2 arg3 harg3 arg4 harg4 arg5 harg5 arg6 harg6 arg7 harg7 arg8 harg8 hc0 hc1 x0 x1 x2 x3 x4 xs).2.1 S2000x64.size (by sl_kernel_rfl) y

/-- What the last course leaves in the accumulator. -/
def accLast (c : Dev nD) (i : grid1.Coords) (arg2 : Memref sig .tc .vmem S2000x1 .i32) (harg2 : arg2.IsWhole) (arg3 : Memref sig .tc .vmem S2000x1 .i32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S2000x64 .f32) (harg8 : arg8.IsWhole) (hc0 : ¬isFirst i) (hc1 : isLast i)
    (x0 : Vec F S2000x1 .i32) (x1 : Vec F S2000x1 .i32) (x2 : Vec F S2000x64 .f32) (x3 : Vec F S2000x64 .f32) (x4 : Vec F S1x64 .f32) (xs : Vec F S2000x64 .f32) : Vec F S2000x64 .f32 :=
  accV.read (Elt F) (accV.writes (Elt F) accV.junk (runLast c i arg2 harg2 arg3 harg3 arg4 harg4 arg5 harg5 arg6 harg6 arg7 harg7 arg8 harg8 hc0 hc1 x0 x1 x2 x3 x4 xs).2.1)

/-! ## What the buffers hold after each point -/

/-- What the output window's buffer (first component) and the accumulator (second) hold after the body at point `n`:
    the course the point is in, run at the point's buffers and input blocks, a middle or last course over what the
    accumulator held after point `n - 1`. A node block cannot be both first and last. -/
def heldAt (c : Dev nD) : (n : ℕ) → n < cfg1.N → Vec F S2000x64 .f32 × Vec F S2000x64 .f32
  | 0, hn => (outFirst c (grid1.coords ⟨0, hn⟩) (mG0 ⟨0, hn⟩) (hG0 ⟨0, hn⟩) (mG1 ⟨0, hn⟩) (hG1 ⟨0, hn⟩) (mG2 ⟨0, hn⟩) (hG2 ⟨0, hn⟩) (mG3 ⟨0, hn⟩) (hG3 ⟨0, hn⟩) (mG4 ⟨0, hn⟩) (hG4 ⟨0, hn⟩) (mG5 ⟨0, hn⟩) (hG5 ⟨0, hn⟩) accM (Memref.isWhole_whole _) ((isFirst_iff ⟨0, hn⟩).mpr (Nat.zero_mod _)) (fun h => (fun h => by (try dsimp only at h); omega) ((isLast_iff ⟨0, hn⟩).mp h)) (blkG V c 0 ⟨0, hn⟩) (blkG V c 1 ⟨0, hn⟩) (blkG V c 2 ⟨0, hn⟩) (blkG V c 3 ⟨0, hn⟩) (blkG V c 4 ⟨0, hn⟩), accFirst c (grid1.coords ⟨0, hn⟩) (mG0 ⟨0, hn⟩) (hG0 ⟨0, hn⟩) (mG1 ⟨0, hn⟩) (hG1 ⟨0, hn⟩) (mG2 ⟨0, hn⟩) (hG2 ⟨0, hn⟩) (mG3 ⟨0, hn⟩) (hG3 ⟨0, hn⟩) (mG4 ⟨0, hn⟩) (hG4 ⟨0, hn⟩) (mG5 ⟨0, hn⟩) (hG5 ⟨0, hn⟩) accM (Memref.isWhole_whole _) ((isFirst_iff ⟨0, hn⟩).mpr (Nat.zero_mod _)) (fun h => (fun h => by (try dsimp only at h); omega) ((isLast_iff ⟨0, hn⟩).mp h)) (blkG V c 0 ⟨0, hn⟩) (blkG V c 1 ⟨0, hn⟩) (blkG V c 2 ⟨0, hn⟩) (blkG V c 3 ⟨0, hn⟩) (blkG V c 4 ⟨0, hn⟩))
  | n + 1, hn =>
    if h0 : (n + 1) % 25 = 0 then
      if h1 : (n + 1) % 25 = 24 then
        False.elim (by omega)
      else
        (outFirst c (grid1.coords ⟨n + 1, hn⟩) (mG0 ⟨n + 1, hn⟩) (hG0 ⟨n + 1, hn⟩) (mG1 ⟨n + 1, hn⟩) (hG1 ⟨n + 1, hn⟩) (mG2 ⟨n + 1, hn⟩) (hG2 ⟨n + 1, hn⟩) (mG3 ⟨n + 1, hn⟩) (hG3 ⟨n + 1, hn⟩) (mG4 ⟨n + 1, hn⟩) (hG4 ⟨n + 1, hn⟩) (mG5 ⟨n + 1, hn⟩) (hG5 ⟨n + 1, hn⟩) accM (Memref.isWhole_whole _) ((isFirst_iff ⟨n + 1, hn⟩).mpr h0) (fun h => h1 ((isLast_iff ⟨n + 1, hn⟩).mp h)) (blkG V c 0 ⟨n + 1, hn⟩) (blkG V c 1 ⟨n + 1, hn⟩) (blkG V c 2 ⟨n + 1, hn⟩) (blkG V c 3 ⟨n + 1, hn⟩) (blkG V c 4 ⟨n + 1, hn⟩), accFirst c (grid1.coords ⟨n + 1, hn⟩) (mG0 ⟨n + 1, hn⟩) (hG0 ⟨n + 1, hn⟩) (mG1 ⟨n + 1, hn⟩) (hG1 ⟨n + 1, hn⟩) (mG2 ⟨n + 1, hn⟩) (hG2 ⟨n + 1, hn⟩) (mG3 ⟨n + 1, hn⟩) (hG3 ⟨n + 1, hn⟩) (mG4 ⟨n + 1, hn⟩) (hG4 ⟨n + 1, hn⟩) (mG5 ⟨n + 1, hn⟩) (hG5 ⟨n + 1, hn⟩) accM (Memref.isWhole_whole _) ((isFirst_iff ⟨n + 1, hn⟩).mpr h0) (fun h => h1 ((isLast_iff ⟨n + 1, hn⟩).mp h)) (blkG V c 0 ⟨n + 1, hn⟩) (blkG V c 1 ⟨n + 1, hn⟩) (blkG V c 2 ⟨n + 1, hn⟩) (blkG V c 3 ⟨n + 1, hn⟩) (blkG V c 4 ⟨n + 1, hn⟩))
    else
      if h1 : (n + 1) % 25 = 24 then
        (outLast c (grid1.coords ⟨n + 1, hn⟩) (mG0 ⟨n + 1, hn⟩) (hG0 ⟨n + 1, hn⟩) (mG1 ⟨n + 1, hn⟩) (hG1 ⟨n + 1, hn⟩) (mG2 ⟨n + 1, hn⟩) (hG2 ⟨n + 1, hn⟩) (mG3 ⟨n + 1, hn⟩) (hG3 ⟨n + 1, hn⟩) (mG4 ⟨n + 1, hn⟩) (hG4 ⟨n + 1, hn⟩) (mG5 ⟨n + 1, hn⟩) (hG5 ⟨n + 1, hn⟩) accM (Memref.isWhole_whole _) (fun h => h0 ((isFirst_iff ⟨n + 1, hn⟩).mp h)) ((isLast_iff ⟨n + 1, hn⟩).mpr h1) (blkG V c 0 ⟨n + 1, hn⟩) (blkG V c 1 ⟨n + 1, hn⟩) (blkG V c 2 ⟨n + 1, hn⟩) (blkG V c 3 ⟨n + 1, hn⟩) (blkG V c 4 ⟨n + 1, hn⟩) (heldAt c n (Nat.lt_of_succ_lt hn)).2, accLast c (grid1.coords ⟨n + 1, hn⟩) (mG0 ⟨n + 1, hn⟩) (hG0 ⟨n + 1, hn⟩) (mG1 ⟨n + 1, hn⟩) (hG1 ⟨n + 1, hn⟩) (mG2 ⟨n + 1, hn⟩) (hG2 ⟨n + 1, hn⟩) (mG3 ⟨n + 1, hn⟩) (hG3 ⟨n + 1, hn⟩) (mG4 ⟨n + 1, hn⟩) (hG4 ⟨n + 1, hn⟩) (mG5 ⟨n + 1, hn⟩) (hG5 ⟨n + 1, hn⟩) accM (Memref.isWhole_whole _) (fun h => h0 ((isFirst_iff ⟨n + 1, hn⟩).mp h)) ((isLast_iff ⟨n + 1, hn⟩).mpr h1) (blkG V c 0 ⟨n + 1, hn⟩) (blkG V c 1 ⟨n + 1, hn⟩) (blkG V c 2 ⟨n + 1, hn⟩) (blkG V c 3 ⟨n + 1, hn⟩) (blkG V c 4 ⟨n + 1, hn⟩) (heldAt c n (Nat.lt_of_succ_lt hn)).2)
      else
        (outMiddle c (grid1.coords ⟨n + 1, hn⟩) (mG0 ⟨n + 1, hn⟩) (hG0 ⟨n + 1, hn⟩) (mG1 ⟨n + 1, hn⟩) (hG1 ⟨n + 1, hn⟩) (mG2 ⟨n + 1, hn⟩) (hG2 ⟨n + 1, hn⟩) (mG3 ⟨n + 1, hn⟩) (hG3 ⟨n + 1, hn⟩) (mG4 ⟨n + 1, hn⟩) (hG4 ⟨n + 1, hn⟩) (mG5 ⟨n + 1, hn⟩) (hG5 ⟨n + 1, hn⟩) accM (Memref.isWhole_whole _) (fun h => h0 ((isFirst_iff ⟨n + 1, hn⟩).mp h)) (fun h => h1 ((isLast_iff ⟨n + 1, hn⟩).mp h)) (blkG V c 0 ⟨n + 1, hn⟩) (blkG V c 1 ⟨n + 1, hn⟩) (blkG V c 2 ⟨n + 1, hn⟩) (blkG V c 3 ⟨n + 1, hn⟩) (blkG V c 4 ⟨n + 1, hn⟩) (heldAt c n (Nat.lt_of_succ_lt hn)).2, accMiddle c (grid1.coords ⟨n + 1, hn⟩) (mG0 ⟨n + 1, hn⟩) (hG0 ⟨n + 1, hn⟩) (mG1 ⟨n + 1, hn⟩) (hG1 ⟨n + 1, hn⟩) (mG2 ⟨n + 1, hn⟩) (hG2 ⟨n + 1, hn⟩) (mG3 ⟨n + 1, hn⟩) (hG3 ⟨n + 1, hn⟩) (mG4 ⟨n + 1, hn⟩) (hG4 ⟨n + 1, hn⟩) (mG5 ⟨n + 1, hn⟩) (hG5 ⟨n + 1, hn⟩) accM (Memref.isWhole_whole _) (fun h => h0 ((isFirst_iff ⟨n + 1, hn⟩).mp h)) (fun h => h1 ((isLast_iff ⟨n + 1, hn⟩).mp h)) (blkG V c 0 ⟨n + 1, hn⟩) (blkG V c 1 ⟨n + 1, hn⟩) (blkG V c 2 ⟨n + 1, hn⟩) (blkG V c 3 ⟨n + 1, hn⟩) (blkG V c 4 ⟨n + 1, hn⟩) (heldAt c n (Nat.lt_of_succ_lt hn)).2)

/-- `heldAt` at a first node block. -/
theorem heldAt_first (c : Dev nD) (t : Fin cfg1.N) (h0 : t.val % 25 = 0) (h1 : ¬t.val % 25 = 24) :
    heldAt V c t.val t.isLt = (outFirst c (grid1.coords t) (mG0 t) (hG0 t) (mG1 t) (hG1 t) (mG2 t) (hG2 t) (mG3 t) (hG3 t) (mG4 t) (hG4 t) (mG5 t) (hG5 t) accM (Memref.isWhole_whole _) ((isFirst_iff t).mpr h0) (fun h => h1 ((isLast_iff t).mp h)) (blkG V c 0 t) (blkG V c 1 t) (blkG V c 2 t) (blkG V c 3 t) (blkG V c 4 t), accFirst c (grid1.coords t) (mG0 t) (hG0 t) (mG1 t) (hG1 t) (mG2 t) (hG2 t) (mG3 t) (hG3 t) (mG4 t) (hG4 t) (mG5 t) (hG5 t) accM (Memref.isWhole_whole _) ((isFirst_iff t).mpr h0) (fun h => h1 ((isLast_iff t).mp h)) (blkG V c 0 t) (blkG V c 1 t) (blkG V c 2 t) (blkG V c 3 t) (blkG V c 4 t)) := by
  obtain ⟨n, hn⟩ := t
  cases n with
  | zero => exact rfl
  | succ n => exact (dif_pos h0).trans ((dif_neg h1).trans rfl)

/-- `heldAt` at a middle node block: over what the point before left. -/
theorem heldAt_middle (c : Dev nD) (t : Fin cfg1.N) (h0 : ¬t.val % 25 = 0) (h1 : ¬t.val % 25 = 24) :
    heldAt V c t.val t.isLt = (outMiddle c (grid1.coords t) (mG0 t) (hG0 t) (mG1 t) (hG1 t) (mG2 t) (hG2 t) (mG3 t) (hG3 t) (mG4 t) (hG4 t) (mG5 t) (hG5 t) accM (Memref.isWhole_whole _) (fun h => h0 ((isFirst_iff t).mp h)) (fun h => h1 ((isLast_iff t).mp h)) (blkG V c 0 t) (blkG V c 1 t) (blkG V c 2 t) (blkG V c 3 t) (blkG V c 4 t) (heldAt V c (t.val - 1) (Nat.lt_of_le_of_lt (Nat.sub_le _ _) t.isLt)).2, accMiddle c (grid1.coords t) (mG0 t) (hG0 t) (mG1 t) (hG1 t) (mG2 t) (hG2 t) (mG3 t) (hG3 t) (mG4 t) (hG4 t) (mG5 t) (hG5 t) accM (Memref.isWhole_whole _) (fun h => h0 ((isFirst_iff t).mp h)) (fun h => h1 ((isLast_iff t).mp h)) (blkG V c 0 t) (blkG V c 1 t) (blkG V c 2 t) (blkG V c 3 t) (blkG V c 4 t) (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `heldAt` at a last node block: over what the point before left. -/
theorem heldAt_last (c : Dev nD) (t : Fin cfg1.N) (h0 : ¬t.val % 25 = 0) (h1 : t.val % 25 = 24) :
    heldAt V c t.val t.isLt = (outLast c (grid1.coords t) (mG0 t) (hG0 t) (mG1 t) (hG1 t) (mG2 t) (hG2 t) (mG3 t) (hG3 t) (mG4 t) (hG4 t) (mG5 t) (hG5 t) accM (Memref.isWhole_whole _) (fun h => h0 ((isFirst_iff t).mp h)) ((isLast_iff t).mpr h1) (blkG V c 0 t) (blkG V c 1 t) (blkG V c 2 t) (blkG V c 3 t) (blkG V c 4 t) (heldAt V c (t.val - 1) (Nat.lt_of_le_of_lt (Nat.sub_le _ _) t.isLt)).2, accLast c (grid1.coords t) (mG0 t) (hG0 t) (mG1 t) (hG1 t) (mG2 t) (hG2 t) (mG3 t) (hG3 t) (mG4 t) (hG4 t) (mG5 t) (hG5 t) accM (Memref.isWhole_whole _) (fun h => h0 ((isFirst_iff t).mp h)) ((isLast_iff t).mpr h1) (blkG V c 0 t) (blkG V c 1 t) (blkG V c 2 t) (blkG V c 3 t) (blkG V c 4 t) (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The call's invariant before position `n`: before the first point the resting one (the accumulator at anything);
    afterwards the idle buffers, the accumulator at what the point before left, the generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) accM fullShare ((heldAt V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) accM fullShare ((heldAt V c n hn).2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) accM fullShare ((heldAt V c (n - 1) (by omega)).2)) ∗ (∃ r, prngReg c r)) := by
  cases n with
  | zero => exact absurd rfl hz
  | succ n => rfl

/-! ## The proof data -/

/-- The call's proof data on core `c`: the arrays as the call finds them; after the body at point `t` each input's
    buffer at its block and the output's at `heldAt`'s first component; the invariant `PhiS`; nothing owed. -/
def datG (c : Dev nD) : Dat τ (Elt F) Unit ℕ (UR sig nD τ) ℕ cfg1 c where
  A w := V c (Pipeline.arrRef spec1 w)
  after w t := match w with
    | ⟨0, _⟩ => blkG V c 0 t
    | ⟨1, _⟩ => blkG V c 1 t
    | ⟨2, _⟩ => blkG V c 2 t
    | ⟨3, _⟩ => blkG V c 3 t
    | ⟨4, _⟩ => blkG V c 4 t
    | ⟨5, _⟩ => (heldAt V c t.val t.isLt).1
  Φ t := PhiS V c t.val (Nat.le_of_lt_succ t.isLt)
  q _ := fullShare
  owed _ := 0

theorem A_eqG (c : Dev nD) (w : Fin cfg1.W) : (datG V c).A w = V c (Pipeline.arrRef spec1 w) := by
  dsimp only [datG]

theorem PhiS_castSucc (c : Dev nD) (t : Fin cfg1.N) :
    (datG V c).Φ t.castSucc = PhiS V c t.val (Nat.le_of_lt t.isLt) := by
  dsimp only [datG]; simp only [Fin.coe_castSucc]

theorem afterG0 (c : Dev nD) (t : Fin cfg1.N) : (datG V c).after 0 t = blkG V c 0 t := by dsimp only [datG]
theorem afterG1 (c : Dev nD) (t : Fin cfg1.N) : (datG V c).after 1 t = blkG V c 1 t := by dsimp only [datG]
theorem afterG2 (c : Dev nD) (t : Fin cfg1.N) : (datG V c).after 2 t = blkG V c 2 t := by dsimp only [datG]
theorem afterG3 (c : Dev nD) (t : Fin cfg1.N) : (datG V c).after 3 t = blkG V c 3 t := by dsimp only [datG]
theorem afterG4 (c : Dev nD) (t : Fin cfg1.N) : (datG V c).after 4 t = blkG V c 4 t := by dsimp only [datG]
theorem afterG5 (c : Dev nD) (t : Fin cfg1.N) : (datG V c).after 5 t = (heldAt V c t.val t.isLt).1 := by dsimp only [datG]

theorem beforeG0 (c : Dev nD) (t : Fin cfg1.N) (d) : (datG V c).before 0 t d = blkG V c 0 t :=
  beforeG0_of V (datG V c) (A_eqG V c 0) (afterG0 V c) t d
theorem beforeG1 (c : Dev nD) (t : Fin cfg1.N) (d) : (datG V c).before 1 t d = blkG V c 1 t :=
  beforeG1_of V (datG V c) (A_eqG V c 1) (afterG1 V c) t d
theorem beforeG2 (c : Dev nD) (t : Fin cfg1.N) (d) : (datG V c).before 2 t d = blkG V c 2 t :=
  beforeG2_of V (datG V c) (A_eqG V c 2) (afterG2 V c) t d
theorem beforeG3 (c : Dev nD) (t : Fin cfg1.N) (d) : (datG V c).before 3 t d = blkG V c 3 t :=
  beforeG3_of V (datG V c) (A_eqG V c 3) (afterG3 V c) t d
theorem beforeG4 (c : Dev nD) (t : Fin cfg1.N) (d) : (datG V c).before 4 t d = blkG V c 4 t :=
  beforeG4_of V (datG V c) (A_eqG V c 4) (afterG4 V c) t d

/-- An input window, never idle, is left at what the body leaves: its block. -/
theorem leavesG0 (c : Dev nD) (t : Fin cfg1.N) : (datG V c).leavesExact 0 t = owns (c : Thread nD τ) (mG0 t) fullShare (blkG V c 0 t) := by
  unfold Dat.leavesExact; rw [show cfg1.idle 0 (cfg1.grid.coords t) = false from rfl, afterG0]
theorem leavesG1 (c : Dev nD) (t : Fin cfg1.N) : (datG V c).leavesExact 1 t = owns (c : Thread nD τ) (mG1 t) fullShare (blkG V c 1 t) := by
  unfold Dat.leavesExact; rw [show cfg1.idle 1 (cfg1.grid.coords t) = false from rfl, afterG1]
theorem leavesG2 (c : Dev nD) (t : Fin cfg1.N) : (datG V c).leavesExact 2 t = owns (c : Thread nD τ) (mG2 t) fullShare (blkG V c 2 t) := by
  unfold Dat.leavesExact; rw [show cfg1.idle 2 (cfg1.grid.coords t) = false from rfl, afterG2]
theorem leavesG3 (c : Dev nD) (t : Fin cfg1.N) : (datG V c).leavesExact 3 t = owns (c : Thread nD τ) (mG3 t) fullShare (blkG V c 3 t) := by
  unfold Dat.leavesExact; rw [show cfg1.idle 3 (cfg1.grid.coords t) = false from rfl, afterG3]
theorem leavesG4 (c : Dev nD) (t : Fin cfg1.N) : (datG V c).leavesExact 4 t = owns (c : Thread nD τ) (mG4 t) fullShare (blkG V c 4 t) := by
  unfold Dat.leavesExact; rw [show cfg1.idle 4 (cfg1.grid.coords t) = false from rfl, afterG4]

/-! ## The body obligation -/

/-- What the body is handed at point `t`, window by window, -/
def preG (c : Dev nD) (t : Fin cfg1.N) : sProp 𝕄 :=
  iprop((datG V c).Φ t.castSucc ∗ (datG V c).owesAt () t.castSucc
    ∗ (∃ d, owns (c : Thread nD τ) (mG0 t) fullShare ((datG V c).before 0 t d))
    ∗ (∃ d, owns (c : Thread nD τ) (mG1 t) fullShare ((datG V c).before 1 t d))
    ∗ (∃ d, owns (c : Thread nD τ) (mG2 t) fullShare ((datG V c).before 2 t d))
    ∗ (∃ d, owns (c : Thread nD τ) (mG3 t) fullShare ((datG V c).before 3 t d))
    ∗ (∃ d, owns (c : Thread nD τ) (mG4 t) fullShare ((datG V c).before 4 t d))
    ∗ (∃ d, owns (c : Thread nD τ) (mG5 t) fullShare ((datG V c).before 5 t d)))

/-- and what it hands back. -/
def postG (c : Dev nD) (t : Fin cfg1.N) : sProp 𝕄 :=
  iprop((datG V c).Φ t.succ ∗ (datG V c).owesAt () t.succ
    ∗ (datG V c).leavesExact 0 t
    ∗ (datG V c).leavesExact 1 t
    ∗ (datG V c).leavesExact 2 t
    ∗ (datG V c).leavesExact 3 t
    ∗ (datG V c).leavesExact 4 t
    ∗ (datG V c).leavesExact 5 t)

set_option maxHeartbeats 4800000 in
/-- The body at any point: the inputs' buffers hold their blocks; the closed forms say which course the point is in; the
    invariant hands the body the accumulator at what the point before left (at anything before the first point) and
    takes it back at this point's contents. -/
theorem sound_ptG (c : Dev nD) (t : Fin cfg1.N) :
    preG V c t ⊢ wp frame (wpE (defs₀ (F := F)) Variants.none c none) Set.univ (bodyAt1 t) (fun _ => postG V c t) := by
  unfold preG postG bodyAt1
  simp only [beforeG0, beforeG1, beforeG2, beforeG3, beforeG4]
  rw [show (datG V c).owesAt () t.succ = (datG V c).owesAt () t.castSucc from rfl]
  rw [show (datG V c).Φ t.succ = PhiS V c (t.val + 1) t.isLt from rfl, PhiS_succ]
  rw [leavesG0, leavesG1, leavesG2, leavesG3, leavesG4]
  by_cases h0 : t.val % 25 = 0
  · have h1 : ¬t.val % 25 = 24 := by omega
    rw [Dat.leavesExact_idle (datG V c) 5 t (idle_out_of_not_last _ (fun h => h1 ((isLast_iff t).mp h))) (noFlush_of_not_last t (fun h => h1 ((isLast_iff t).mp h)))]
    rw [heldAt_first V c t h0 h1]
    unfold accFirst; (try dsimp only)
    by_cases hz : t.val = 0
    · rw [PhiS_castSucc V c t, PhiS_zero V c _ _ hz, restG_eq]
      iintro ⟨⟨⟨Hb0, Hb1, Hb2, Hb3, Hb4, Hb5, Hb6, HS0⟩, Hg⟩, Ho, ⟨%d0, H0⟩, ⟨%d1, H1⟩, ⟨%d2, H2⟩, ⟨%d3, H3⟩, ⟨%d4, H4⟩, ⟨%d5, H5⟩⟩
      iapply ((runFirst c (grid1.coords t) _ _ _ _ _ _ _ _ _ _ _ _ _ _ ((isFirst_iff t).mpr h0) (fun h => h1 ((isLast_iff t).mp h)) (blkG V c 0 t) (blkG V c 1 t) (blkG V c 2 t) (blkG V c 3 t) (blkG V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [Hb0 Hb1 Hb2 Hb3 Hb4 Hb5 Hb6 HS0 Hg]
      · isplitl [Hb0 Hb1 Hb2 Hb3 Hb4 Hb5 Hb6 HS0]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          unfold owns; iexists _; isplitr
          swap; · iexact HS0
          ipureintro; exact View.read_writes_of_cover _ _ _ _ _ (accCoverFirst c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨Hb0, Hb1, Hb2, Hb3, Hb4, Hb5, Hb6, HS0⟩, Hg⟩, Ho, ⟨%d0, H0⟩, ⟨%d1, H1⟩, ⟨%d2, H2⟩, ⟨%d3, H3⟩, ⟨%d4, H4⟩, ⟨%d5, H5⟩⟩
      iapply ((runFirst c (grid1.coords t) _ _ _ _ _ _ _ _ _ _ _ _ _ _ ((isFirst_iff t).mpr h0) (fun h => h1 ((isLast_iff t).mp h)) (blkG V c 0 t) (blkG V c 1 t) (blkG V c 2 t) (blkG V c 3 t) (blkG V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [Hb0 Hb1 Hb2 Hb3 Hb4 Hb5 Hb6 HS0 Hg]
      · isplitl [Hb0 Hb1 Hb2 Hb3 Hb4 Hb5 Hb6 HS0]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          unfold owns; iexists _; isplitr
          swap; · iexact HS0
          ipureintro; exact View.read_writes_of_cover _ _ _ _ _ (accCoverFirst c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 25 = 24
    · rw [show (datG V c).leavesExact 5 t = owns (c : Thread nD τ) (mG5 t) fullShare ((datG V c).after 5 t) from by
        unfold Dat.leavesExact; rw [live_out_of_last _ ((isLast_iff t).mpr h1)], afterG5]
      rw [heldAt_last V c t h0 h1]
      unfold outLast accLast; (try dsimp only)
      rw [PhiS_castSucc V c t, PhiS_pos V c _ _ hz]
      iintro ⟨⟨⟨Hb0, Hb1, Hb2, Hb3, Hb4, Hb5, Hb6, HS0⟩, Hg⟩, Ho, ⟨%d0, H0⟩, ⟨%d1, H1⟩, ⟨%d2, H2⟩, ⟨%d3, H3⟩, ⟨%d4, H4⟩, ⟨%d5, H5⟩⟩
      iapply ((runLast c (grid1.coords t) _ _ _ _ _ _ _ _ _ _ _ _ _ _ (fun h => h0 ((isFirst_iff t).mp h)) ((isLast_iff t).mpr h1) (blkG V c 0 t) (blkG V c 1 t) (blkG V c 2 t) (blkG V c 3 t) (blkG V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [Hb0 Hb1 Hb2 Hb3 Hb4 Hb5 Hb6 HS0 Hg]
      · isplitl [Hb0 Hb1 Hb2 Hb3 Hb4 Hb5 Hb6 HS0]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          unfold owns; iexists _; isplitr
          swap; · iexact HS0
          ipureintro; exact View.read_writes_of_cover _ _ _ _ _ (accCoverLast c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (outCoverLast c _ _ _ _ _ _ _ _ _ _ _ _ _ _ _ _ _ _ _ _ _ _ _)
    · rw [Dat.leavesExact_idle (datG V c) 5 t (idle_out_of_not_last _ (fun h => h1 ((isLast_iff t).mp h))) (noFlush_of_not_last t (fun h => h1 ((isLast_iff t).mp h)))]
      rw [heldAt_middle V c t h0 h1]
      unfold accMiddle; (try dsimp only)
      rw [PhiS_castSucc V c t, PhiS_pos V c _ _ hz]
      iintro ⟨⟨⟨Hb0, Hb1, Hb2, Hb3, Hb4, Hb5, Hb6, HS0⟩, Hg⟩, Ho, ⟨%d0, H0⟩, ⟨%d1, H1⟩, ⟨%d2, H2⟩, ⟨%d3, H3⟩, ⟨%d4, H4⟩, ⟨%d5, H5⟩⟩
      iapply ((runMiddle c (grid1.coords t) _ _ _ _ _ _ _ _ _ _ _ _ _ _ (fun h => h0 ((isFirst_iff t).mp h)) (fun h => h1 ((isLast_iff t).mp h)) (blkG V c 0 t) (blkG V c 1 t) (blkG V c 2 t) (blkG V c 3 t) (blkG V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [Hb0 Hb1 Hb2 Hb3 Hb4 Hb5 Hb6 HS0 Hg]
      · isplitl [Hb0 Hb1 Hb2 Hb3 Hb4 Hb5 Hb6 HS0]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          unfold owns; iexists _; isplitr
          swap; · iexact HS0
          ipureintro; exact View.read_writes_of_cover _ _ _ _ _ (accCoverMiddle c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation of the gather call, at every point. -/
theorem obligationG (c : Dev nD) : BodyObligation (datG (F := F) V c) (defs₀ (F := F)) Variants.none () Set.univ := fun t => by
  rw [bigSep_W1, bigSep_W1]
  exact sound_ptG V c t

/-- The resting invariant is the invariant before the first point. -/
theorem hinG (c : Dev nD) : Pipeline.ΦA spec1 c ⊢ (datG V c).Φ 0 := by
  rw [show (datG V c).Φ 0 = PhiS V c 0 (Nat.zero_le _) from rfl, PhiS_zero V c 0 _ rfl]
  try exact Idealize.SL.BI.Entails.refl _

/-- After the last point the invariant gives the resting one back: what the accumulator holds is forgotten. -/
theorem houtG (c : Dev nD) : (datG V c).Φ (Fin.last cfg1.N) ⊢ Pipeline.ΦA spec1 c := by
  rw [show (datG V c).Φ (Fin.last cfg1.N) = PhiS V c (Fin.last cfg1.N).val (Nat.le_of_lt_succ (Fin.last cfg1.N).isLt) from rfl,
    PhiS_pos V c _ _ (by rw [Fin.val_last]; have : cfg1.N = 10000 := N_1; omega), restG_eq]
  iintro ⟨⟨Hb0, Hb1, Hb2, Hb3, Hb4, Hb5, Hb6, HS0⟩, Hg⟩
  isplitl [Hb0 Hb1 Hb2 Hb3 Hb4 Hb5 Hb6 HS0]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    iexists _; iexact HS0
  iexact Hg

end Cert.Kernel.Fr

end
-- ==== Proof.Bits.Whole.lean ====
/-
  The whole program: three reshapes on the host (the two edge lists into columns, the bias into a row), the projection
  call, the gather call. The device's buffer contents are followed from launch to return: after the reshapes
  (`W1`), after the projection call, whose two output arrays then hold what its write-backs leave (`W2`), after the
  gather call, whose output array then holds what its write-backs leave (`W3`). Each call enters with every buffer at the
  boundary's contents and leaves with every buffer at the next boundary's. The run: every fair execution ends, nothing
  faulting, with every buffer that outlives the calls at `W3`'s contents — so the five arguments as launched, and the
  result array at the gather call's final array. It holds at any float instance.
-/
import proofs.«426469_j38474317037707_1_alg».proof.Proof.Bits.Proj
import proofs.«426469_j38474317037707_1_alg».proof.Proof.Bits.Gm

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 (c : Dev nD) : Valuation τ sig (Elt F) := fun b => m (c, b)
/-- After the three reshapes (the projection call's entry). -/
abbrev W1 (c : Dev nD) : Valuation τ sig (Elt F) := StableHlo.after hostOps0 (W0 m c)
/-- The same read at the core's own references. -/
abbrev V1 : (c : Dev nD) → (b : Ref sig .tc) → Buf (Elt F) ((c : Thread nD τ).loc b) := fun c b => W1 m c b
/-- At the projection call's exit: its arrays at what the call leaves, every other buffer as entered. -/
def W2 (c : Dev nD) : Valuation τ sig (Elt F) :=
  Pipeline.withArrays spec0 c (W1 m c) fun w => (datP (V1 m) c).arrAt w cfg0.N
theorem W2_arr (c : Dev nD) (w : Fin cfg0.W) :
    W2 m c (Proc.devRef .tc (Pipeline.arrRef spec0 w)) = (datP (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem exitP (c : Dev nD) (w : Fin cfg0.W) : (datP (V1 m) c).arrAt w cfg0.N = V2 m c (Pipeline.arrRef spec0 w) :=
  (W2_arr m c w).symm
theorem restP (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the gather call's exit: its arrays at what the call leaves, every other buffer as entered. -/
def W3 (c : Dev nD) : Valuation τ sig (Elt F) :=
  Pipeline.withArrays spec1 c (W2 m c) fun w => (datG (V2 m) c).arrAt w cfg1.N
theorem W3_arr (c : Dev nD) (w : Fin cfg1.W) :
    W3 m c (Proc.devRef .tc (Pipeline.arrRef spec1 w)) = (datG (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem exitG (c : Dev nD) (w : Fin cfg1.W) : (datG (V2 m) c).arrAt w cfg1.N = V3 m c (Pipeline.arrRef spec1 w) :=
  (W3_arr m c w).symm
theorem restG (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched -/

/-- No reshape writes a buffer other than its own result. -/
theorem W1_of_arg (c : Dev nD) (b : Ref sig .tc) (h0 : b ≠ main_v0) (h1 : b ≠ main_v1) (h2 : b ≠ main_v2) :
    W1 m c (Proc.devRef .tc b) = m ((c : Thread nD τ).loc b) :=
  (StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1, StableHlo.devRef_ne_of_ne h2⟩))).trans rfl

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((datP (V1 m) c).arrAt_in 0 rfl _).trans (A_eqP (V1 m) c 0))
    _ = m ((c : Thread nD τ).loc main_arg0) := W1_of_arg m c main_arg0 (by decide) (by decide) (by decide)
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 1).trans (((datP (V1 m) c).arrAt_in 1 rfl _).trans (A_eqP (V1 m) c 1))
    _ = m ((c : Thread nD τ).loc main_arg1) := W1_of_arg m c main_arg1 (by decide) (by decide) (by decide)
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := W1_of_arg m c main_arg2 (by decide) (by decide) (by decide)
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := W1_of_arg m c main_arg3 (by decide) (by decide) (by decide)
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = m ((c : Thread nD τ).loc main_arg4) := W1_of_arg m c main_arg4 (by decide) (by decide) (by decide)

/-- The result array ends at what the gather call's write-backs leave in it. -/
theorem W3_result (c : Dev nD) : W3 m c (Proc.devRef .tc main_v4) = (datG (V2 m) c).arrAt 5 cfg1.N := W3_arr m c 5

/-- What the gather call finds: the two projected arrays as the projection call left them, -/
theorem V2_projSrc (c : Dev nD) : V2 m c main_v3_0 = (datP (V1 m) c).arrAt 2 cfg0.N := W2_arr m c 2
theorem V2_projDst (c : Dev nD) : V2 m c main_v3_1 = (datP (V1 m) c).arrAt 3 cfg0.N := W2_arr m c 3
/-- and the reshaped edge lists and bias as the reshapes left them. -/
theorem V2_src (c : Dev nD) : V2 m c main_v0 = V1 m c main_v0 := W2_of_ne m c main_v0 (by decide)
theorem V2_dst (c : Dev nD) : V2 m c main_v1 = V1 m c main_v1 := W2_of_ne m c main_v1 (by decide)
theorem V2_bias (c : Dev nD) : V2 m c main_v2 = V1 m c main_v2 := W2_of_ne m c main_v2 (by decide)
/-- What the projection call finds: the features and the weights as launched. -/
theorem V1_x (c : Dev nD) : V1 m c main_arg0 = m ((c : Thread nD τ).loc main_arg0) := W1_of_arg m c main_arg0 (by decide) (by decide) (by decide)
theorem V1_w (c : Dev nD) : V1 m c main_arg1 = m ((c : Thread nD τ).loc main_arg1) := W1_of_arg m c main_arg1 (by decide) (by decide) (by decide)

/-! ## The proof data family and the thread state -/

/-- No call has a prefetched table. -/
abbrev adm : (p : Fin 2) → (pcfgs (F := F) p).Adm := fun p => (cfgs p).toPCfg_adm
/-- Both calls' proof data, each at its call's entry contents. -/
def pdats : (p : Fin 2) → (c : Dev nD) → Dat τ (Elt F) Unit ℕ (UR sig nD τ) ℕ (Pipeline.pin (pcfgs (F := F)) adm p) c
  | ⟨0, _⟩ => fun c => datP (V1 m) c
  | ⟨1, _⟩ => fun c => datG (V2 m) c
abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)

/-- The reshapes as a segment, from the launch contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem reshapes_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for the `owes`: every buffer that outlives the calls at `W3`, the generator register. -/
abbrev Tₙ (c : Dev nD) : sProp 𝕄 := iprop(StableHlo.held (c : Thread nD τ) (Pipeline.ucRefs τ sig) (W3 m c) ∗ ∃ r, prngReg c r)

/-! ## The calls as segments -/

set_option backward.isDefEq.respectTransparency.types false in
/-- The projection call: entered from every buffer at `W1`, left at `W2`. Its arrays are split out of the buffers and put
    back at the exit contents; the generator register goes into the resting invariant and comes out; nothing owed. -/
def regP : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligationP (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exitP m c) (restP m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gather call: entered from every buffer at `W2`, left at `W3`. As the projection call, but its invariant carries
    the accumulator: it starts from the resting invariant and gives it back after the last point. -/
def regG : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligationG (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hinG (V2 m) c)
    unfold Pipeline.ΦA
    iintro ⟨Hp, -, Hr⟩
    isplitl [Hr]; · iexact Hr
    iexact Hp
  hout c := by
    rw [Pipeline.ownSems0_none]
    refine (houtG (V2 m) c).trans (?_ : (Pipeline.ΦA spec1 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (exitG m c) (restG m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub reshapes_fresh (W0 m)),
    .region (regP m),
    .region (regG m) ]
/-- The program is the run of its segments. -/
theorem main_run (c : Dev nD) : main (F := F) c = Pipeline.Seg.run (segs m) := (main_chain c).trans (by chain_rfl)

set_option backward.isDefEq.respectTransparency.types false in
/-- THE RUN. From any memory with zero counters, every weakly fair execution of the program ends, nothing faulting, with
    every buffer that outlives the calls at `W3`'s contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The program runs and its five arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

/-- The program runs, its result array ends at the gather call's final array, and its arguments end as launched. -/
theorem run_result : θ_run defs (onTc (τ := τ) (main (F := F))) ⟨m, fun _ => 0, ρ⟩ (fun r => ∀ c : Dev nD,
      r.2.mem ((c.tc : Thread nD τ).loc main_v4) = (datG (V2 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v4 (by decide))).trans (W3_result m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

end Cert.Kernel.Fr

end
-- ==== Proof.Ideal.Proj.lean ====
/-
  The projection call (the first of the program's two kernel calls): at grid point `t` (ten points) it takes rows
  5000·t … 5000·t + 4999 of the node features `x` and the whole weight matrix `W`, and writes the same rows of two
  arrays: the block times the upper half of `W` and the block times the lower half. Nothing is kept between points.

  This module states what each of the two output blocks holds after the body as a function of the two input blocks
  (`outA`, `outB`: the body's single whole-block store of each, over the body's arithmetic as the program's payload
  terms), runs the body once on arbitrary whole staging buffers, and gives the call's proof data over any contents
  `V` of the device's buffers at the call's entry: every input buffer holds its block of `V`'s array at every point,
  every output buffer is left at `outA` / `outB` of those blocks. It holds at any float instance.
-/
import proofs.«426469_j38474317037707_1_alg».proof.Proof.Gen.KernelIdeal.Launch
import proofs.«426469_j38474317037707_1_alg».proof.Proof.Gen.KernelIdeal.Skeleton
import proofs.«426469_j38474317037707_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the device's buffer contents when the call is entered
variable (V : (c : Dev nD) → (b : Ref sig .tc) → Buf (Elt F) ((c : Thread nD τ).loc b))

/-- Window `w`'s block at point `t`: the rows of its array (as the call finds it) that the point works on. -/
def blkP (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature block's staging buffer holds the point's rows at every point, for any proof data over `V` whose body
    leaves that buffer alone. -/
theorem beforeP0_of {c : Dev nD} (dat : Dat τ (Elt F) Unit ℕ (UR sig nD τ) ℕ cfg0 c) (hA : dat.A 0 = V c (Pipeline.arrRef spec0 0))
    (hafter : ∀ t, dat.after 0 t = blkP V c 0 t) (t : Fin cfg0.N) (d) : dat.before 0 t d = blkP V c 0 t :=
  (dat.before_in_eq_fetched 0 rfl (fun _ => rfl) (fun _ _ _ => rfl) (fun t => by rw [hafter]; unfold Dat.blockOf blkP; rw [hA]; try rfl) t d).trans
    (by unfold Dat.fetched Dat.blockOf blkP; rw [hA]; try rfl)

/-- The weight matrix's staging buffer holds the whole matrix at every point (it is brought in once, at the first). -/
theorem beforeP1_of {c : Dev nD} (dat : Dat τ (Elt F) Unit ℕ (UR sig nD τ) ℕ cfg0 c) (hA : dat.A 1 = V c (Pipeline.arrRef spec0 1))
    (hafter : ∀ t, dat.after 1 t = blkP V c 1 t) (t : Fin cfg0.N) (d) : dat.before 1 t d = blkP V c 1 t :=
  (dat.before_in_eq_fetched 1 rfl (fun _ => rfl) (fun _ _ _ => rfl) (fun t => by rw [hafter]; unfold Dat.blockOf blkP; rw [hA]; try rfl) t d).trans
    (by unfold Dat.fetched Dat.blockOf blkP; rw [hA]; try rfl)

/-- The whole 5000 × 64 block and the whole 128 × 64 matrix, as rectangles of their buffers. -/
abbrev rRows : Rect S5000x64 := Rect.unit (s := S5000x64) ![0, 0] S5000x64.size inb_S5000x64_S5000x64_0_0
abbrev rW : Rect S128x64 := Rect.unit (s := S128x64) ![0, 0] S128x64.size inb_S128x64_S128x64_0_0

/-- What the body leaves in the first output block: its one store, the rows times the upper half of `W`. -/
def outA (x0 : Vec F S5000x64 .f32) (x1 : Vec F S128x64 .f32) : Vec F S5000x64 .f32 :=
  View.canon [⟨rRows, k0_pay3 (View.ld x0 rRows) (View.ld x1 rW)⟩]

/-- What the body leaves in the second output block: its one store, the rows times the lower half of `W`. -/
def outB (x0 : Vec F S5000x64 .f32) (x1 : Vec F S128x64 .f32) : Vec F S5000x64 .f32 :=
  View.canon [⟨rRows, k0_pay4 (View.ld x0 rRows) (View.ld x1 rW)⟩]

/-- One whole-block store covers the block. -/
theorem coverRows (p0 : Vec F S5000x64 .f32) (y : S5000x64.Idx) :
    ∃ pc ∈ ([⟨rRows, p0⟩] : List (View.Piece (Elt F) S5000x64 .f32)), y ∈ pc.1.set :=
  View.cover_of_tiled [⟨rRows, p0⟩] S5000x64.size (by rfl) y

set_option maxHeartbeats 1000000 in
/-- The body on whole staging buffers — the two inputs at contents `x0`, `x1`, the two outputs at anything — runs to
    its end with the inputs as they were and the outputs at `outA x0 x1`, `outB x0 x1`. -/
theorem sound_proj (c : Dev nD) (E : Set ℕ) (i : grid0.Coords) (arg1 : Memref sig .tc .vmem S5000x64 .f32) (harg1 : arg1.IsWhole)
    (arg2 : Memref sig .tc .vmem S128x64 .f32) (harg2 : arg2.IsWhole) (arg3 : Memref sig .tc .vmem S5000x64 .f32) (harg3 : arg3.IsWhole)
    (arg4 : Memref sig .tc .vmem S5000x64 .f32) (harg4 : arg4.IsWhole)
    (x0 : Vec F S5000x64 .f32) (x1 : Vec F S128x64 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (outA x0 x1) ∗ owns (c : Thread nD τ) arg4 fullShare (outB x0 x1)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (coverRows _)
  iexists _; isplitr
  swap; · iexact H3
  ipureintro
  exact View.read_writes_eq_canon _ _ _ (coverRows _)

/-- The call's proof data on core `c`: the arrays as the call finds them; after the body at point `t` the inputs'
    buffers at their blocks and the outputs' at `outA`, `outB` of those blocks; nothing carried, nothing owed. -/
def datP (c : Dev nD) : Dat τ (Elt F) Unit ℕ (UR sig nD τ) ℕ cfg0 c where
  A w := V c (Pipeline.arrRef spec0 w)
  after w t := match w with
    | ⟨0, _⟩ => blkP V c 0 t
    | ⟨1, _⟩ => blkP V c 1 t
    | ⟨2, _⟩ => outA (blkP V c 0 t) (blkP V c 1 t)
    | ⟨3, _⟩ => outB (blkP V c 0 t) (blkP V c 1 t)
  Φ _ := Pipeline.ΦA spec0 c
  q _ := fullShare
  owed _ := 0

theorem A_eqP (c : Dev nD) (w : Fin cfg0.W) : (datP V c).A w = V c (Pipeline.arrRef spec0 w) := by
  dsimp only [datP]

theorem afterP0 (c : Dev nD) (t : Fin cfg0.N) : (datP V c).after 0 t = blkP V c 0 t := by dsimp only [datP]
theorem afterP1 (c : Dev nD) (t : Fin cfg0.N) : (datP V c).after 1 t = blkP V c 1 t := by dsimp only [datP]
theorem afterP2 (c : Dev nD) (t : Fin cfg0.N) : (datP V c).after 2 t = outA (blkP V c 0 t) (blkP V c 1 t) := by dsimp only [datP]
theorem afterP3 (c : Dev nD) (t : Fin cfg0.N) : (datP V c).after 3 t = outB (blkP V c 0 t) (blkP V c 1 t) := by dsimp only [datP]

theorem beforeP0 (c : Dev nD) (t : Fin cfg0.N) (d) : (datP V c).before 0 t d = blkP V c 0 t :=
  beforeP0_of V (datP V c) (A_eqP V c 0) (afterP0 V c) t d
theorem beforeP1 (c : Dev nD) (t : Fin cfg0.N) (d) : (datP V c).before 1 t d = blkP V c 1 t :=
  beforeP1_of V (datP V c) (A_eqP V c 1) (afterP1 V c) t d

/-- What the body is handed at point `t`, window by window, -/
def prePt (c : Dev nD) (t : Fin cfg0.N) : sProp 𝕄 :=
  iprop((datP V c).Φ t.castSucc ∗ (datP V c).owesAt () t.castSucc
    ∗ (∃ d, owns (c : Thread nD τ) (st0_0 t) fullShare ((datP V c).before 0 t d))
    ∗ (∃ d, owns (c : Thread nD τ) (st0_1 t) fullShare ((datP V c).before 1 t d))
    ∗ (∃ d, owns (c : Thread nD τ) (st0_2 t) fullShare ((datP V c).before 2 t d))
    ∗ (∃ d, owns (c : Thread nD τ) (st0_3 t) fullShare ((datP V c).before 3 t d)))

/-- and what it hands back. -/
def postPt (c : Dev nD) (t : Fin cfg0.N) : sProp 𝕄 :=
  iprop((datP V c).Φ t.succ ∗ (datP V c).owesAt () t.succ
    ∗ owns (c : Thread nD τ) (st0_0 t) fullShare ((datP V c).after 0 t)
    ∗ owns (c : Thread nD τ) (st0_1 t) fullShare ((datP V c).after 1 t)
    ∗ owns (c : Thread nD τ) (st0_2 t) fullShare ((datP V c).after 2 t)
    ∗ owns (c : Thread nD τ) (st0_3 t) fullShare ((datP V c).after 3 t))

/-- The body at any point: the inputs' buffers hold their blocks, so `sound_proj` applies. -/
theorem sound_pt (c : Dev nD) (t : Fin cfg0.N) :
    prePt V c t ⊢ wp frame (wpE (defs₀ (F := F)) Variants.none c none) Set.univ (bodyAt0 t) (fun _ => postPt V c t) := by
  unfold prePt postPt bodyAt0
  simp only [beforeP0, beforeP1]
  rw [show (datP V c).Φ t.succ = (datP V c).Φ t.castSucc from rfl,
    show (datP V c).owesAt () t.succ = (datP V c).owesAt () t.castSucc from rfl,
    afterP0, afterP1, afterP2, afterP3]
  iintro ⟨HΦ, Ho, ⟨%d0, H0⟩, ⟨%d1, H1⟩, ⟨%d2, H2⟩, ⟨%d3, H3⟩⟩
  iapply (sound_proj c Set.univ _ _ _ _ _ _ _ _ _ (blkP V c 0 t) (blkP V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the projection call, at every point. -/
theorem obligationP (c : Dev nD) : BodyObligation (datP (F := F) V c) (defs₀ (F := F)) Variants.none () Set.univ := fun t => by
  rw [bigSep_W0, bigSep_W0]
  exact sound_pt V c t

end Cert.KernelIdeal.Fr

end
-- ==== Proof.Ideal.GmRuns.lean ====
/-
  The gather call (the second kernel call), on a 400 × 25 grid: point `t` is edge block `t / 25` (2000 edges) against
  node block `t % 25` (2000 nodes). Its body keeps a 2000 × 64 accumulator between points: at a block's first node
  block it zeroes it, at every node block it adds the two one-hot products of the point, and at the last node block
  it writes accumulator plus bias to the edge block's output rows. So the body has three courses — first node block,
  a middle one, the last — told apart by the two conditions below, which the grid decides in closed form.

  This module holds what the three courses share: the windows' blocks of the arrays the call finds, that every input
  buffer holds its block at every point, the two conditions, where the output window is idle (everywhere but at a last
  node block), the staging and accumulator buffers by name, and the call's resting invariant with the accumulator's
  buffer named apart from the first call's staging buffers, which merely lie idle during this call.
-/
import proofs.«426469_j38474317037707_1_alg».proof.Proof.Gen.KernelIdeal.Launch
import proofs.«426469_j38474317037707_1_alg».proof.Proof.Gen.KernelIdeal.Skeleton
import proofs.«426469_j38474317037707_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the device's buffer contents when the call is entered
variable (V : (c : Dev nD) → (b : Ref sig .tc) → Buf (Elt F) ((c : Thread nD τ).loc b))

/-- Window `w`'s block at point `t`, read off its array as the call finds it. -/
def blkG (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the point's block at every point, brought in there or earlier, for any
    proof data over `V` whose body leaves that buffer alone: the source column, -/
theorem beforeG0_of {c : Dev nD} (dat : Dat τ (Elt F) Unit ℕ (UR sig nD τ) ℕ cfg1 c) (hA : dat.A 0 = V c (Pipeline.arrRef spec1 0))
    (hafter : ∀ t, dat.after 0 t = blkG V c 0 t) (t : Fin cfg1.N) (d) : dat.before 0 t d = blkG V c 0 t :=
  (dat.before_in_eq_fetched 0 rfl (fun _ => rfl) (fun _ _ _ => rfl) (fun t => by rw [hafter]; unfold Dat.blockOf blkG; rw [hA]; try rfl) t d).trans
    (by unfold Dat.fetched Dat.blockOf blkG; rw [hA]; try rfl)
/-- the destination column, -/
theorem beforeG1_of {c : Dev nD} (dat : Dat τ (Elt F) Unit ℕ (UR sig nD τ) ℕ cfg1 c) (hA : dat.A 1 = V c (Pipeline.arrRef spec1 1))
    (hafter : ∀ t, dat.after 1 t = blkG V c 1 t) (t : Fin cfg1.N) (d) : dat.before 1 t d = blkG V c 1 t :=
  (dat.before_in_eq_fetched 1 rfl (fun _ => rfl) (fun _ _ _ => rfl) (fun t => by rw [hafter]; unfold Dat.blockOf blkG; rw [hA]; try rfl) t d).trans
    (by unfold Dat.fetched Dat.blockOf blkG; rw [hA]; try rfl)
/-- the node block of the first projection, -/
theorem beforeG2_of {c : Dev nD} (dat : Dat τ (Elt F) Unit ℕ (UR sig nD τ) ℕ cfg1 c) (hA : dat.A 2 = V c (Pipeline.arrRef spec1 2))
    (hafter : ∀ t, dat.after 2 t = blkG V c 2 t) (t : Fin cfg1.N) (d) : dat.before 2 t d = blkG V c 2 t :=
  (dat.before_in_eq_fetched 2 rfl (fun _ => rfl) (fun _ _ _ => rfl) (fun t => by rw [hafter]; unfold Dat.blockOf blkG; rw [hA]; try rfl) t d).trans
    (by unfold Dat.fetched Dat.blockOf blkG; rw [hA]; try rfl)
/-- the node block of the second projection, -/
theorem beforeG3_of {c : Dev nD} (dat : Dat τ (Elt F) Unit ℕ (UR sig nD τ) ℕ cfg1 c) (hA : dat.A 3 = V c (Pipeline.arrRef spec1 3))
    (hafter : ∀ t, dat.after 3 t = blkG V c 3 t) (t : Fin cfg1.N) (d) : dat.before 3 t d = blkG V c 3 t :=
  (dat.before_in_eq_fetched 3 rfl (fun _ => rfl) (fun _ _ _ => rfl) (fun t => by rw [hafter]; unfold Dat.blockOf blkG; rw [hA]; try rfl) t d).trans
    (by unfold Dat.fetched Dat.blockOf blkG; rw [hA]; try rfl)
/-- the bias row. -/
theorem beforeG4_of {c : Dev nD} (dat : Dat τ (Elt F) Unit ℕ (UR sig nD τ) ℕ cfg1 c) (hA : dat.A 4 = V c (Pipeline.arrRef spec1 4))
    (hafter : ∀ t, dat.after 4 t = blkG V c 4 t) (t : Fin cfg1.N) (d) : dat.before 4 t d = blkG V c 4 t :=
  (dat.before_in_eq_fetched 4 rfl (fun _ => rfl) (fun _ _ _ => rfl) (fun t => by rw [hafter]; unfold Dat.blockOf blkG; rw [hA]; try rfl) t d).trans
    (by unfold Dat.fetched Dat.blockOf blkG; rw [hA]; try rfl)

/-! ## The two conditions -/

/-- "This is the edge block's first node block": the body's first branch condition, from the grid coordinates. -/
abbrev isFirst (i : grid1.Coords) : Prop := (Scalar.cmpi .ne (Scalar.extui (Scalar.cmpi .eq (BitVec.ofNat 32 (i 1).val) 0#32)) 0#32) = 1#1
/-- It holds at the points ≡ 0 (mod 25). -/
theorem isFirst_iff : ∀ t : Fin cfg1.N, isFirst (grid1.coords t) ↔ t.val % 25 = 0 :=
  (by decide +kernel : ∀ t : Fin grid1.N, isFirst (grid1.coords t) ↔ t.val % 25 = 0)

/-- "This is the edge block's last node block": the body's second branch condition. -/
abbrev isLast (i : grid1.Coords) : Prop := k1_cond2 i = 1#1
/-- It holds at the points ≡ 24 (mod 25). -/
theorem isLast_iff : ∀ t : Fin cfg1.N, isLast (grid1.coords t) ↔ t.val % 25 = 24 :=
  (by decide +kernel : ∀ t : Fin grid1.N, isLast (grid1.coords t) ↔ t.val % 25 = 24)

/-! ## Where the output window is idle -/

/-- The output window is idle exactly where the point is not a last node block. -/
theorem idle_out (i : grid1.Coords) : cfg1.idle 5 i = !(k1_cond2 i == 1#1) := rfl

theorem idle_out_of_not_last (i : grid1.Coords) (h : ¬isLast i) : cfg1.idle 5 i = true := by
  rw [idle_out]; simp only [Bool.not_eq_eq_eq_not, Bool.not_true, beq_eq_false_iff_ne, ne_eq]; exact h
theorem live_out_of_last (i : grid1.Coords) (h : isLast i) : cfg1.idle 5 i = false := by
  rw [idle_out, show k1_cond2 i = 1#1 from h]; rfl
/-- and there its block is not written back. -/
theorem noFlush_of_not_last (t : Fin cfg1.N) (h : ¬isLast (grid1.coords t)) : (cfg1.win 5).flush t = false := by
  have := (flush1_5 t).not.mpr (fun e => h ((isLast_iff t).mpr e))
  simpa using this

/-! ## The buffers by name -/

/-- Each window's current staging buffer at point `t`, as the body is called with it, and that it is a whole buffer. -/
abbrev mG0 (t : Fin cfg1.N) : Memref sig .tc .vmem S2000x1 .i32 := win1_0.stage (cfg1.slots t 0)
abbrev hG0 (t : Fin cfg1.N) : (mG0 t).IsWhole := hstage1_0 ((cfg1.slots t 0).cast nbuf1_0)
abbrev mG1 (t : Fin cfg1.N) : Memref sig .tc .vmem S2000x1 .i32 := win1_1.stage (cfg1.slots t 1)
abbrev hG1 (t : Fin cfg1.N) : (mG1 t).IsWhole := hstage1_1 ((cfg1.slots t 1).cast nbuf1_1)
abbrev mG2 (t : Fin cfg1.N) : Memref sig .tc .vmem S2000x64 .f32 := win1_2.stage (cfg1.slots t 2)
abbrev hG2 (t : Fin cfg1.N) : (mG2 t).IsWhole := hstage1_2 ((cfg1.slots t 2).cast nbuf1_2)
abbrev mG3 (t : Fin cfg1.N) : Memref sig .tc .vmem S2000x64 .f32 := win1_3.stage (cfg1.slots t 3)
abbrev hG3 (t : Fin cfg1.N) : (mG3 t).IsWhole := hstage1_3 ((cfg1.slots t 3).cast nbuf1_3)
abbrev mG4 (t : Fin cfg1.N) : Memref sig .tc .vmem S1x64 .f32 := win1_4.stage (cfg1.slots t 4)
abbrev hG4 (t : Fin cfg1.N) : (mG4 t).IsWhole := hstage1_4 ((cfg1.slots t 4).cast nbuf1_4)
abbrev mG5 (t : Fin cfg1.N) : Memref sig .tc .vmem S2000x64 .f32 := win1_5.stage (cfg1.slots t 5)
abbrev hG5 (t : Fin cfg1.N) : (mG5 t).IsWhole := hstage1_5 ((cfg1.slots t 5).cast nbuf1_5)
/-- The accumulator: a whole buffer of the call's own, passed beside the windows. -/
abbrev accM : Memref sig .tc .vmem S2000x64 .f32 := Memref.whole cc1_scratch0
/-- The accumulator as a view: what it holds is stated through it. -/
abbrev accV : View sig .tc .vmem S2000x64 .f32 := accM.view
/-- One staging buffer of the output window, through which its contents are stated (the choice does not matter). -/
abbrev outV : View sig .tc .vmem S2000x64 .f32 := (Memref.whole cc1_stg5_0 : Memref sig .tc .vmem S2000x64 .f32).view

/-- The first call's seven staging buffers, each whole at some contents: they lie idle during this call. -/
def idleBufs (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The call's resting invariant with the accumulator's buffer named: the idle buffers, the accumulator at some
    contents, the generator register at some state. -/
theorem restG_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) accM fullShare d)) ∗ (∃ r, prngReg c r)) := by
  unfold Pipeline.ΦA; rw [scopedRest1_eq]; simp only [accM, owns_whole]; try rfl

end Cert.KernelIdeal.Fr

end
-- ==== Proof.Ideal.GmRunA.lean ====
/-
  The gather call's body on the first node block of an edge block (and not its last): the accumulator, whatever it
  held, is zeroed and the point's two one-hot products are added; the output window is not touched. The run of the
  body on arbitrary whole buffers; what it leaves in the accumulator is found by the run itself, as the list of the
  body's stores there.
-/
import proofs.«426469_j38474317037707_1_alg».proof.Proof.Ideal.GmRuns

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole buffers — the five inputs at their contents, the output's at contents `xi5` handed back untouched, the
    accumulator at anything — the body runs to its end holding the inputs as they were and the accumulator with the
    stores `LS` written. -/
noncomputable def runFirst (c : Dev nD) (i : grid1.Coords) (arg2 : Memref sig .tc .vmem S2000x1 .i32) (harg2 : arg2.IsWhole) (arg3 : Memref sig .tc .vmem S2000x1 .i32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S2000x64 .f32) (harg8 : arg8.IsWhole) (hc0 : isFirst i) (hc1 : ¬isLast i)
    (x0 : Vec F S2000x1 .i32) (x1 : Vec F S2000x1 .i32) (x2 : Vec F S2000x64 .f32) (x3 : Vec F S2000x64 .f32) (x4 : Vec F S1x64 .f32) :
    Σ' (L5 : List (View.Piece (Elt F) S2000x64 .f32)), { LS : List (View.Piece (Elt F) S2000x64 .f32) //
      ∀ (xi5 : Vec F S2000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc1__gm_kernel i arg2 harg2 arg3 harg3 arg4 harg4 arg5 harg5 arg6 harg6 arg7 harg7 arg8 harg8) K } := by
  refine ⟨[], ?_, fun xi5 E K => ?run⟩
  case run =>
    simp only [cc1__gm_kernel_eq_skeleton]; unfold cc1__gm_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Fr

end
-- ==== Proof.Ideal.GmRunB.lean ====
/-
  The gather call's body on a middle node block (neither first nor last): the point's two one-hot products are added
  to what the accumulator held; the output window is not touched.
-/
import proofs.«426469_j38474317037707_1_alg».proof.Proof.Ideal.GmRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole buffers — the five inputs at their contents, the output's at contents `xi5` handed back untouched, the
    accumulator at the contents `xs` the point before left — the body runs to its end holding the inputs as they were
    and the accumulator with the stores `LS` written. -/
noncomputable def runMiddle (c : Dev nD) (i : grid1.Coords) (arg2 : Memref sig .tc .vmem S2000x1 .i32) (harg2 : arg2.IsWhole) (arg3 : Memref sig .tc .vmem S2000x1 .i32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S2000x64 .f32) (harg8 : arg8.IsWhole) (hc0 : ¬isFirst i) (hc1 : ¬isLast i)
    (x0 : Vec F S2000x1 .i32) (x1 : Vec F S2000x1 .i32) (x2 : Vec F S2000x64 .f32) (x3 : Vec F S2000x64 .f32) (x4 : Vec F S1x64 .f32) (xs : Vec F S2000x64 .f32) :
    Σ' (L5 : List (View.Piece (Elt F) S2000x64 .f32)), { LS : List (View.Piece (Elt F) S2000x64 .f32) //
      ∀ (xi5 : Vec F S2000x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc1__gm_kernel i arg2 harg2 arg3 harg3 arg4 harg4 arg5 harg5 arg6 harg6 arg7 harg7 arg8 harg8) K } := by
  refine ⟨[], ?_, fun xi5 E K => ?run⟩
  case run =>
    simp only [cc1__gm_kernel_eq_skeleton]; unfold cc1__gm_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Fr

end
-- ==== Proof.Ideal.GmRunC.lean ====
/-
  The gather call's body on the last node block of an edge block (and not its first): the point's two one-hot products
  are added to what the accumulator held, and the sum plus the bias row is stored over the whole output block.
-/
import proofs.«426469_j38474317037707_1_alg».proof.Proof.Ideal.GmRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole buffers — the five inputs at their contents, the output's at anything, the accumulator at the contents
    `xs` the point before left — the body runs to its end holding the inputs as they were, the output's buffer with
    the stores `L5` written and the accumulator with the stores `LS` written. -/
noncomputable def runLast (c : Dev nD) (i : grid1.Coords) (arg2 : Memref sig .tc .vmem S2000x1 .i32) (harg2 : arg2.IsWhole) (arg3 : Memref sig .tc .vmem S2000x1 .i32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S2000x64 .f32) (harg8 : arg8.IsWhole) (hc0 : ¬isFirst i) (hc1 : isLast i)
    (x0 : Vec F S2000x1 .i32) (x1 : Vec F S2000x1 .i32) (x2 : Vec F S2000x64 .f32) (x3 : Vec F S2000x64 .f32) (x4 : Vec F S1x64 .f32) (xs : Vec F S2000x64 .f32) :
    Σ' (L5 : List (View.Piece (Elt F) S2000x64 .f32)), { LS : List (View.Piece (Elt F) S2000x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc1__gm_kernel i arg2 harg2 arg3 harg3 arg4 harg4 arg5 harg5 arg6 harg6 arg7 harg7 arg8 harg8) K } := by
  refine ⟨?_, ?_, fun E K => ?run⟩
  case run =>
    simp only [cc1__gm_kernel_eq_skeleton]; unfold cc1__gm_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Fr

end
-- ==== Proof.Ideal.Gm.lean ====
/-
  The gather call, point by point. The three courses of its body (first node block, a middle one, the last: the three
  runs of the modules before this one) leave their stores in the accumulator and, at a last node block, in the output
  block; read back, those stores are what the buffers hold. `heldAt` follows them through the grid: what the output
  window's buffer and the accumulator hold after the body at point `n`, the accumulator of a middle or last node
  block built on what the point before left. The call's invariant before point `n + 1` is then: the accumulator holds
  `heldAt`'s second component at `n` (before the first point: anything). With that, the call's proof data over any
  entry contents `V` and its body obligation at every point: at a first node block the accumulator's old contents are
  not consulted; at a last one the output block is stored whole; elsewhere the output window is idle and handed back
  as found. It holds at any float instance.
-/
import proofs.«426469_j38474317037707_1_alg».proof.Proof.Ideal.GmRunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the device's buffer contents when the call is entered
variable (V : (c : Dev nD) → (b : Ref sig .tc) → Buf (Elt F) ((c : Thread nD τ).loc b))

/-! ## What each course leaves -/

/-- The first course stores nothing into the output block: a placeholder that nothing consults (the window is idle
    there and not written back). -/
def outFirst (c : Dev nD) (i : grid1.Coords) (arg2 : Memref sig .tc .vmem S2000x1 .i32) (harg2 : arg2.IsWhole) (arg3 : Memref sig .tc .vmem S2000x1 .i32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S2000x64 .f32) (harg8 : arg8.IsWhole) (hc0 : isFirst i) (hc1 : ¬isLast i)
    (x0 : Vec F S2000x1 .i32) (x1 : Vec F S2000x1 .i32) (x2 : Vec F S2000x64 .f32) (x3 : Vec F S2000x64 .f32) (x4 : Vec F S1x64 .f32) : Vec F S2000x64 .f32 :=
  outV.read (Elt F) (outV.writes (Elt F) outV.junk (runFirst c i arg2 harg2 arg3 harg3 arg4 harg4 arg5 harg5 arg6 harg6 arg7 harg7 arg8 harg8 hc0 hc1 x0 x1 x2 x3 x4).1)

/-- The first course's stores into the accumulator cover it. -/
theorem accCoverFirst (c : Dev nD) (i : grid1.Coords) (arg2 : Memref sig .tc .vmem S2000x1 .i32) (harg2 : arg2.IsWhole) (arg3 : Memref sig .tc .vmem S2000x1 .i32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S2000x64 .f32) (harg8 : arg8.IsWhole) (hc0 : isFirst i) (hc1 : ¬isLast i)
    (x0 : Vec F S2000x1 .i32) (x1 : Vec F S2000x1 .i32) (x2 : Vec F S2000x64 .f32) (x3 : Vec F S2000x64 .f32) (x4 : Vec F S1x64 .f32) (y : S2000x64.Idx) :
    ∃ pc ∈ (runFirst c i arg2 harg2 arg3 harg3 arg4 harg4 arg5 harg5 arg6 harg6 arg7 harg7 arg8 harg8 hc0 hc1 x0 x1 x2 x3 x4).2.1, y ∈ pc.1.set :=
  View.cover_of_tiledL (runFirst c i arg2 harg2 arg3 harg3 arg4 harg4 arg5 harg5 arg6 harg6 arg7 harg7 arg8 harg8 hc0 hc1 x0 x1 x2 x3 x4).2.1 S2000x64.size (by sl_kernel_rfl) y

/-- What the first course leaves in the accumulator: its stores read back. -/
def accFirst (c : Dev nD) (i : grid1.Coords) (arg2 : Memref sig .tc .vmem S2000x1 .i32) (harg2 : arg2.IsWhole) (arg3 : Memref sig .tc .vmem S2000x1 .i32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S2000x64 .f32) (harg8 : arg8.IsWhole) (hc0 : isFirst i) (hc1 : ¬isLast i)
    (x0 : Vec F S2000x1 .i32) (x1 : Vec F S2000x1 .i32) (x2 : Vec F S2000x64 .f32) (x3 : Vec F S2000x64 .f32) (x4 : Vec F S1x64 .f32) : Vec F S2000x64 .f32 :=
  accV.read (Elt F) (accV.writes (Elt F) accV.junk (runFirst c i arg2 harg2 arg3 harg3 arg4 harg4 arg5 harg5 arg6 harg6 arg7 harg7 arg8 harg8 hc0 hc1 x0 x1 x2 x3 x4).2.1)

/-- A middle course stores nothing into the output block either. -/
def outMiddle (c : Dev nD) (i : grid1.Coords) (arg2 : Memref sig .tc .vmem S2000x1 .i32) (harg2 : arg2.IsWhole) (arg3 : Memref sig .tc .vmem S2000x1 .i32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S2000x64 .f32) (harg8 : arg8.IsWhole) (hc0 : ¬isFirst i) (hc1 : ¬isLast i)
    (x0 : Vec F S2000x1 .i32) (x1 : Vec F S2000x1 .i32) (x2 : Vec F S2000x64 .f32) (x3 : Vec F S2000x64 .f32) (x4 : Vec F S1x64 .f32) (xs : Vec F S2000x64 .f32) : Vec F S2000x64 .f32 :=
  outV.read (Elt F) (outV.writes (Elt F) outV.junk (runMiddle c i arg2 harg2 arg3 harg3 arg4 harg4 arg5 harg5 arg6 harg6 arg7 harg7 arg8 harg8 hc0 hc1 x0 x1 x2 x3 x4 xs).1)

theorem accCoverMiddle (c : Dev nD) (i : grid1.Coords) (arg2 : Memref sig .tc .vmem S2000x1 .i32) (harg2 : arg2.IsWhole) (arg3 : Memref sig .tc .vmem S2000x1 .i32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S2000x64 .f32) (harg8 : arg8.IsWhole) (hc0 : ¬isFirst i) (hc1 : ¬isLast i)
    (x0 : Vec F S2000x1 .i32) (x1 : Vec F S2000x1 .i32) (x2 : Vec F S2000x64 .f32) (x3 : Vec F S2000x64 .f32) (x4 : Vec F S1x64 .f32) (xs : Vec F S2000x64 .f32) (y : S2000x64.Idx) :
    ∃ pc ∈ (runMiddle c i arg2 harg2 arg3 harg3 arg4 harg4 arg5 harg5 arg6 harg6 arg7 harg7 arg8 harg8 hc0 hc1 x0 x1 x2 x3 x4 xs).2.1, y ∈ pc.1.set :=
  View.cover_of_tiledL (runMiddle c i arg2 harg2 arg3 harg3 arg4 harg4 arg5 harg5 arg6 harg6 arg7 harg7 arg8 harg8 hc0 hc1 x0 x1 x2 x3 x4 xs).2.1 S2000x64.size (by sl_kernel_rfl) y

/-- What a middle course leaves in the accumulator, over what the point before left (`xs`). -/
def accMiddle (c : Dev nD) (i : grid1.Coords) (arg2 : Memref sig .tc .vmem S2000x1 .i32) (harg2 : arg2.IsWhole) (arg3 : Memref sig .tc .vmem S2000x1 .i32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S2000x64 .f32) (harg8 : arg8.IsWhole) (hc0 : ¬isFirst i) (hc1 : ¬isLast i)
    (x0 : Vec F S2000x1 .i32) (x1 : Vec F S2000x1 .i32) (x2 : Vec F S2000x64 .f32) (x3 : Vec F S2000x64 .f32) (x4 : Vec F S1x64 .f32) (xs : Vec F S2000x64 .f32) : Vec F S2000x64 .f32 :=
  accV.read (Elt F) (accV.writes (Elt F) accV.junk (runMiddle c i arg2 harg2 arg3 harg3 arg4 harg4 arg5 harg5 arg6 harg6 arg7 harg7 arg8 harg8 hc0 hc1 x0 x1 x2 x3 x4 xs).2.1)

/-- The last course's stores into the output block cover it. -/
theorem outCoverLast (c : Dev nD) (i : grid1.Coords) (arg2 : Memref sig .tc .vmem S2000x1 .i32) (harg2 : arg2.IsWhole) (arg3 : Memref sig .tc .vmem S2000x1 .i32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S2000x64 .f32) (harg8 : arg8.IsWhole) (hc0 : ¬isFirst i) (hc1 : isLast i)
    (x0 : Vec F S2000x1 .i32) (x1 : Vec F S2000x1 .i32) (x2 : Vec F S2000x64 .f32) (x3 : Vec F S2000x64 .f32) (x4 : Vec F S1x64 .f32) (xs : Vec F S2000x64 .f32) (y : S2000x64.Idx) :
    ∃ pc ∈ (runLast c i arg2 harg2 arg3 harg3 arg4 harg4 arg5 harg5 arg6 harg6 arg7 harg7 arg8 harg8 hc0 hc1 x0 x1 x2 x3 x4 xs).1, y ∈ pc.1.set :=
  View.cover_of_tiledL (runLast c i arg2 harg2 arg3 harg3 arg4 harg4 arg5 harg5 arg6 harg6 arg7 harg7 arg8 harg8 hc0 hc1 x0 x1 x2 x3 x4 xs).1 S2000x64.size (by sl_kernel_rfl) y

/-- What the last course leaves in the output block. -/
def outLast (c : Dev nD) (i : grid1.Coords) (arg2 : Memref sig .tc .vmem S2000x1 .i32) (harg2 : arg2.IsWhole) (arg3 : Memref sig .tc .vmem S2000x1 .i32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S2000x64 .f32) (harg8 : arg8.IsWhole) (hc0 : ¬isFirst i) (hc1 : isLast i)
    (x0 : Vec F S2000x1 .i32) (x1 : Vec F S2000x1 .i32) (x2 : Vec F S2000x64 .f32) (x3 : Vec F S2000x64 .f32) (x4 : Vec F S1x64 .f32) (xs : Vec F S2000x64 .f32) : Vec F S2000x64 .f32 :=
  outV.read (Elt F) (outV.writes (Elt F) outV.junk (runLast c i arg2 harg2 arg3 harg3 arg4 harg4 arg5 harg5 arg6 harg6 arg7 harg7 arg8 harg8 hc0 hc1 x0 x1 x2 x3 x4 xs).1)

theorem accCoverLast (c : Dev nD) (i : grid1.Coords) (arg2 : Memref sig .tc .vmem S2000x1 .i32) (harg2 : arg2.IsWhole) (arg3 : Memref sig .tc .vmem S2000x1 .i32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S2000x64 .f32) (harg8 : arg8.IsWhole) (hc0 : ¬isFirst i) (hc1 : isLast i)
    (x0 : Vec F S2000x1 .i32) (x1 : Vec F S2000x1 .i32) (x2 : Vec F S2000x64 .f32) (x3 : Vec F S2000x64 .f32) (x4 : Vec F S1x64 .f32) (xs : Vec F S2000x64 .f32) (y : S2000x64.Idx) :
    ∃ pc ∈ (runLast c i arg2 harg2 arg3 harg3 arg4 harg4 arg5 harg5 arg6 harg6 arg7 harg7 arg8 harg8 hc0 hc1 x0 x1 x2 x3 x4 xs).2.1, y ∈ pc.1.set :=
  View.cover_of_tiledL (runLast c i arg2 harg2 arg3 harg3 arg4 harg4 arg5 harg5 arg6 harg6 arg7 harg7 arg8 harg8 hc0 hc1 x0 x1 x2 x3 x4 xs).2.1 S2000x64.size (by sl_kernel_rfl) y

/-- What the last course leaves in the accumulator. -/
def accLast (c : Dev nD) (i : grid1.Coords) (arg2 : Memref sig .tc .vmem S2000x1 .i32) (harg2 : arg2.IsWhole) (arg3 : Memref sig .tc .vmem S2000x1 .i32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S2000x64 .f32) (harg8 : arg8.IsWhole) (hc0 : ¬isFirst i) (hc1 : isLast i)
    (x0 : Vec F S2000x1 .i32) (x1 : Vec F S2000x1 .i32) (x2 : Vec F S2000x64 .f32) (x3 : Vec F S2000x64 .f32) (x4 : Vec F S1x64 .f32) (xs : Vec F S2000x64 .f32) : Vec F S2000x64 .f32 :=
  accV.read (Elt F) (accV.writes (Elt F) accV.junk (runLast c i arg2 harg2 arg3 harg3 arg4 harg4 arg5 harg5 arg6 harg6 arg7 harg7 arg8 harg8 hc0 hc1 x0 x1 x2 x3 x4 xs).2.1)

/-! ## What the buffers hold after each point -/

/-- What the output window's buffer (first component) and the accumulator (second) hold after the body at point `n`:
    the course the point is in, run at the point's buffers and input blocks, a middle or last course over what the
    accumulator held after point `n - 1`. A node block cannot be both first and last. -/
def heldAt (c : Dev nD) : (n : ℕ) → n < cfg1.N → Vec F S2000x64 .f32 × Vec F S2000x64 .f32
  | 0, hn => (outFirst c (grid1.coords ⟨0, hn⟩) (mG0 ⟨0, hn⟩) (hG0 ⟨0, hn⟩) (mG1 ⟨0, hn⟩) (hG1 ⟨0, hn⟩) (mG2 ⟨0, hn⟩) (hG2 ⟨0, hn⟩) (mG3 ⟨0, hn⟩) (hG3 ⟨0, hn⟩) (mG4 ⟨0, hn⟩) (hG4 ⟨0, hn⟩) (mG5 ⟨0, hn⟩) (hG5 ⟨0, hn⟩) accM (Memref.isWhole_whole _) ((isFirst_iff ⟨0, hn⟩).mpr (Nat.zero_mod _)) (fun h => (fun h => by (try dsimp only at h); omega) ((isLast_iff ⟨0, hn⟩).mp h)) (blkG V c 0 ⟨0, hn⟩) (blkG V c 1 ⟨0, hn⟩) (blkG V c 2 ⟨0, hn⟩) (blkG V c 3 ⟨0, hn⟩) (blkG V c 4 ⟨0, hn⟩), accFirst c (grid1.coords ⟨0, hn⟩) (mG0 ⟨0, hn⟩) (hG0 ⟨0, hn⟩) (mG1 ⟨0, hn⟩) (hG1 ⟨0, hn⟩) (mG2 ⟨0, hn⟩) (hG2 ⟨0, hn⟩) (mG3 ⟨0, hn⟩) (hG3 ⟨0, hn⟩) (mG4 ⟨0, hn⟩) (hG4 ⟨0, hn⟩) (mG5 ⟨0, hn⟩) (hG5 ⟨0, hn⟩) accM (Memref.isWhole_whole _) ((isFirst_iff ⟨0, hn⟩).mpr (Nat.zero_mod _)) (fun h => (fun h => by (try dsimp only at h); omega) ((isLast_iff ⟨0, hn⟩).mp h)) (blkG V c 0 ⟨0, hn⟩) (blkG V c 1 ⟨0, hn⟩) (blkG V c 2 ⟨0, hn⟩) (blkG V c 3 ⟨0, hn⟩) (blkG V c 4 ⟨0, hn⟩))
  | n + 1, hn =>
    if h0 : (n + 1) % 25 = 0 then
      if h1 : (n + 1) % 25 = 24 then
        False.elim (by omega)
      else
        (outFirst c (grid1.coords ⟨n + 1, hn⟩) (mG0 ⟨n + 1, hn⟩) (hG0 ⟨n + 1, hn⟩) (mG1 ⟨n + 1, hn⟩) (hG1 ⟨n + 1, hn⟩) (mG2 ⟨n + 1, hn⟩) (hG2 ⟨n + 1, hn⟩) (mG3 ⟨n + 1, hn⟩) (hG3 ⟨n + 1, hn⟩) (mG4 ⟨n + 1, hn⟩) (hG4 ⟨n + 1, hn⟩) (mG5 ⟨n + 1, hn⟩) (hG5 ⟨n + 1, hn⟩) accM (Memref.isWhole_whole _) ((isFirst_iff ⟨n + 1, hn⟩).mpr h0) (fun h => h1 ((isLast_iff ⟨n + 1, hn⟩).mp h)) (blkG V c 0 ⟨n + 1, hn⟩) (blkG V c 1 ⟨n + 1, hn⟩) (blkG V c 2 ⟨n + 1, hn⟩) (blkG V c 3 ⟨n + 1, hn⟩) (blkG V c 4 ⟨n + 1, hn⟩), accFirst c (grid1.coords ⟨n + 1, hn⟩) (mG0 ⟨n + 1, hn⟩) (hG0 ⟨n + 1, hn⟩) (mG1 ⟨n + 1, hn⟩) (hG1 ⟨n + 1, hn⟩) (mG2 ⟨n + 1, hn⟩) (hG2 ⟨n + 1, hn⟩) (mG3 ⟨n + 1, hn⟩) (hG3 ⟨n + 1, hn⟩) (mG4 ⟨n + 1, hn⟩) (hG4 ⟨n + 1, hn⟩) (mG5 ⟨n + 1, hn⟩) (hG5 ⟨n + 1, hn⟩) accM (Memref.isWhole_whole _) ((isFirst_iff ⟨n + 1, hn⟩).mpr h0) (fun h => h1 ((isLast_iff ⟨n + 1, hn⟩).mp h)) (blkG V c 0 ⟨n + 1, hn⟩) (blkG V c 1 ⟨n + 1, hn⟩) (blkG V c 2 ⟨n + 1, hn⟩) (blkG V c 3 ⟨n + 1, hn⟩) (blkG V c 4 ⟨n + 1, hn⟩))
    else
      if h1 : (n + 1) % 25 = 24 then
        (outLast c (grid1.coords ⟨n + 1, hn⟩) (mG0 ⟨n + 1, hn⟩) (hG0 ⟨n + 1, hn⟩) (mG1 ⟨n + 1, hn⟩) (hG1 ⟨n + 1, hn⟩) (mG2 ⟨n + 1, hn⟩) (hG2 ⟨n + 1, hn⟩) (mG3 ⟨n + 1, hn⟩) (hG3 ⟨n + 1, hn⟩) (mG4 ⟨n + 1, hn⟩) (hG4 ⟨n + 1, hn⟩) (mG5 ⟨n + 1, hn⟩) (hG5 ⟨n + 1, hn⟩) accM (Memref.isWhole_whole _) (fun h => h0 ((isFirst_iff ⟨n + 1, hn⟩).mp h)) ((isLast_iff ⟨n + 1, hn⟩).mpr h1) (blkG V c 0 ⟨n + 1, hn⟩) (blkG V c 1 ⟨n + 1, hn⟩) (blkG V c 2 ⟨n + 1, hn⟩) (blkG V c 3 ⟨n + 1, hn⟩) (blkG V c 4 ⟨n + 1, hn⟩) (heldAt c n (Nat.lt_of_succ_lt hn)).2, accLast c (grid1.coords ⟨n + 1, hn⟩) (mG0 ⟨n + 1, hn⟩) (hG0 ⟨n + 1, hn⟩) (mG1 ⟨n + 1, hn⟩) (hG1 ⟨n + 1, hn⟩) (mG2 ⟨n + 1, hn⟩) (hG2 ⟨n + 1, hn⟩) (mG3 ⟨n + 1, hn⟩) (hG3 ⟨n + 1, hn⟩) (mG4 ⟨n + 1, hn⟩) (hG4 ⟨n + 1, hn⟩) (mG5 ⟨n + 1, hn⟩) (hG5 ⟨n + 1, hn⟩) accM (Memref.isWhole_whole _) (fun h => h0 ((isFirst_iff ⟨n + 1, hn⟩).mp h)) ((isLast_iff ⟨n + 1, hn⟩).mpr h1) (blkG V c 0 ⟨n + 1, hn⟩) (blkG V c 1 ⟨n + 1, hn⟩) (blkG V c 2 ⟨n + 1, hn⟩) (blkG V c 3 ⟨n + 1, hn⟩) (blkG V c 4 ⟨n + 1, hn⟩) (heldAt c n (Nat.lt_of_succ_lt hn)).2)
      else
        (outMiddle c (grid1.coords ⟨n + 1, hn⟩) (mG0 ⟨n + 1, hn⟩) (hG0 ⟨n + 1, hn⟩) (mG1 ⟨n + 1, hn⟩) (hG1 ⟨n + 1, hn⟩) (mG2 ⟨n + 1, hn⟩) (hG2 ⟨n + 1, hn⟩) (mG3 ⟨n + 1, hn⟩) (hG3 ⟨n + 1, hn⟩) (mG4 ⟨n + 1, hn⟩) (hG4 ⟨n + 1, hn⟩) (mG5 ⟨n + 1, hn⟩) (hG5 ⟨n + 1, hn⟩) accM (Memref.isWhole_whole _) (fun h => h0 ((isFirst_iff ⟨n + 1, hn⟩).mp h)) (fun h => h1 ((isLast_iff ⟨n + 1, hn⟩).mp h)) (blkG V c 0 ⟨n + 1, hn⟩) (blkG V c 1 ⟨n + 1, hn⟩) (blkG V c 2 ⟨n + 1, hn⟩) (blkG V c 3 ⟨n + 1, hn⟩) (blkG V c 4 ⟨n + 1, hn⟩) (heldAt c n (Nat.lt_of_succ_lt hn)).2, accMiddle c (grid1.coords ⟨n + 1, hn⟩) (mG0 ⟨n + 1, hn⟩) (hG0 ⟨n + 1, hn⟩) (mG1 ⟨n + 1, hn⟩) (hG1 ⟨n + 1, hn⟩) (mG2 ⟨n + 1, hn⟩) (hG2 ⟨n + 1, hn⟩) (mG3 ⟨n + 1, hn⟩) (hG3 ⟨n + 1, hn⟩) (mG4 ⟨n + 1, hn⟩) (hG4 ⟨n + 1, hn⟩) (mG5 ⟨n + 1, hn⟩) (hG5 ⟨n + 1, hn⟩) accM (Memref.isWhole_whole _) (fun h => h0 ((isFirst_iff ⟨n + 1, hn⟩).mp h)) (fun h => h1 ((isLast_iff ⟨n + 1, hn⟩).mp h)) (blkG V c 0 ⟨n + 1, hn⟩) (blkG V c 1 ⟨n + 1, hn⟩) (blkG V c 2 ⟨n + 1, hn⟩) (blkG V c 3 ⟨n + 1, hn⟩) (blkG V c 4 ⟨n + 1, hn⟩) (heldAt c n (Nat.lt_of_succ_lt hn)).2)

/-- `heldAt` at a first node block. -/
theorem heldAt_first (c : Dev nD) (t : Fin cfg1.N) (h0 : t.val % 25 = 0) (h1 : ¬t.val % 25 = 24) :
    heldAt V c t.val t.isLt = (outFirst c (grid1.coords t) (mG0 t) (hG0 t) (mG1 t) (hG1 t) (mG2 t) (hG2 t) (mG3 t) (hG3 t) (mG4 t) (hG4 t) (mG5 t) (hG5 t) accM (Memref.isWhole_whole _) ((isFirst_iff t).mpr h0) (fun h => h1 ((isLast_iff t).mp h)) (blkG V c 0 t) (blkG V c 1 t) (blkG V c 2 t) (blkG V c 3 t) (blkG V c 4 t), accFirst c (grid1.coords t) (mG0 t) (hG0 t) (mG1 t) (hG1 t) (mG2 t) (hG2 t) (mG3 t) (hG3 t) (mG4 t) (hG4 t) (mG5 t) (hG5 t) accM (Memref.isWhole_whole _) ((isFirst_iff t).mpr h0) (fun h => h1 ((isLast_iff t).mp h)) (blkG V c 0 t) (blkG V c 1 t) (blkG V c 2 t) (blkG V c 3 t) (blkG V c 4 t)) := by
  obtain ⟨n, hn⟩ := t
  cases n with
  | zero => exact rfl
  | succ n => exact (dif_pos h0).trans ((dif_neg h1).trans rfl)

/-- `heldAt` at a middle node block: over what the point before left. -/
theorem heldAt_middle (c : Dev nD) (t : Fin cfg1.N) (h0 : ¬t.val % 25 = 0) (h1 : ¬t.val % 25 = 24) :
    heldAt V c t.val t.isLt = (outMiddle c (grid1.coords t) (mG0 t) (hG0 t) (mG1 t) (hG1 t) (mG2 t) (hG2 t) (mG3 t) (hG3 t) (mG4 t) (hG4 t) (mG5 t) (hG5 t) accM (Memref.isWhole_whole _) (fun h => h0 ((isFirst_iff t).mp h)) (fun h => h1 ((isLast_iff t).mp h)) (blkG V c 0 t) (blkG V c 1 t) (blkG V c 2 t) (blkG V c 3 t) (blkG V c 4 t) (heldAt V c (t.val - 1) (Nat.lt_of_le_of_lt (Nat.sub_le _ _) t.isLt)).2, accMiddle c (grid1.coords t) (mG0 t) (hG0 t) (mG1 t) (hG1 t) (mG2 t) (hG2 t) (mG3 t) (hG3 t) (mG4 t) (hG4 t) (mG5 t) (hG5 t) accM (Memref.isWhole_whole _) (fun h => h0 ((isFirst_iff t).mp h)) (fun h => h1 ((isLast_iff t).mp h)) (blkG V c 0 t) (blkG V c 1 t) (blkG V c 2 t) (blkG V c 3 t) (blkG V c 4 t) (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `heldAt` at a last node block: over what the point before left. -/
theorem heldAt_last (c : Dev nD) (t : Fin cfg1.N) (h0 : ¬t.val % 25 = 0) (h1 : t.val % 25 = 24) :
    heldAt V c t.val t.isLt = (outLast c (grid1.coords t) (mG0 t) (hG0 t) (mG1 t) (hG1 t) (mG2 t) (hG2 t) (mG3 t) (hG3 t) (mG4 t) (hG4 t) (mG5 t) (hG5 t) accM (Memref.isWhole_whole _) (fun h => h0 ((isFirst_iff t).mp h)) ((isLast_iff t).mpr h1) (blkG V c 0 t) (blkG V c 1 t) (blkG V c 2 t) (blkG V c 3 t) (blkG V c 4 t) (heldAt V c (t.val - 1) (Nat.lt_of_le_of_lt (Nat.sub_le _ _) t.isLt)).2, accLast c (grid1.coords t) (mG0 t) (hG0 t) (mG1 t) (hG1 t) (mG2 t) (hG2 t) (mG3 t) (hG3 t) (mG4 t) (hG4 t) (mG5 t) (hG5 t) accM (Memref.isWhole_whole _) (fun h => h0 ((isFirst_iff t).mp h)) ((isLast_iff t).mpr h1) (blkG V c 0 t) (blkG V c 1 t) (blkG V c 2 t) (blkG V c 3 t) (blkG V c 4 t) (heldAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The call's invariant before position `n`: before the first point the resting one (the accumulator at anything);
    afterwards the idle buffers, the accumulator at what the point before left, the generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) accM fullShare ((heldAt V c n hn).2)) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) accM fullShare ((heldAt V c n hn).2)) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) accM fullShare ((heldAt V c (n - 1) (by omega)).2)) ∗ (∃ r, prngReg c r)) := by
  cases n with
  | zero => exact absurd rfl hz
  | succ n => rfl

/-! ## The proof data -/

/-- The call's proof data on core `c`: the arrays as the call finds them; after the body at point `t` each input's
    buffer at its block and the output's at `heldAt`'s first component; the invariant `PhiS`; nothing owed. -/
def datG (c : Dev nD) : Dat τ (Elt F) Unit ℕ (UR sig nD τ) ℕ cfg1 c where
  A w := V c (Pipeline.arrRef spec1 w)
  after w t := match w with
    | ⟨0, _⟩ => blkG V c 0 t
    | ⟨1, _⟩ => blkG V c 1 t
    | ⟨2, _⟩ => blkG V c 2 t
    | ⟨3, _⟩ => blkG V c 3 t
    | ⟨4, _⟩ => blkG V c 4 t
    | ⟨5, _⟩ => (heldAt V c t.val t.isLt).1
  Φ t := PhiS V c t.val (Nat.le_of_lt_succ t.isLt)
  q _ := fullShare
  owed _ := 0

theorem A_eqG (c : Dev nD) (w : Fin cfg1.W) : (datG V c).A w = V c (Pipeline.arrRef spec1 w) := by
  dsimp only [datG]

theorem PhiS_castSucc (c : Dev nD) (t : Fin cfg1.N) :
    (datG V c).Φ t.castSucc = PhiS V c t.val (Nat.le_of_lt t.isLt) := by
  dsimp only [datG]; simp only [Fin.coe_castSucc]

theorem afterG0 (c : Dev nD) (t : Fin cfg1.N) : (datG V c).after 0 t = blkG V c 0 t := by dsimp only [datG]
theorem afterG1 (c : Dev nD) (t : Fin cfg1.N) : (datG V c).after 1 t = blkG V c 1 t := by dsimp only [datG]
theorem afterG2 (c : Dev nD) (t : Fin cfg1.N) : (datG V c).after 2 t = blkG V c 2 t := by dsimp only [datG]
theorem afterG3 (c : Dev nD) (t : Fin cfg1.N) : (datG V c).after 3 t = blkG V c 3 t := by dsimp only [datG]
theorem afterG4 (c : Dev nD) (t : Fin cfg1.N) : (datG V c).after 4 t = blkG V c 4 t := by dsimp only [datG]
theorem afterG5 (c : Dev nD) (t : Fin cfg1.N) : (datG V c).after 5 t = (heldAt V c t.val t.isLt).1 := by dsimp only [datG]

theorem beforeG0 (c : Dev nD) (t : Fin cfg1.N) (d) : (datG V c).before 0 t d = blkG V c 0 t :=
  beforeG0_of V (datG V c) (A_eqG V c 0) (afterG0 V c) t d
theorem beforeG1 (c : Dev nD) (t : Fin cfg1.N) (d) : (datG V c).before 1 t d = blkG V c 1 t :=
  beforeG1_of V (datG V c) (A_eqG V c 1) (afterG1 V c) t d
theorem beforeG2 (c : Dev nD) (t : Fin cfg1.N) (d) : (datG V c).before 2 t d = blkG V c 2 t :=
  beforeG2_of V (datG V c) (A_eqG V c 2) (afterG2 V c) t d
theorem beforeG3 (c : Dev nD) (t : Fin cfg1.N) (d) : (datG V c).before 3 t d = blkG V c 3 t :=
  beforeG3_of V (datG V c) (A_eqG V c 3) (afterG3 V c) t d
theorem beforeG4 (c : Dev nD) (t : Fin cfg1.N) (d) : (datG V c).before 4 t d = blkG V c 4 t :=
  beforeG4_of V (datG V c) (A_eqG V c 4) (afterG4 V c) t d

/-- An input window, never idle, is left at what the body leaves: its block. -/
theorem leavesG0 (c : Dev nD) (t : Fin cfg1.N) : (datG V c).leavesExact 0 t = owns (c : Thread nD τ) (mG0 t) fullShare (blkG V c 0 t) := by
  unfold Dat.leavesExact; rw [show cfg1.idle 0 (cfg1.grid.coords t) = false from rfl, afterG0]
theorem leavesG1 (c : Dev nD) (t : Fin cfg1.N) : (datG V c).leavesExact 1 t = owns (c : Thread nD τ) (mG1 t) fullShare (blkG V c 1 t) := by
  unfold Dat.leavesExact; rw [show cfg1.idle 1 (cfg1.grid.coords t) = false from rfl, afterG1]
theorem leavesG2 (c : Dev nD) (t : Fin cfg1.N) : (datG V c).leavesExact 2 t = owns (c : Thread nD τ) (mG2 t) fullShare (blkG V c 2 t) := by
  unfold Dat.leavesExact; rw [show cfg1.idle 2 (cfg1.grid.coords t) = false from rfl, afterG2]
theorem leavesG3 (c : Dev nD) (t : Fin cfg1.N) : (datG V c).leavesExact 3 t = owns (c : Thread nD τ) (mG3 t) fullShare (blkG V c 3 t) := by
  unfold Dat.leavesExact; rw [show cfg1.idle 3 (cfg1.grid.coords t) = false from rfl, afterG3]
theorem leavesG4 (c : Dev nD) (t : Fin cfg1.N) : (datG V c).leavesExact 4 t = owns (c : Thread nD τ) (mG4 t) fullShare (blkG V c 4 t) := by
  unfold Dat.leavesExact; rw [show cfg1.idle 4 (cfg1.grid.coords t) = false from rfl, afterG4]

/-! ## The body obligation -/

/-- What the body is handed at point `t`, window by window, -/
def preG (c : Dev nD) (t : Fin cfg1.N) : sProp 𝕄 :=
  iprop((datG V c).Φ t.castSucc ∗ (datG V c).owesAt () t.castSucc
    ∗ (∃ d, owns (c : Thread nD τ) (mG0 t) fullShare ((datG V c).before 0 t d))
    ∗ (∃ d, owns (c : Thread nD τ) (mG1 t) fullShare ((datG V c).before 1 t d))
    ∗ (∃ d, owns (c : Thread nD τ) (mG2 t) fullShare ((datG V c).before 2 t d))
    ∗ (∃ d, owns (c : Thread nD τ) (mG3 t) fullShare ((datG V c).before 3 t d))
    ∗ (∃ d, owns (c : Thread nD τ) (mG4 t) fullShare ((datG V c).before 4 t d))
    ∗ (∃ d, owns (c : Thread nD τ) (mG5 t) fullShare ((datG V c).before 5 t d)))

/-- and what it hands back. -/
def postG (c : Dev nD) (t : Fin cfg1.N) : sProp 𝕄 :=
  iprop((datG V c).Φ t.succ ∗ (datG V c).owesAt () t.succ
    ∗ (datG V c).leavesExact 0 t
    ∗ (datG V c).leavesExact 1 t
    ∗ (datG V c).leavesExact 2 t
    ∗ (datG V c).leavesExact 3 t
    ∗ (datG V c).leavesExact 4 t
    ∗ (datG V c).leavesExact 5 t)

set_option maxHeartbeats 4800000 in
/-- The body at any point: the inputs' buffers hold their blocks; the closed forms say which course the point is in; the
    invariant hands the body the accumulator at what the point before left (at anything before the first point) and
    takes it back at this point's contents. -/
theorem sound_ptG (c : Dev nD) (t : Fin cfg1.N) :
    preG V c t ⊢ wp frame (wpE (defs₀ (F := F)) Variants.none c none) Set.univ (bodyAt1 t) (fun _ => postG V c t) := by
  unfold preG postG bodyAt1
  simp only [beforeG0, beforeG1, beforeG2, beforeG3, beforeG4]
  rw [show (datG V c).owesAt () t.succ = (datG V c).owesAt () t.castSucc from rfl]
  rw [show (datG V c).Φ t.succ = PhiS V c (t.val + 1) t.isLt from rfl, PhiS_succ]
  rw [leavesG0, leavesG1, leavesG2, leavesG3, leavesG4]
  by_cases h0 : t.val % 25 = 0
  · have h1 : ¬t.val % 25 = 24 := by omega
    rw [Dat.leavesExact_idle (datG V c) 5 t (idle_out_of_not_last _ (fun h => h1 ((isLast_iff t).mp h))) (noFlush_of_not_last t (fun h => h1 ((isLast_iff t).mp h)))]
    rw [heldAt_first V c t h0 h1]
    unfold accFirst; (try dsimp only)
    by_cases hz : t.val = 0
    · rw [PhiS_castSucc V c t, PhiS_zero V c _ _ hz, restG_eq]
      iintro ⟨⟨⟨Hb0, Hb1, Hb2, Hb3, Hb4, Hb5, Hb6, HS0⟩, Hg⟩, Ho, ⟨%d0, H0⟩, ⟨%d1, H1⟩, ⟨%d2, H2⟩, ⟨%d3, H3⟩, ⟨%d4, H4⟩, ⟨%d5, H5⟩⟩
      iapply ((runFirst c (grid1.coords t) _ _ _ _ _ _ _ _ _ _ _ _ _ _ ((isFirst_iff t).mpr h0) (fun h => h1 ((isLast_iff t).mp h)) (blkG V c 0 t) (blkG V c 1 t) (blkG V c 2 t) (blkG V c 3 t) (blkG V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [Hb0 Hb1 Hb2 Hb3 Hb4 Hb5 Hb6 HS0 Hg]
      · isplitl [Hb0 Hb1 Hb2 Hb3 Hb4 Hb5 Hb6 HS0]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          unfold owns; iexists _; isplitr
          swap; · iexact HS0
          ipureintro; exact View.read_writes_of_cover _ _ _ _ _ (accCoverFirst c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨Hb0, Hb1, Hb2, Hb3, Hb4, Hb5, Hb6, HS0⟩, Hg⟩, Ho, ⟨%d0, H0⟩, ⟨%d1, H1⟩, ⟨%d2, H2⟩, ⟨%d3, H3⟩, ⟨%d4, H4⟩, ⟨%d5, H5⟩⟩
      iapply ((runFirst c (grid1.coords t) _ _ _ _ _ _ _ _ _ _ _ _ _ _ ((isFirst_iff t).mpr h0) (fun h => h1 ((isLast_iff t).mp h)) (blkG V c 0 t) (blkG V c 1 t) (blkG V c 2 t) (blkG V c 3 t) (blkG V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, ⟨%es0, HS0⟩⟩
      isplitl [Hb0 Hb1 Hb2 Hb3 Hb4 Hb5 Hb6 HS0 Hg]
      · isplitl [Hb0 Hb1 Hb2 Hb3 Hb4 Hb5 Hb6 HS0]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          unfold owns; iexists _; isplitr
          swap; · iexact HS0
          ipureintro; exact View.read_writes_of_cover _ _ _ _ _ (accCoverFirst c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h1 : t.val % 25 = 24
    · rw [show (datG V c).leavesExact 5 t = owns (c : Thread nD τ) (mG5 t) fullShare ((datG V c).after 5 t) from by
        unfold Dat.leavesExact; rw [live_out_of_last _ ((isLast_iff t).mpr h1)], afterG5]
      rw [heldAt_last V c t h0 h1]
      unfold outLast accLast; (try dsimp only)
      rw [PhiS_castSucc V c t, PhiS_pos V c _ _ hz]
      iintro ⟨⟨⟨Hb0, Hb1, Hb2, Hb3, Hb4, Hb5, Hb6, HS0⟩, Hg⟩, Ho, ⟨%d0, H0⟩, ⟨%d1, H1⟩, ⟨%d2, H2⟩, ⟨%d3, H3⟩, ⟨%d4, H4⟩, ⟨%d5, H5⟩⟩
      iapply ((runLast c (grid1.coords t) _ _ _ _ _ _ _ _ _ _ _ _ _ _ (fun h => h0 ((isFirst_iff t).mp h)) ((isLast_iff t).mpr h1) (blkG V c 0 t) (blkG V c 1 t) (blkG V c 2 t) (blkG V c 3 t) (blkG V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [Hb0 Hb1 Hb2 Hb3 Hb4 Hb5 Hb6 HS0 Hg]
      · isplitl [Hb0 Hb1 Hb2 Hb3 Hb4 Hb5 Hb6 HS0]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          unfold owns; iexists _; isplitr
          swap; · iexact HS0
          ipureintro; exact View.read_writes_of_cover _ _ _ _ _ (accCoverLast c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (outCoverLast c _ _ _ _ _ _ _ _ _ _ _ _ _ _ _ _ _ _ _ _ _ _ _)
    · rw [Dat.leavesExact_idle (datG V c) 5 t (idle_out_of_not_last _ (fun h => h1 ((isLast_iff t).mp h))) (noFlush_of_not_last t (fun h => h1 ((isLast_iff t).mp h)))]
      rw [heldAt_middle V c t h0 h1]
      unfold accMiddle; (try dsimp only)
      rw [PhiS_castSucc V c t, PhiS_pos V c _ _ hz]
      iintro ⟨⟨⟨Hb0, Hb1, Hb2, Hb3, Hb4, Hb5, Hb6, HS0⟩, Hg⟩, Ho, ⟨%d0, H0⟩, ⟨%d1, H1⟩, ⟨%d2, H2⟩, ⟨%d3, H3⟩, ⟨%d4, H4⟩, ⟨%d5, H5⟩⟩
      iapply ((runMiddle c (grid1.coords t) _ _ _ _ _ _ _ _ _ _ _ _ _ _ (fun h => h0 ((isFirst_iff t).mp h)) (fun h => h1 ((isLast_iff t).mp h)) (blkG V c 0 t) (blkG V c 1 t) (blkG V c 2 t) (blkG V c 3 t) (blkG V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [Hb0 Hb1 Hb2 Hb3 Hb4 Hb5 Hb6 HS0 Hg]
      · isplitl [Hb0 Hb1 Hb2 Hb3 Hb4 Hb5 Hb6 HS0]
        · isplitl [Hb0]; · iexact Hb0
          isplitl [Hb1]; · iexact Hb1
          isplitl [Hb2]; · iexact Hb2
          isplitl [Hb3]; · iexact Hb3
          isplitl [Hb4]; · iexact Hb4
          isplitl [Hb5]; · iexact Hb5
          isplitl [Hb6]; · iexact Hb6
          unfold owns; iexists _; isplitr
          swap; · iexact HS0
          ipureintro; exact View.read_writes_of_cover _ _ _ _ _ (accCoverMiddle c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation of the gather call, at every point. -/
theorem obligationG (c : Dev nD) : BodyObligation (datG (F := F) V c) (defs₀ (F := F)) Variants.none () Set.univ := fun t => by
  rw [bigSep_W1, bigSep_W1]
  exact sound_ptG V c t

/-- The resting invariant is the invariant before the first point. -/
theorem hinG (c : Dev nD) : Pipeline.ΦA spec1 c ⊢ (datG V c).Φ 0 := by
  rw [show (datG V c).Φ 0 = PhiS V c 0 (Nat.zero_le _) from rfl, PhiS_zero V c 0 _ rfl]
  try exact Idealize.SL.BI.Entails.refl _

/-- After the last point the invariant gives the resting one back: what the accumulator holds is forgotten. -/
theorem houtG (c : Dev nD) : (datG V c).Φ (Fin.last cfg1.N) ⊢ Pipeline.ΦA spec1 c := by
  rw [show (datG V c).Φ (Fin.last cfg1.N) = PhiS V c (Fin.last cfg1.N).val (Nat.le_of_lt_succ (Fin.last cfg1.N).isLt) from rfl,
    PhiS_pos V c _ _ (by rw [Fin.val_last]; have : cfg1.N = 10000 := N_1; omega), restG_eq]
  iintro ⟨⟨Hb0, Hb1, Hb2, Hb3, Hb4, Hb5, Hb6, HS0⟩, Hg⟩
  isplitl [Hb0 Hb1 Hb2 Hb3 Hb4 Hb5 Hb6 HS0]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    iexists _; iexact HS0
  iexact Hg

end Cert.KernelIdeal.Fr

end
-- ==== Proof.Ideal.Whole.lean ====
/-
  The whole program: three reshapes on the host (the two edge lists into columns, the bias into a row), the projection
  call, the gather call. The device's buffer contents are followed from launch to return: after the reshapes
  (`W1`), after the projection call, whose two output arrays then hold what its write-backs leave (`W2`), after the
  gather call, whose output array then holds what its write-backs leave (`W3`). Each call enters with every buffer at the
  boundary's contents and leaves with every buffer at the next boundary's. The run: every fair execution ends, nothing
  faulting, with every buffer that outlives the calls at `W3`'s contents — so the five arguments as launched, and the
  result array at the gather call's final array. It holds at any float instance.
-/
import proofs.«426469_j38474317037707_1_alg».proof.Proof.Ideal.Proj
import proofs.«426469_j38474317037707_1_alg».proof.Proof.Ideal.Gm

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 (c : Dev nD) : Valuation τ sig (Elt F) := fun b => m (c, b)
/-- After the three reshapes (the projection call's entry). -/
abbrev W1 (c : Dev nD) : Valuation τ sig (Elt F) := StableHlo.after hostOps0 (W0 m c)
/-- The same read at the core's own references. -/
abbrev V1 : (c : Dev nD) → (b : Ref sig .tc) → Buf (Elt F) ((c : Thread nD τ).loc b) := fun c b => W1 m c b
/-- At the projection call's exit: its arrays at what the call leaves, every other buffer as entered. -/
def W2 (c : Dev nD) : Valuation τ sig (Elt F) :=
  Pipeline.withArrays spec0 c (W1 m c) fun w => (datP (V1 m) c).arrAt w cfg0.N
theorem W2_arr (c : Dev nD) (w : Fin cfg0.W) :
    W2 m c (Proc.devRef .tc (Pipeline.arrRef spec0 w)) = (datP (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem exitP (c : Dev nD) (w : Fin cfg0.W) : (datP (V1 m) c).arrAt w cfg0.N = V2 m c (Pipeline.arrRef spec0 w) :=
  (W2_arr m c w).symm
theorem restP (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the gather call's exit: its arrays at what the call leaves, every other buffer as entered. -/
def W3 (c : Dev nD) : Valuation τ sig (Elt F) :=
  Pipeline.withArrays spec1 c (W2 m c) fun w => (datG (V2 m) c).arrAt w cfg1.N
theorem W3_arr (c : Dev nD) (w : Fin cfg1.W) :
    W3 m c (Proc.devRef .tc (Pipeline.arrRef spec1 w)) = (datG (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem exitG (c : Dev nD) (w : Fin cfg1.W) : (datG (V2 m) c).arrAt w cfg1.N = V3 m c (Pipeline.arrRef spec1 w) :=
  (W3_arr m c w).symm
theorem restG (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched -/

/-- No reshape writes a buffer other than its own result. -/
theorem W1_of_arg (c : Dev nD) (b : Ref sig .tc) (h0 : b ≠ main_v0) (h1 : b ≠ main_v1) (h2 : b ≠ main_v2) :
    W1 m c (Proc.devRef .tc b) = m ((c : Thread nD τ).loc b) :=
  (StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1, StableHlo.devRef_ne_of_ne h2⟩))).trans rfl

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := (W2_arr m c 0).trans (((datP (V1 m) c).arrAt_in 0 rfl _).trans (A_eqP (V1 m) c 0))
    _ = m ((c : Thread nD τ).loc main_arg0) := W1_of_arg m c main_arg0 (by decide) (by decide) (by decide)
theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := (W2_arr m c 1).trans (((datP (V1 m) c).arrAt_in 1 rfl _).trans (A_eqP (V1 m) c 1))
    _ = m ((c : Thread nD τ).loc main_arg1) := W1_of_arg m c main_arg1 (by decide) (by decide) (by decide)
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = m ((c : Thread nD τ).loc main_arg2) := W1_of_arg m c main_arg2 (by decide) (by decide) (by decide)
theorem W3_main_arg3 (c : Dev nD) : W3 m c (Proc.devRef .tc main_arg3) = m ((c : Thread nD τ).loc main_arg3) :=
  calc W3 m c (Proc.devRef .tc main_arg3)
    _ = W2 m c (Proc.devRef .tc main_arg3) := W3_of_ne m c main_arg3 (by decide)
    _ = W1 m c (Proc.devRef .tc main_arg3) := W2_of_ne m c main_arg3 (by decide)
    _ = m ((c : Thread nD τ).loc main_arg3) := W1_of_arg m c main_arg3 (by decide) (by decide) (by decide)
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_of_ne m c main_arg4 (by decide)
    _ = m ((c : Thread nD τ).loc main_arg4) := W1_of_arg m c main_arg4 (by decide) (by decide) (by decide)

/-- The result array ends at what the gather call's write-backs leave in it. -/
theorem W3_result (c : Dev nD) : W3 m c (Proc.devRef .tc main_v4) = (datG (V2 m) c).arrAt 5 cfg1.N := W3_arr m c 5

/-- What the gather call finds: the two projected arrays as the projection call left them, -/
theorem V2_projSrc (c : Dev nD) : V2 m c main_v3_0 = (datP (V1 m) c).arrAt 2 cfg0.N := W2_arr m c 2
theorem V2_projDst (c : Dev nD) : V2 m c main_v3_1 = (datP (V1 m) c).arrAt 3 cfg0.N := W2_arr m c 3
/-- and the reshaped edge lists and bias as the reshapes left them. -/
theorem V2_src (c : Dev nD) : V2 m c main_v0 = V1 m c main_v0 := W2_of_ne m c main_v0 (by decide)
theorem V2_dst (c : Dev nD) : V2 m c main_v1 = V1 m c main_v1 := W2_of_ne m c main_v1 (by decide)
theorem V2_bias (c : Dev nD) : V2 m c main_v2 = V1 m c main_v2 := W2_of_ne m c main_v2 (by decide)
/-- What the projection call finds: the features and the weights as launched. -/
theorem V1_x (c : Dev nD) : V1 m c main_arg0 = m ((c : Thread nD τ).loc main_arg0) := W1_of_arg m c main_arg0 (by decide) (by decide) (by decide)
theorem V1_w (c : Dev nD) : V1 m c main_arg1 = m ((c : Thread nD τ).loc main_arg1) := W1_of_arg m c main_arg1 (by decide) (by decide) (by decide)

/-! ## The proof data family and the thread state -/

/-- No call has a prefetched table. -/
abbrev adm : (p : Fin 2) → (pcfgs (F := F) p).Adm := fun p => (cfgs p).toPCfg_adm
/-- Both calls' proof data, each at its call's entry contents. -/
def pdats : (p : Fin 2) → (c : Dev nD) → Dat τ (Elt F) Unit ℕ (UR sig nD τ) ℕ (Pipeline.pin (pcfgs (F := F)) adm p) c
  | ⟨0, _⟩ => fun c => datP (V1 m) c
  | ⟨1, _⟩ => fun c => datG (V2 m) c
abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)

/-- The reshapes as a segment, from the launch contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem reshapes_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for the `owes`: every buffer that outlives the calls at `W3`, the generator register. -/
abbrev Tₙ (c : Dev nD) : sProp 𝕄 := iprop(StableHlo.held (c : Thread nD τ) (Pipeline.ucRefs τ sig) (W3 m c) ∗ ∃ r, prngReg c r)

/-! ## The calls as segments -/

set_option backward.isDefEq.respectTransparency.types false in
/-- The projection call: entered from every buffer at `W1`, left at `W2`. Its arrays are split out of the buffers and put
    back at the exit contents; the generator register goes into the resting invariant and comes out; nothing owed. -/
def regP : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligationP (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exitP m c) (restP m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gather call: entered from every buffer at `W2`, left at `W3`. As the projection call, but its invariant carries
    the accumulator: it starts from the resting invariant and gives it back after the last point. -/
def regG : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligationG (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hinG (V2 m) c)
    unfold Pipeline.ΦA
    iintro ⟨Hp, -, Hr⟩
    isplitl [Hr]; · iexact Hr
    iexact Hp
  hout c := by
    rw [Pipeline.ownSems0_none]
    refine (houtG (V2 m) c).trans (?_ : (Pipeline.ΦA spec1 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (exitG m c) (restG m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub reshapes_fresh (W0 m)),
    .region (regP m),
    .region (regG m) ]
/-- The program is the run of its segments. -/
theorem main_run (c : Dev nD) : main (F := F) c = Pipeline.Seg.run (segs m) := (main_chain c).trans (by chain_rfl)

set_option backward.isDefEq.respectTransparency.types false in
/-- THE RUN. From any memory with zero counters, every weakly fair execution of the program ends, nothing faulting, with
    every buffer that outlives the calls at `W3`'s contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- The program runs and its five arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

/-- The program runs, its result array ends at the gather call's final array, and its arguments end as launched. -/
theorem run_result : θ_run defs (onTc (τ := τ) (main (F := F))) ⟨m, fun _ => 0, ρ⟩ (fun r => ∀ c : Dev nD,
      r.2.mem ((c.tc : Thread nD τ).loc main_v4) = (datG (V2 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v4 (by decide))).trans (W3_result m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c)⟩) (run_all m ρ)

end Cert.KernelIdeal.Fr

end
-- ==== Proof.GmPieces.lean ====
/-
  The gather call's body, read as arithmetic. What each of its three courses leaves in the accumulator and in the
  output block (the stores found by the runs, read back) is the body's payload: the point's two one-hot products added
  to what the accumulator held (zero, at a first node block), and, at a last node block, that sum plus the bias row.
  Over the extended reals a one-hot product picks a row: for an edge whose node lies in the point's node block it is
  that node's row of the table, otherwise zero (`sel`).
-/
import proofs.«426469_j38474317037707_1_alg».proof.Proof.Ideal.Gm
import proofs.«426469_j38474317037707_1_alg».proof.Proof.Spec
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

namespace Cert.KernelIdeal.GmPieces

open Cert.KernelIdeal Cert.KernelIdeal.Gen Cert.KernelIdeal.Fr
open Idealize.ShloMosaic Idealize.ShloMosaic.TcCoe Idealize.ShloMosaic.ValueIdx
open Idealize.SL Idealize.SL.Sem

/-- Node block `k`'s pick of node word `w` from a 2000-row table: the row `w − 2000·k` when the node lies in the
    block, zero otherwise. -/
def sel (k : ℕ) (w : BitVec 32) (tab : (⟨2, ![2000, 64]⟩ : Shape).Idx → EReal) (j : Fin 64) : EReal :=
  if h : 2000 * k ≤ w.toNat ∧ w.toNat < 2000 * k + 2000 then tab (ix2 (⟨w.toNat - 2000 * k, by omega⟩ : Fin 2000) j) else 0

section Pieces
variable {F : FTy → Type} [FloatOps F]

/-- Every load and store of the body goes through its whole buffer: the offsets are zero. -/
private theorem hz : (![0, 0] : Fin 2 → Nat) = fun _ => 0 := funext fun a => by fin_cases a <;> rfl

/-- A first node block leaves the point's products over zero. -/
theorem accFirst_eq (c : Dev nD) (i : grid1.Coords) (arg2 : Memref sig .tc .vmem S2000x1 .i32) (harg2 : arg2.IsWhole) (arg3 : Memref sig .tc .vmem S2000x1 .i32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S2000x64 .f32) (harg8 : arg8.IsWhole) (hc0 : isFirst i) (hc1 : ¬isLast i)
    (x0 : Vec F S2000x1 .i32) (x1 : Vec F S2000x1 .i32) (x2 : Vec F S2000x64 .f32) (x3 : Vec F S2000x64 .f32) (x4 : Vec F S1x64 .f32) :
    accFirst c i arg2 harg2 arg3 harg3 arg4 harg4 arg5 harg5 arg6 harg6 arg7 harg7 arg8 harg8 hc0 hc1 x0 x1 x2 x3 x4 = k1_pay3 i x0 x1 x2 x3 (k1_pay2 (F := F)) := by
  unfold accFirst
  rw [View.read_writes_eq_canon _ _ _ (accCoverFirst c i arg2 harg2 arg3 harg3 arg4 harg4 arg5 harg5 arg6 harg6 arg7 harg7 arg8 harg8 hc0 hc1 x0 x1 x2 x3 x4)]
  unfold runFirst
  dsimp only
  sl_unfold_words
  rw [View.canon_cons_unit_zero (S := S2000x64) hz]
  simp only [View.readAt_eq_ld, harg2.read_unread, harg3.read_unread, harg4.read_unread, harg5.read_unread, harg6.read_unread, harg8.read_unread,
    View.ld_unit_zero (S := S2000x1) hz, View.ld_unit_zero (S := S2000x64) hz, View.ld_unit_zero (S := S1x64) hz, View.readCov_unit_zero (S := S2000x64) _ hz]

/-- A middle node block leaves the point's products over what the accumulator held. -/
theorem accMiddle_eq (c : Dev nD) (i : grid1.Coords) (arg2 : Memref sig .tc .vmem S2000x1 .i32) (harg2 : arg2.IsWhole) (arg3 : Memref sig .tc .vmem S2000x1 .i32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S2000x64 .f32) (harg8 : arg8.IsWhole) (hc0 : ¬isFirst i) (hc1 : ¬isLast i)
    (x0 : Vec F S2000x1 .i32) (x1 : Vec F S2000x1 .i32) (x2 : Vec F S2000x64 .f32) (x3 : Vec F S2000x64 .f32) (x4 : Vec F S1x64 .f32) (xs : Vec F S2000x64 .f32) :
    accMiddle c i arg2 harg2 arg3 harg3 arg4 harg4 arg5 harg5 arg6 harg6 arg7 harg7 arg8 harg8 hc0 hc1 x0 x1 x2 x3 x4 xs = k1_pay3 i x0 x1 x2 x3 xs := by
  unfold accMiddle
  rw [View.read_writes_eq_canon _ _ _ (accCoverMiddle c i arg2 harg2 arg3 harg3 arg4 harg4 arg5 harg5 arg6 harg6 arg7 harg7 arg8 harg8 hc0 hc1 x0 x1 x2 x3 x4 xs)]
  unfold runMiddle
  dsimp only
  sl_unfold_words
  rw [View.canon_unit_zero hz]
  simp only [View.readAt_eq_ld, harg2.read_unread, harg3.read_unread, harg4.read_unread, harg5.read_unread, harg6.read_unread, harg8.read_unread,
    View.ld_unit_zero (S := S2000x1) hz, View.ld_unit_zero (S := S2000x64) hz, View.ld_unit_zero (S := S1x64) hz, View.readCov_unit_zero (S := S2000x64) _ hz]

/-- So does a last node block, -/
theorem accLast_eq (c : Dev nD) (i : grid1.Coords) (arg2 : Memref sig .tc .vmem S2000x1 .i32) (harg2 : arg2.IsWhole) (arg3 : Memref sig .tc .vmem S2000x1 .i32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S2000x64 .f32) (harg8 : arg8.IsWhole) (hc0 : ¬isFirst i) (hc1 : isLast i)
    (x0 : Vec F S2000x1 .i32) (x1 : Vec F S2000x1 .i32) (x2 : Vec F S2000x64 .f32) (x3 : Vec F S2000x64 .f32) (x4 : Vec F S1x64 .f32) (xs : Vec F S2000x64 .f32) :
    accLast c i arg2 harg2 arg3 harg3 arg4 harg4 arg5 harg5 arg6 harg6 arg7 harg7 arg8 harg8 hc0 hc1 x0 x1 x2 x3 x4 xs = k1_pay3 i x0 x1 x2 x3 xs := by
  unfold accLast
  rw [View.read_writes_eq_canon _ _ _ (accCoverLast c i arg2 harg2 arg3 harg3 arg4 harg4 arg5 harg5 arg6 harg6 arg7 harg7 arg8 harg8 hc0 hc1 x0 x1 x2 x3 x4 xs)]
  unfold runLast
  dsimp only
  sl_unfold_words
  rw [View.canon_unit_zero hz]
  simp only [View.readAt_eq_ld, harg2.read_unread, harg3.read_unread, harg4.read_unread, harg5.read_unread, harg6.read_unread, harg8.read_unread,
    View.ld_unit_zero (S := S2000x1) hz, View.ld_unit_zero (S := S2000x64) hz, View.ld_unit_zero (S := S1x64) hz, View.readCov_unit_zero (S := S2000x64) _ hz]

/-- and it leaves that sum plus the bias row in the output block. -/
theorem outLast_eq (c : Dev nD) (i : grid1.Coords) (arg2 : Memref sig .tc .vmem S2000x1 .i32) (harg2 : arg2.IsWhole) (arg3 : Memref sig .tc .vmem S2000x1 .i32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S2000x64 .f32) (harg8 : arg8.IsWhole) (hc0 : ¬isFirst i) (hc1 : isLast i)
    (x0 : Vec F S2000x1 .i32) (x1 : Vec F S2000x1 .i32) (x2 : Vec F S2000x64 .f32) (x3 : Vec F S2000x64 .f32) (x4 : Vec F S1x64 .f32) (xs : Vec F S2000x64 .f32) :
    outLast c i arg2 harg2 arg3 harg3 arg4 harg4 arg5 harg5 arg6 harg6 arg7 harg7 arg8 harg8 hc0 hc1 x0 x1 x2 x3 x4 xs = k1_pay1 (k1_pay3 i x0 x1 x2 x3 xs) x4 := by
  unfold outLast
  rw [View.read_writes_eq_canon _ _ _ (outCoverLast c i arg2 harg2 arg3 harg3 arg4 harg4 arg5 harg5 arg6 harg6 arg7 harg7 arg8 harg8 hc0 hc1 x0 x1 x2 x3 x4 xs)]
  unfold runLast
  dsimp only
  sl_unfold_words
  rw [View.canon_unit_zero hz]
  simp only [View.readAt_eq_ld, harg2.read_unread, harg3.read_unread, harg4.read_unread, harg5.read_unread, harg6.read_unread, harg8.read_unread,
    View.ld_unit_zero (S := S2000x1) hz, View.ld_unit_zero (S := S2000x64) hz, View.ld_unit_zero (S := S1x64) hz, View.readCov_unit_zero (S := S2000x64) _ hz]

end Pieces

/-! ## Words: a node number in a node block -/

/-- Node `n` of node block `k`, as the body computes its word: `k · 2000 + n`. With `k < 25` and `n < 2000` nothing
    wraps around, so the word's value is the node number `2000 · k + n`. -/
private theorem toNat_nodeWord (k : ℕ) (hk : k < 25) (n : Fin 2000) :
    (BitVec.ofNat 32 k * 2000#32 + BitVec.ofNat 32 n.val).toNat = 2000 * k + n.val := by
  have hn := n.isLt
  simp only [BitVec.toNat_add, BitVec.toNat_mul, BitVec.toNat_ofNat]
  omega

/-- A word below 50000 is node `n` of block `k` exactly when its value is `2000 · k + n`. -/
private theorem eq_nodeWord_iff (k : ℕ) (hk : k < 25) (w : BitVec 32) (n : Fin 2000) :
    w = BitVec.ofNat 32 k * 2000#32 + BitVec.ofNat 32 n.val ↔ w.toNat = 2000 * k + n.val := by
  rw [← toNat_nodeWord k hk n]
  exact BitVec.toNat_inj.symm

/-- The one-hot entry: the comparison's bit, widened to a word and read as a signed integer, is `1` where the two
    words are equal and `0` elsewhere. -/
private theorem hotEntry (a b : BitVec 32) :
    ((((IntOp.cmpi .eq a b).setWidth 32).toInt : ℝ) : EReal) = if a = b then 1 else 0 := by
  by_cases h : a = b
  · subst h; simp [IntOp.cmpi]
  · have hb : (a == b) = false := beq_eq_false_iff_ne.mpr h
    simpa [IntOp.cmpi, hb] using h

/-! ## A one-hot product picks a row -/

/-- Summed over the block's 2000 nodes, the one-hot row of an edge times a column of the table is the pick: the
    one node whose word the edge carries contributes its entry, every other node `0`; an edge whose node lies in
    another block contributes nothing at all. -/
private theorem sum_hot_eq_sel (k : ℕ) (hk : k < 25) (w : BitVec 32) (hw : w.toNat < 50000)
    (tab : (⟨2, ![2000, 64]⟩ : Shape).Idx → EReal) (j : Fin 64) :
    ∑ n : Fin 2000, (if w = BitVec.ofNat 32 k * 2000#32 + BitVec.ofNat 32 n.val then (1 : EReal) else 0) * tab (ix2 n j)
      = sel k w tab j := by
  unfold sel
  by_cases h : 2000 * k ≤ w.toNat ∧ w.toNat < 2000 * k + 2000
  · rw [dif_pos h]
    rw [Finset.sum_eq_single (⟨w.toNat - 2000 * k, by omega⟩ : Fin 2000)]
    · rw [if_pos ((eq_nodeWord_iff k hk w _).mpr (by dsimp only; omega)), one_mul]
    · intro n _ hne
      rw [if_neg (fun e => hne (Fin.ext (by have := (eq_nodeWord_iff k hk w n).mp e; dsimp only; omega))), zero_mul]
    · intro hnot; exact absurd (Finset.mem_univ _) hnot
  · rw [dif_neg h]
    refine Finset.sum_eq_zero fun n _ => ?_
    rw [if_neg (fun e => h (by have := (eq_nodeWord_iff k hk w n).mp e; have := n.isLt; omega)), zero_mul]

/-! ## The layout steps of the one-hot matrix, read at an entry -/

/-- An edge column (2000 × 1) broadcast along the nodes reads, at (edge `r`, node `n`), the edge's word. -/
private theorem column_broadcast_apply {α : Type} (v : S2000x1.Idx → α) (h : S2000x1.Broadcasts S2000x2000) (r n : Fin 2000) :
    broadcastTo S2000x2000 v h (ix2 r n) = v (ix2 r (0 : Fin 1)) := by
  refine broadcastTo_apply v h (ix2 r n) (ix2 r (0 : Fin 1)) fun ax => ?_
  match ax with
  | ⟨0, _⟩ => show r.val = if (2000 : ℕ) = 1 then 0 else r.val; rw [if_neg (by decide)]
  | ⟨1, _⟩ => rfl

/-- The one-hot matrix of an edge column `x` against the node words `b + n` (`b` the block's first node word) has,
    at (edge `r`, node `n`), `1` if the edge's word is `b + n` and `0` otherwise. Narrowing the float format changes
    nothing over the extended reals. -/
private theorem hot_apply (b : BitVec 32) (x : Vec Ideal S2000x1 .i32) (r n : Fin 2000) :
    (truncf .bf16 (sitofp (F := Ideal) .f32 (extui 32 (cmpi .eq (broadcastTo S2000x2000 x broadcasts_S2000x1_S2000x2000)
        (broadcastTo S2000x2000 (addi (broadcast S1x2000 b) (iota .tc S1x2000 32 [1] iota_S1x2000_d1_w32)) broadcasts_S1x2000_S2000x2000))
        natLt_1_32)) bitsLt_bf16_f32 : FVec Ideal S2000x2000 .bf16) (ix2 r n)
      = if (x (ix2 r (0 : Fin 1)) : BitVec 32) = b + BitVec.ofNat 32 n.val then 1 else 0 := by
  show ((((IntOp.cmpi .eq (broadcastTo S2000x2000 x broadcasts_S2000x1_S2000x2000 (ix2 r n))
      (broadcastTo S2000x2000 (addi (broadcast S1x2000 b) (iota .tc S1x2000 32 [1] iota_S1x2000_d1_w32)) broadcasts_S1x2000_S2000x2000 (ix2 r n))).setWidth 32).toInt : ℝ) : EReal) = _
  rw [column_broadcast_apply, broadcastTo_1b_ab_apply]
  show ((((IntOp.cmpi .eq (x (ix2 r (0 : Fin 1))) (b + iota .tc S1x2000 32 [1] iota_S1x2000_d1_w32 (ix2 (0 : Fin 1) n))).setWidth 32).toInt : ℝ) : EReal) = _
  rw [iota_single_apply]
  exact hotEntry _ _

/-! ## The product read at an entry

  The body's product contracts the one-hot matrix's node axis against the table's row axis: entry (edge `r`, feature
  `j`) is the sum over the block's nodes `n` of the one-hot entry (`r`, `n`) times the table's entry (`n`, `j`). -/

private theorem lhs_gm_0 (i : S2000x64.Idx) (q : dot_S2000x2000_S2000x64_S2000x64_1_0_0_1_n_n.contr.Idx) :
    (dot_S2000x2000_S2000x64_S2000x64_1_0_0_1_n_n.lhsIdx i q 0).val = (i 0).val := by
  unfold DotDims.lhsIdx
  rw [dif_neg (show ¬(0 : Fin S2000x2000.rank) ∈ dot_S2000x2000_S2000x64_S2000x64_1_0_0_1_n_n.lhsBatch by decide), dif_pos (show (0 : Fin S2000x2000.rank) ∈ dot_S2000x2000_S2000x64_S2000x64_1_0_0_1_n_n.lhsNonContracting by decide)]
  rfl
private theorem lhs_gm_1 (i : S2000x64.Idx) (q : dot_S2000x2000_S2000x64_S2000x64_1_0_0_1_n_n.contr.Idx) :
    (dot_S2000x2000_S2000x64_S2000x64_1_0_0_1_n_n.lhsIdx i q 1).val = (q ⟨0, by decide⟩).val :=
  dot_S2000x2000_S2000x64_S2000x64_1_0_0_1_n_n.lhsIdx_val_of_single rfl i q
private theorem rhs_gm_0 (i : S2000x64.Idx) (q : dot_S2000x2000_S2000x64_S2000x64_1_0_0_1_n_n.contr.Idx) :
    (dot_S2000x2000_S2000x64_S2000x64_1_0_0_1_n_n.rhsIdx i q 0).val = (q ⟨0, by decide⟩).val :=
  dot_S2000x2000_S2000x64_S2000x64_1_0_0_1_n_n.rhsIdx_val_of_single rfl i q
private theorem rhs_gm_1 (i : S2000x64.Idx) (q : dot_S2000x2000_S2000x64_S2000x64_1_0_0_1_n_n.contr.Idx) :
    (dot_S2000x2000_S2000x64_S2000x64_1_0_0_1_n_n.rhsIdx i q 1).val = (i 1).val := by
  unfold DotDims.rhsIdx
  rw [dif_neg (show ¬(1 : Fin S2000x64.rank) ∈ dot_S2000x2000_S2000x64_S2000x64_1_0_0_1_n_n.rhsBatch by decide), dif_pos (show (1 : Fin S2000x64.rank) ∈ dot_S2000x2000_S2000x64_S2000x64_1_0_0_1_n_n.rhsNonContracting by decide)]
  rfl

/-- The product into a zero accumulator, at entry (`r`, `j`): the sum over the 2000 nodes. -/
private theorem product_apply (l : FVec Ideal S2000x2000 .bf16) (t : FVec Ideal S2000x64 .bf16) (r : Fin 2000) (j : Fin 64) :
    matmul dot_S2000x2000_S2000x64_S2000x64_1_0_0_1_n_n none l t (constant (F := Ideal) S2000x64 .f32 0x00000000#32) (ix2 r j)
      = ∑ n : Fin 2000, l (ix2 r n) * t (ix2 n j) := by
  simp only [matmul]
  rw [Ideal.matmul_constant_zero_apply, ← Equiv.sum_comp (ValueIdx.contrEquiv1 dot_S2000x2000_S2000x64_S2000x64_1_0_0_1_n_n 2000 rfl rfl).symm]
  refine Finset.sum_congr rfl fun k _ => ?_
  have hk := ValueIdx.contrEquiv1_symm_val dot_S2000x2000_S2000x64_S2000x64_1_0_0_1_n_n 2000 rfl rfl k
  have el : dot_S2000x2000_S2000x64_S2000x64_1_0_0_1_n_n.lhsIdx (ix2 r j) ((ValueIdx.contrEquiv1 dot_S2000x2000_S2000x64_S2000x64_1_0_0_1_n_n 2000 rfl rfl).symm k) = ix2 r k := funext fun a => Fin.ext (by
    match a with
    | ⟨0, _⟩ => exact lhs_gm_0 _ _
    | ⟨1, _⟩ => exact (lhs_gm_1 _ _).trans hk)
  have er : dot_S2000x2000_S2000x64_S2000x64_1_0_0_1_n_n.rhsIdx (ix2 r j) ((ValueIdx.contrEquiv1 dot_S2000x2000_S2000x64_S2000x64_1_0_0_1_n_n 2000 rfl rfl).symm k) = ix2 k j := funext fun a => Fin.ext (by
    match a with
    | ⟨0, _⟩ => exact (rhs_gm_0 _ _).trans hk
    | ⟨1, _⟩ => exact rhs_gm_1 _ _)
  rw [el, er]

/-- One of the body's two products at an entry: the pick of the edge's node from the table. -/
private theorem pick_apply (i : grid1.Coords) (x : Vec Ideal S2000x1 .i32) (tab : Vec Ideal S2000x64 .f32) (r : Fin 2000) (j : Fin 64)
    (h : (x (ix2 r (0 : Fin 1))).toNat < 50000) :
    matmul dot_S2000x2000_S2000x64_S2000x64_1_0_0_1_n_n none
        (truncf .bf16 (sitofp (F := Ideal) .f32 (extui 32 (cmpi .eq (broadcastTo S2000x2000 x broadcasts_S2000x1_S2000x2000)
          (broadcastTo S2000x2000 (addi (broadcast S1x2000 (Scalar.muli (BitVec.ofNat 32 (i 1).val) 2000#32)) (iota .tc S1x2000 32 [1] iota_S1x2000_d1_w32)) broadcasts_S1x2000_S2000x2000))
          natLt_1_32)) bitsLt_bf16_f32)
        (truncf .bf16 tab bitsLt_bf16_f32) (constant (F := Ideal) S2000x64 .f32 0x00000000#32) (ix2 r j)
      = sel (i 1).val (x (ix2 r (0 : Fin 1))) tab j := by
  have hk : (i 1).val < 25 := (i 1).isLt
  rw [product_apply]
  refine Eq.trans (Finset.sum_congr rfl fun n _ => ?_) (sum_hot_eq_sel (i 1).val hk (x (ix2 r (0 : Fin 1))) h tab j)
  rw [hot_apply]
  rfl

/-- The zeroed accumulator. -/
theorem pay2_apply (r : Fin 2000) (j : Fin 64) : k1_pay2 (F := Ideal) (ix2 r j) = 0 := by
  unfold k1_pay2
  simp only [shapeCast_self]
  exact Ideal.ofBits_zero_f32

/-- The accumulator's update at an entry: what it held plus the two picks, for edges whose nodes are node numbers. -/
theorem pay3_apply (i : grid1.Coords) (x0 x1 : Vec Ideal S2000x1 .i32) (x2 x3 xs : Vec Ideal S2000x64 .f32) (r : Fin 2000) (j : Fin 64)
    (h0 : (x0 (ix2 r (0 : Fin 1))).toNat < 50000) (h1 : (x1 (ix2 r (0 : Fin 1))).toNat < 50000) :
    k1_pay3 (F := Ideal) i x0 x1 x2 x3 xs (ix2 r j)
      = xs (ix2 r j) + (sel (i 1).val (x0 (ix2 r (0 : Fin 1))) x2 j + sel (i 1).val (x1 (ix2 r (0 : Fin 1))) x3 j) := by
  unfold k1_pay3
  simp only [shapeCast_self]
  refine (addf_apply _ _ _).trans (congrArg (xs (ix2 r j) + ·) ?_)
  refine (addf_apply _ _ _).trans ?_
  rw [pick_apply i x0 x2 r j h0, pick_apply i x1 x3 r j h1]

/-- The output block's entry: the accumulator's plus the bias. -/
theorem pay1_apply (v40 : Vec Ideal S2000x64 .f32) (v41 : Vec Ideal S1x64 .f32) (r : Fin 2000) (j : Fin 64) :
    k1_pay1 (F := Ideal) v40 v41 (ix2 r j) = v40 (ix2 r j) + v41 (ix2 (0 : Fin 1) j) := by
  unfold k1_pay1
  simp only [shapeCast_self]
  exact (addf_apply _ _ _).trans (congrArg (v40 (ix2 r j) + ·) (broadcastTo_1b_ab_apply v41 broadcasts_S1x64_S2000x64 r j))

end Cert.KernelIdeal.GmPieces

end
-- ==== Proof.GmParts.lean ====
/-
  Two facts about the gather call's grid, decided or computed once. Point `t` of the 400 × 25 grid works on edge
  block `t / 25` and node block `t % 25`: the two edge columns and the output block sit at block row `t / 25`, the two
  node tables at block row `t % 25`, the bias row at the origin. And the output array's rows are all written back:
  row `R` lies in the block of edge block `R / 2000`, which is written back at that edge block's last node block, the
  point `25 · (R / 2000) + 24`.
-/
import proofs.«426469_j38474317037707_1_alg».proof.Proof.Ideal.Gm
import Idealize.ShloMosaic.Lib.Pipeline.Value

set_option maxRecDepth 16384

noncomputable section

namespace Cert.KernelIdeal.GmParts

open Cert.KernelIdeal Cert.KernelIdeal.Gen Cert.KernelIdeal.Fr
open Idealize.ShloMosaic Idealize.ShloMosaic.TcCoe
open Idealize.SL Idealize.SL.Sem

/-- The windows' block indices and the node-block coordinate at every point, decided over the grid. -/
theorem idx_facts : ∀ t : Fin cfg1.N, win1_0.index t (0 : Fin 2) = t.val / 25 ∧ win1_0.index t (1 : Fin 2) = 0
    ∧ win1_1.index t (0 : Fin 2) = t.val / 25 ∧ win1_1.index t (1 : Fin 2) = 0
    ∧ win1_2.index t (0 : Fin 2) = t.val % 25 ∧ win1_2.index t (1 : Fin 2) = 0
    ∧ win1_3.index t (0 : Fin 2) = t.val % 25 ∧ win1_3.index t (1 : Fin 2) = 0
    ∧ win1_4.index t (0 : Fin 2) = 0 ∧ win1_4.index t (1 : Fin 2) = 0
    ∧ win1_5.index t (0 : Fin 2) = t.val / 25 ∧ win1_5.index t (1 : Fin 2) = 0
    ∧ ((grid1.coords t) 1).val = t.val % 25 :=
  (by decide +kernel : ∀ t : Fin grid1.N, _)

/-- An index of the output array is in point `t`'s block iff each coordinate is in the block's range on its axis. -/
theorem mem_out (t : Fin cfg1.N) (i : S800000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v4).slice (win1_5.rect t)).set ↔ _
  rw [View.set_slice_whole, Rect.mem_set_unit]
  exact Iff.rfl

/-- Every index of the output array lies in a block that is written back. -/
theorem cover5 (i : S800000x64.Idx) : ∃ t : Fin cfg1.N, (cfg1.win 5).flush t = true ∧ i ∈ ((cfg1.win 5).blk t).view.set := by
  have hi0 : (i 0).val < 800000 := (i 0).isLt
  have hi1 : (i 1).val < 64 := (i 1).isLt
  have hN : cfg1.N = 10000 := N_1
  let t : Fin cfg1.N := ⟨25 * ((i 0).val / 2000) + 24, by rw [hN]; omega⟩
  have htv : t.val = 25 * ((i 0).val / 2000) + 24 := rfl
  obtain ⟨-, -, -, -, -, -, -, -, -, -, e0, e1, -⟩ := idx_facts t
  refine ⟨t, (flush1_5 t).mpr (by rw [htv]; omega), ?_⟩
  rw [mem_out]
  intro a
  match a with
  | ⟨0, _⟩ => show win1_5.index t (0 : Fin 2) * 2000 ≤ (i 0).val ∧ (i 0).val < win1_5.index t (0 : Fin 2) * 2000 + 2000; rw [e0, htv]; omega
  | ⟨1, _⟩ => show win1_5.index t (1 : Fin 2) * 64 ≤ (i 1).val ∧ (i 1).val < win1_5.index t (1 : Fin 2) * 64 + 64; rw [e1]; omega

end Cert.KernelIdeal.GmParts

end
-- ==== Proof.GmValue.lean ====
/-
  The gather call's output array, as one function of the arrays the call finds.

  The call walks a 400 × 25 grid: point `t` pairs edge block `t / 25` (2000 edges) with node block `t % 25` (2000 nodes).
  For an edge whose source is node `s` and whose destination is node `d`, node block `k` adds to the accumulator's entry
  row `s` of the first table if `s` lies in block `k`, and row `d` of the second table if `d` does. So after node blocks
  `0 … k` the entry is `P_k(s) + Q_k(d)`, where `P_k(s)` is row `s` of the first table once `s < 2000·(k+1)` and zero
  before, and `Q_k` the same for the second table: the step is `(a + b) + (x + y) = (a + x) + (b + y)` and, per table, the
  rows below `2000·k` joined with the rows of block `k`. At `k = 24` every node number below 50000 has been met, the
  entry is the two whole rows, and the last node block adds the bias row and writes the edge block back. The blocks
  written back tile the 800000 × 64 output, which therefore ends as `Cert.Spec.pick` of the two tables, the bias row and
  the two edge columns. Nothing here asks an entry to be finite: the extended reals are a commutative additive monoid,
  and the regrouping needs no more.
-/
import proofs.«426469_j38474317037707_1_alg».proof.Proof.Ideal.Gm
import proofs.«426469_j38474317037707_1_alg».proof.Proof.GmPieces
import proofs.«426469_j38474317037707_1_alg».proof.Proof.GmParts
import proofs.«426469_j38474317037707_1_alg».proof.Proof.Spec
import Idealize.ShloMosaic.Lib.ValueIdx
import Idealize.ShloMosaic.Lib.Pipeline.Value

set_option maxRecDepth 16384

noncomputable section

namespace Cert.KernelIdeal.GmValue

open Cert.KernelIdeal Cert.KernelIdeal.Gen Cert.KernelIdeal.Fr Cert.KernelIdeal.GmPieces Cert.KernelIdeal.GmParts
open Idealize.ShloMosaic Idealize.ShloMosaic.TcCoe Idealize.ShloMosaic.ValueIdx
open Idealize.SL Idealize.SL.Sem
open Idealize.ShloMosaic.Pipeline (Dat)

/-! ## A row pick, seen node block by node block -/

/-- What the node blocks below row `n` contribute to the pick of node word `w` from table `T`: the node's row once
    its number is below `n`, zero before. -/
def part (T : S50000x64.Idx → EReal) (n : ℕ) (w : BitVec 32) (j : Fin 64) : EReal :=
  if w.toNat < n then T (ix2 (Cert.Spec.node w) j) else 0

theorem part_zero (T : S50000x64.Idx → EReal) (w : BitVec 32) (j : Fin 64) : part T 0 w j = 0 := by
  unfold part; rw [if_neg (Nat.not_lt_zero _)]

/-- One more node block: the rows below `2000·k` and the rows of block `k` are the rows below `2000·(k+1)`. -/
theorem part_join (T : S50000x64.Idx → EReal) (k : ℕ) (w : BitVec 32) (j : Fin 64) :
    part T (2000 * k) w j + (if 2000 * k ≤ w.toNat ∧ w.toNat < 2000 * k + 2000 then T (ix2 (Cert.Spec.node w) j) else 0)
      = part T (2000 * (k + 1)) w j := by
  unfold part
  by_cases h1 : w.toNat < 2000 * k
  · rw [if_pos h1, if_neg (by omega), if_pos (by omega), add_zero]
  · by_cases h2 : w.toNat < 2000 * k + 2000
    · rw [if_neg h1, if_pos ⟨by omega, h2⟩, if_pos (by omega), zero_add]
    · rw [if_neg h1, if_neg (by omega), if_neg (by omega), add_zero]

/-- All twenty-five node blocks: the node's row. -/
theorem part_full (T : S50000x64.Idx → EReal) (w : BitVec 32) (j : Fin 64) (hw : w.toNat < 50000) :
    part T (2000 * (24 + 1)) w j = T (ix2 (Cert.Spec.node w) j) := by
  unfold part; rw [if_pos (by omega)]

/-- Node block `k`'s pick from a block that holds rows `2000·k …` of `T` is the node's row of `T` when the node lies
    in the block. -/
theorem sel_of_block (k : ℕ) (w : BitVec 32) (hw : w.toNat < 50000) (T : S50000x64.Idx → EReal) (B : S2000x64.Idx → EReal)
    (j : Fin 64) (hB : ∀ (p : Fin 2000) (q : Fin 50000), q.val = 2000 * k + p.val → B (ix2 p j) = T (ix2 q j)) :
    sel k w B j = if 2000 * k ≤ w.toNat ∧ w.toNat < 2000 * k + 2000 then T (ix2 (Cert.Spec.node w) j) else 0 := by
  unfold sel
  by_cases h : 2000 * k ≤ w.toNat ∧ w.toNat < 2000 * k + 2000
  · rw [dif_pos h, if_pos h]
    exact hB _ _ (by rw [Cert.Spec.node_val_of_lt hw]; show w.toNat = 2000 * k + (w.toNat - 2000 * k); omega)
  · rw [dif_neg h, if_neg h]

/-! ## The arrays and the blocks by name -/

-- the device's buffer contents when the call is entered
variable (V : (c : Dev nD) → (b : Ref sig .tc) → Buf (Elt Ideal) ((c : Thread nD τ).loc b))

/-- The edge lists, the two node tables and the bias row as the call finds them, -/
abbrev srcArr (c : Dev nD) : Vec Ideal S800000x1 .i32 := V c main_v0
abbrev dstArr (c : Dev nD) : Vec Ideal S800000x1 .i32 := V c main_v1
abbrev tab0 (c : Dev nD) : Vec Ideal S50000x64 .f32 := V c main_v3_0
abbrev tab1 (c : Dev nD) : Vec Ideal S50000x64 .f32 := V c main_v3_1
abbrev biasArr (c : Dev nD) : Vec Ideal S1x64 .f32 := V c main_v2
/-- and their blocks at point `t`. -/
abbrev srcBlk (c : Dev nD) (t : Fin cfg1.N) : Vec Ideal S2000x1 .i32 := blkG V c 0 t
abbrev dstBlk (c : Dev nD) (t : Fin cfg1.N) : Vec Ideal S2000x1 .i32 := blkG V c 1 t
abbrev tab0Blk (c : Dev nD) (t : Fin cfg1.N) : Vec Ideal S2000x64 .f32 := blkG V c 2 t
abbrev tab1Blk (c : Dev nD) (t : Fin cfg1.N) : Vec Ideal S2000x64 .f32 := blkG V c 3 t
abbrev biasBlk (c : Dev nD) (t : Fin cfg1.N) : Vec Ideal S1x64 .f32 := blkG V c 4 t

/-! ## Each block read where its rectangle says -/

/-- The source column's block at point `t` holds the edges `2000·(t / 25) …`. -/
theorem srcBlk_apply (c : Dev nD) (t : Fin cfg1.N) (r : Fin 2000) (e : Fin 800000) (he : e.val = 2000 * (t.val / 25) + r.val) :
    srcBlk V c t (ix2 r (0 : Fin 1)) = srcArr V c (ix2 e (0 : Fin 1)) := by
  obtain ⟨e0, e1, -⟩ := idx_facts t
  show V c main_v0 (((cfg1.win 0).blk t).view.emb (ix2 r (0 : Fin 1))) = V c main_v0 (ix2 e (0 : Fin 1))
  congr 1
  funext a; apply Fin.ext
  match a with
  | ⟨0, _⟩ => show win1_0.index t (0 : Fin 2) * 2000 + 1 * r.val = e.val; rw [e0]; omega
  | ⟨1, _⟩ => show win1_0.index t (1 : Fin 2) * 1 + 1 * 0 = 0; rw [e1]

/-- The destination column's block likewise. -/
theorem dstBlk_apply (c : Dev nD) (t : Fin cfg1.N) (r : Fin 2000) (e : Fin 800000) (he : e.val = 2000 * (t.val / 25) + r.val) :
    dstBlk V c t (ix2 r (0 : Fin 1)) = dstArr V c (ix2 e (0 : Fin 1)) := by
  obtain ⟨-, -, e0, e1, -⟩ := idx_facts t
  show V c main_v1 (((cfg1.win 1).blk t).view.emb (ix2 r (0 : Fin 1))) = V c main_v1 (ix2 e (0 : Fin 1))
  congr 1
  funext a; apply Fin.ext
  match a with
  | ⟨0, _⟩ => show win1_1.index t (0 : Fin 2) * 2000 + 1 * r.val = e.val; rw [e0]; omega
  | ⟨1, _⟩ => show win1_1.index t (1 : Fin 2) * 1 + 1 * 0 = 0; rw [e1]

/-- The first node table's block at point `t` holds the nodes `2000·(t % 25) …`, -/
theorem tab0Blk_apply (c : Dev nD) (t : Fin cfg1.N) (p : Fin 2000) (j : Fin 64) (q : Fin 50000) (hq : q.val = 2000 * (t.val % 25) + p.val) :
    tab0Blk V c t (ix2 p j) = tab0 V c (ix2 q j) := by
  obtain ⟨-, -, -, -, e0, e1, -⟩ := idx_facts t
  show V c main_v3_0 (((cfg1.win 2).blk t).view.emb (ix2 p j)) = V c main_v3_0 (ix2 q j)
  congr 1
  funext a; apply Fin.ext
  match a with
  | ⟨0, _⟩ => show win1_2.index t (0 : Fin 2) * 2000 + 1 * p.val = q.val; rw [e0]; omega
  | ⟨1, _⟩ => show win1_2.index t (1 : Fin 2) * 64 + 1 * j.val = j.val; rw [e1]; omega

/-- and so does the second's. -/
theorem tab1Blk_apply (c : Dev nD) (t : Fin cfg1.N) (p : Fin 2000) (j : Fin 64) (q : Fin 50000) (hq : q.val = 2000 * (t.val % 25) + p.val) :
    tab1Blk V c t (ix2 p j) = tab1 V c (ix2 q j) := by
  obtain ⟨-, -, -, -, -, -, e0, e1, -⟩ := idx_facts t
  show V c main_v3_1 (((cfg1.win 3).blk t).view.emb (ix2 p j)) = V c main_v3_1 (ix2 q j)
  congr 1
  funext a; apply Fin.ext
  match a with
  | ⟨0, _⟩ => show win1_3.index t (0 : Fin 2) * 2000 + 1 * p.val = q.val; rw [e0]; omega
  | ⟨1, _⟩ => show win1_3.index t (1 : Fin 2) * 64 + 1 * j.val = j.val; rw [e1]; omega

/-- The bias row's block is the bias row at every point. -/
theorem biasBlk_apply (c : Dev nD) (t : Fin cfg1.N) (j : Fin 64) :
    biasBlk V c t (ix2 (0 : Fin 1) j) = biasArr V c (ix2 (0 : Fin 1) j) := by
  obtain ⟨-, -, -, -, -, -, -, -, e0, e1, -⟩ := idx_facts t
  show V c main_v2 (((cfg1.win 4).blk t).view.emb (ix2 (0 : Fin 1) j)) = V c main_v2 (ix2 (0 : Fin 1) j)
  congr 1
  funext a; apply Fin.ext
  match a with
  | ⟨0, _⟩ => show win1_4.index t (0 : Fin 2) * 1 + 1 * 0 = 0; rw [e0]
  | ⟨1, _⟩ => show win1_4.index t (1 : Fin 2) * 64 + 1 * j.val = j.val; rw [e1]; omega

/-! ## One point's step -/

/-- The accumulator's update at point `t` (edge block `t / 25`, node block `t % 25`), at the entry of edge `e` of the
    block and feature `j`: if the accumulator held the two picks over the node blocks before this one, it now holds them
    over the node blocks up to this one. `(a + b) + (s + d) = (a + s) + (b + d)`, and each table's two parts join. -/
theorem pay3_step (c : Dev nD) (t : Fin cfg1.N) (xs : Vec Ideal S2000x64 .f32) (r : Fin 2000) (j : Fin 64) (e : Fin 800000)
    (he : e.val = 2000 * (t.val / 25) + r.val)
    (hs : (srcArr V c (ix2 e (0 : Fin 1))).toNat < 50000) (hd : (dstArr V c (ix2 e (0 : Fin 1))).toNat < 50000)
    (hxs : xs (ix2 r j) = part (tab0 V c) (2000 * (t.val % 25)) (srcArr V c (ix2 e (0 : Fin 1))) j
        + part (tab1 V c) (2000 * (t.val % 25)) (dstArr V c (ix2 e (0 : Fin 1))) j) :
    k1_pay3 (F := Ideal) (grid1.coords t) (srcBlk V c t) (dstBlk V c t) (tab0Blk V c t) (tab1Blk V c t) xs (ix2 r j)
      = part (tab0 V c) (2000 * (t.val % 25 + 1)) (srcArr V c (ix2 e (0 : Fin 1))) j
        + part (tab1 V c) (2000 * (t.val % 25 + 1)) (dstArr V c (ix2 e (0 : Fin 1))) j := by
  have hk : ((grid1.coords t) 1).val = t.val % 25 := (idx_facts t).2.2.2.2.2.2.2.2.2.2.2.2
  have es := srcBlk_apply V c t r e he
  have ed := dstBlk_apply V c t r e he
  rw [pay3_apply (grid1.coords t) (srcBlk V c t) (dstBlk V c t) (tab0Blk V c t) (tab1Blk V c t) xs r j
    (by rw [es]; exact hs) (by rw [ed]; exact hd)]
  rw [hk, es, ed, hxs,
    sel_of_block (t.val % 25) _ hs (tab0 V c) (tab0Blk V c t) j (fun p q hq => tab0Blk_apply V c t p j q hq),
    sel_of_block (t.val % 25) _ hd (tab1 V c) (tab1Blk V c t) j (fun p q hq => tab1Blk_apply V c t p j q hq),
    add_add_add_comm, part_join, part_join]

/-! ## The accumulator after every point -/

/-- After point `n` (edge block `n / 25`, node block `n % 25`) the accumulator's entry for edge `e` of the block holds
    the source's row of the first table and the destination's row of the second as far as node blocks `0 … n % 25`
    have them. By induction on the point: a first node block starts from zero, every other from the point before. -/
theorem acc_inv (c : Dev nD) (hs : ∀ e : Fin 800000, (srcArr V c (ix2 e (0 : Fin 1))).toNat < 50000)
    (hd : ∀ e : Fin 800000, (dstArr V c (ix2 e (0 : Fin 1))).toNat < 50000) :
    ∀ (n : ℕ) (hn : n < cfg1.N) (r : Fin 2000) (j : Fin 64) (e : Fin 800000), e.val = 2000 * (n / 25) + r.val →
      (heldAt V c n hn).2 (ix2 r j) = part (tab0 V c) (2000 * (n % 25 + 1)) (srcArr V c (ix2 e (0 : Fin 1))) j
        + part (tab1 V c) (2000 * (n % 25 + 1)) (dstArr V c (ix2 e (0 : Fin 1))) j := by
  intro n
  induction n using Nat.strong_induction_on with
  | _ n ih =>
    intro hn r j e he
    by_cases h0 : n % 25 = 0
    · have h1 : ¬n % 25 = 24 := by omega
      rw [heldAt_first V c ⟨n, hn⟩ h0 h1]; dsimp only
      rw [accFirst_eq]
      exact pay3_step V c ⟨n, hn⟩ (k1_pay2 (F := Ideal)) r j e he (hs e) (hd e)
        (by rw [pay2_apply]; show (0 : EReal) = part _ (2000 * (n % 25)) _ j + part _ (2000 * (n % 25)) _ j
            rw [h0, part_zero, part_zero, add_zero])
    · have hp := ih (n - 1) (by omega) (by omega) r j e (by omega)
      rw [show (n - 1) % 25 + 1 = n % 25 from by omega] at hp
      by_cases h1 : n % 25 = 24
      · rw [heldAt_last V c ⟨n, hn⟩ h0 h1]; dsimp only
        rw [accLast_eq]
        exact pay3_step V c ⟨n, hn⟩ _ r j e he (hs e) (hd e) hp
      · rw [heldAt_middle V c ⟨n, hn⟩ h0 h1]; dsimp only
        rw [accMiddle_eq]
        exact pay3_step V c ⟨n, hn⟩ _ r j e he (hs e) (hd e) hp

/-! ## What a last node block writes back -/

/-- At a last node block the output block's entry for edge `e` of the block is the layer's value on that edge: all
    twenty-five node blocks have been seen, so the two picks are the two whole rows, and the bias row is added. -/
theorem out_entry (c : Dev nD) (hs : ∀ e : Fin 800000, (srcArr V c (ix2 e (0 : Fin 1))).toNat < 50000)
    (hd : ∀ e : Fin 800000, (dstArr V c (ix2 e (0 : Fin 1))).toNat < 50000)
    (t : Fin cfg1.N) (ht : t.val % 25 = 24) (r : Fin 2000) (j : Fin 64) (e : Fin 800000) (he : e.val = 2000 * (t.val / 25) + r.val) :
    (heldAt V c t.val t.isLt).1 (ix2 r j)
      = Cert.Spec.pick (tab0 V c) (tab1 V c) (biasArr V c) (srcArr V c) (dstArr V c) (ix2 e j) := by
  have h0 : ¬t.val % 25 = 0 := by omega
  have hp := acc_inv V c hs hd (t.val - 1) (by have := t.isLt; omega) r j e (by omega)
  rw [show (t.val - 1) % 25 + 1 = t.val % 25 from by omega] at hp
  rw [heldAt_last V c t h0 ht]; dsimp only
  rw [outLast_eq, pay1_apply, pay3_step V c t _ r j e he (hs e) (hd e) hp, ht,
    part_full _ _ _ (hs e), part_full _ _ _ (hd e)]
  rw [show blkG V c 4 t (ix2 (0 : Fin 1) j) = biasArr V c (ix2 (0 : Fin 1) j) from biasBlk_apply V c t j]
  rfl

/-- So what a last node block writes back is its block of the layer's value. -/
theorem flushed_eq (c : Dev nD) (hs : ∀ e : Fin 800000, (srcArr V c (ix2 e (0 : Fin 1))).toNat < 50000)
    (hd : ∀ e : Fin 800000, (dstArr V c (ix2 e (0 : Fin 1))).toNat < 50000) (t : Fin cfg1.N) (ht : t.val % 25 = 24) :
    (datG (F := Ideal) V c).flushed 5 t
      = ((cfg1.win 5).blk t).view.read (Elt Ideal)
          (Cert.Spec.pick (tab0 V c) (tab1 V c) (biasArr V c) (srcArr V c) (dstArr V c)) := by
  show (cfg1.win 5).cut (grid1.coords t) ((datG V c).after 5 t) = _
  rw [afterG5]
  funext y
  have h0 : (y 0).val < 2000 := (y 0).isLt
  have h1 : (y 1).val < 64 := (y 1).isLt
  have hN : grid1.N = 10000 := N_1
  have htl : t.val < grid1.N := t.isLt
  obtain ⟨-, -, -, -, -, -, -, -, -, -, e0, e1, -⟩ := idx_facts t
  have hx : (cfg1.win 5).xinj (grid1.coords t) y = ix2 (⟨(y 0).val, h0⟩ : Fin 2000) (⟨(y 1).val, h1⟩ : Fin 64) := by
    funext a
    match a with
    | ⟨0, _⟩ => rfl
    | ⟨1, _⟩ => rfl
  have hemb : ((cfg1.win 5).blk t).view.emb y
      = ix2 (⟨2000 * (t.val / 25) + (y 0).val, by omega⟩ : Fin 800000) (⟨(y 1).val, h1⟩ : Fin 64) := by
    funext a; apply Fin.ext
    match a with
    | ⟨0, _⟩ => show win1_5.index t (0 : Fin 2) * 2000 + 1 * (y 0).val = 2000 * (t.val / 25) + (y 0).val; rw [e0]; omega
    | ⟨1, _⟩ => show win1_5.index t (1 : Fin 2) * 64 + 1 * (y 1).val = (y 1).val; rw [e1]; omega
  show (heldAt V c t.val t.isLt).1 ((cfg1.win 5).xinj (grid1.coords t) y)
    = Cert.Spec.pick (tab0 V c) (tab1 V c) (biasArr V c) (srcArr V c) (dstArr V c) (((cfg1.win 5).blk t).view.emb y)
  rw [hx, hemb]
  exact out_entry V c hs hd t ht _ _ _ rfl

/-! ## The output array -/

/-- The last node blocks' blocks tile the output array, so after all write-backs it holds the layer's value: on edge
    `e`, row `node (src e)` of the first table plus row `node (dst e)` of the second plus the bias. -/
theorem arrOut_eq (c : Dev nD) (hs : ∀ e : S800000x1.Idx, ((V c main_v0 : S800000x1.Idx → BitVec 32) e).toNat < 50000)
    (hd : ∀ e : S800000x1.Idx, ((V c main_v1 : S800000x1.Idx → BitVec 32) e).toNat < 50000) :
    (datG (F := Ideal) V c).arrAt 5 cfg1.N
      = Cert.Spec.pick (V c main_v3_0) (V c main_v3_1) (V c main_v2) (V c main_v0) (V c main_v1) :=
  (datG (F := Ideal) V c).arrAt_eq_of_cover 5
    (Cert.Spec.pick (tab0 V c) (tab1 V c) (biasArr V c) (srcArr V c) (dstArr V c))
    (fun t hf => flushed_eq V c (fun e => hs (ix2 e (0 : Fin 1))) (fun e => hd (ix2 e (0 : Fin 1))) t ((flush1_5 t).mp hf))
    cover5

end Cert.KernelIdeal.GmValue

end
-- ==== Proof.ProjValue.lean ====
/-
  The two arrays the projection call leaves, as functions of the arrays it finds.

  The call walks the 50000 rows of the feature matrix `x` in ten blocks of 5000. At block `t` it multiplies rows
  5000·t … 5000·t + 4999 of `x` (5000 × 64) by the upper half of `W` (rows 0 … 63 of the 128 × 64 matrix) and by the
  lower half (rows 64 … 127), and writes the two 5000 × 64 products to the same rows of two output arrays. Each product
  is one contraction over the 64 features, started from zero, and the change of float format in front of it is the
  identity on the extended reals. So entry (5000·t + p, q) of the first output is Σ_f x[5000·t + p, f] · W[f, q] and of
  the second Σ_f x[5000·t + p, f] · W[64 + f, q]: row by row these are `Cert.Spec.projSrc` and `Cert.Spec.projDst` of
  `x` and `W`. Every row r lies in exactly the block r / 5000, so after the ten write-backs each output array is the
  whole projection.

  In order: the block product at an entry (the contraction's operand indices, the sum over the one contracted axis,
  the half of `W` as a cut along its rows); each input block as rows of its array; what one point writes back; the
  rows a block covers and the point that covers a given row; the two arrays.
-/
import proofs.«426469_j38474317037707_1_alg».proof.Proof.Ideal.Proj
import proofs.«426469_j38474317037707_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.ProjValue

open Cert.KernelIdeal Cert.KernelIdeal.Gen Cert.KernelIdeal.Fr
open Idealize.ShloMosaic Idealize.ShloMosaic.TcCoe Idealize.SL.Sem
open Idealize.ShloMosaic.Pipeline (Dat)
open Idealize.ShloMosaic.ValueIdx

/-! ## The block product at an entry -/

/-- The contraction (5000 × 64) · (64 × 64) → 5000 × 64 contracts the left operand's columns with the right operand's
    rows. At output entry `i` and contraction index `q` the left operand is read in row `i 0`, -/
theorem lhsRow (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- column `q`; -/
theorem lhsCol (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand in row `q`, -/
theorem rhsRow (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- column `i 1`. -/
theorem rhsCol (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- On the extended reals the block product started from zero is, at entry (p, q), the sum over the 64 contracted
    positions f of a[p, f] · b[f, q]: the contraction has one axis, of extent 64, and its index is that one coordinate. -/
theorem product_at (a : FVec Ideal S5000x64 .bf16) (b : FVec Ideal S64x64 .bf16) (p : Fin 5000) (q : Fin 64) :
    matmul dot_S5000x64_S64x64_S5000x64_1_0_0_1_n_n none a b (constant (F := Ideal) S5000x64 .f32 0x00000000#32) (ix2 p q)
      = ∑ f : Fin 64, a (ix2 p f) * b (ix2 f q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhsRow _ _
    | ⟨1, _⟩ => exact (lhsCol _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhsRow _ _).trans hk
    | ⟨1, _⟩ => exact rhsCol _ _)
  rw [el, er]

/-- What the body stores to the first output, at entry (p, q) of the block: the block's row p against column q of the
    upper half of the weights — row f of the half cut from row 0 is row f of `W`, and the format change reads through. -/
theorem upperProduct_at (x0 : Vec Ideal S5000x64 .f32) (x1 : Vec Ideal S128x64 .f32) (p : Fin 5000) (q : Fin 64) :
    k0_pay3 (F := Ideal) x0 x1 (ix2 p q) = ∑ f : Fin 64, x0 (ix2 p f) * x1 (ix2 (Cert.Spec.upper f) q) := by
  unfold k0_pay3 k0_pay1 k0_pay2
  refine (product_at _ _ p q).trans ?_
  refine Finset.sum_congr rfl fun f _ => ?_
  rw [truncf_apply, slice2_axis0_apply 0 _ _ f q (Cert.Spec.upper f) (by show f.val = 0 + f.val; omega), truncf_apply]

/-- What the body stores to the second output: the same against the lower half — row f of the half cut from row 64 is
    row 64 + f of `W`. -/
theorem lowerProduct_at (x0 : Vec Ideal S5000x64 .f32) (x1 : Vec Ideal S128x64 .f32) (p : Fin 5000) (q : Fin 64) :
    k0_pay4 (F := Ideal) x0 x1 (ix2 p q) = ∑ f : Fin 64, x0 (ix2 p f) * x1 (ix2 (Cert.Spec.lower f) q) := by
  unfold k0_pay4 k0_pay1 k0_pay2
  refine (product_at _ _ p q).trans ?_
  refine Finset.sum_congr rfl fun f _ => ?_
  rw [truncf_apply, slice2_axis0_apply 64 _ _ f q (Cert.Spec.lower f) (by show 64 + f.val = 64 + f.val; rfl), truncf_apply]

/-- A block's product with the upper half is the projection's rows: if the block `x0` holds rows 5000·T … of `X` and
    `x1` is `W`, then entry `j` of the product is `projSrc X W` at the entry `i` that lies 5000·T rows further down in
    the same column. -/
theorem upperBlock_value (X : S50000x64.Idx → EReal) (W : S128x64.Idx → EReal) (x0 : Vec Ideal S5000x64 .f32) (x1 : Vec Ideal S128x64 .f32) (T : Nat)
    (h0 : ∀ (x : S5000x64.Idx) (k : S50000x64.Idx), (k 0).val = 5000 * T + (x 0).val → (k 1).val = (x 1).val → x0 x = X k)
    (h1 : ∀ i, x1 i = W i) (j : S5000x64.Idx) (i : S50000x64.Idx) (hi0 : (i 0).val = 5000 * T + (j 0).val) (hi1 : (i 1).val = (j 1).val) :
    k0_pay3 (F := Ideal) x0 x1 j = Cert.Spec.projSrc X W i := by
  obtain ⟨p, q, rfl⟩ : ∃ (p : Fin 5000) (q : Fin 64), j = ix2 p q := ⟨j 0, j 1, eq_ix2 j⟩
  obtain ⟨r, s, rfl⟩ : ∃ (r : Fin 50000) (s : Fin 64), i = ix2 r s := ⟨i 0, i 1, eq_ix2 i⟩
  obtain rfl : s = q := Fin.ext hi1
  rw [upperProduct_at]
  unfold Cert.Spec.projSrc
  refine Finset.sum_congr rfl fun f _ => ?_
  rw [h0 (ix2 p f) (ix2 r f) hi0 rfl, h1]

/-- The same for the lower half and `projDst`. -/
theorem lowerBlock_value (X : S50000x64.Idx → EReal) (W : S128x64.Idx → EReal) (x0 : Vec Ideal S5000x64 .f32) (x1 : Vec Ideal S128x64 .f32) (T : Nat)
    (h0 : ∀ (x : S5000x64.Idx) (k : S50000x64.Idx), (k 0).val = 5000 * T + (x 0).val → (k 1).val = (x 1).val → x0 x = X k)
    (h1 : ∀ i, x1 i = W i) (j : S5000x64.Idx) (i : S50000x64.Idx) (hi0 : (i 0).val = 5000 * T + (j 0).val) (hi1 : (i 1).val = (j 1).val) :
    k0_pay4 (F := Ideal) x0 x1 j = Cert.Spec.projDst X W i := by
  obtain ⟨p, q, rfl⟩ : ∃ (p : Fin 5000) (q : Fin 64), j = ix2 p q := ⟨j 0, j 1, eq_ix2 j⟩
  obtain ⟨r, s, rfl⟩ : ∃ (r : Fin 50000) (s : Fin 64), i = ix2 r s := ⟨i 0, i 1, eq_ix2 i⟩
  obtain rfl : s = q := Fin.ext hi1
  rw [lowerProduct_at]
  unfold Cert.Spec.projDst
  refine Finset.sum_congr rfl fun f _ => ?_
  rw [h0 (ix2 p f) (ix2 r f) hi0 rfl, h1]

/-! ## The blocks of a point -/

-- the device's buffer contents when the call is entered
variable (V : (c : Dev nD) → (b : Ref sig .tc) → Buf (Elt Ideal) ((c : Thread nD τ).loc b))

/-- A whole block is stored and loaded from its corner. -/
theorem corner : (![0, 0] : Fin 2 → Nat) = fun _ => 0 := funext fun a => by fin_cases a <;> rfl

/-- Where the blocks of point `t` sit: the feature block and the two output blocks are block (t, 0) of their arrays,
    the weight block is block (0, 0), the whole matrix. Ten points, each checked. -/
theorem blockAt : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature block at point `t` is rows 5000·t … 5000·t + 4999 of the feature array: its entry `x` is the array's
    entry 5000·t rows further down in the same column. -/
theorem rowsBlock_at (c : Dev nD) (t : Fin cfg0.N) (x : S5000x64.Idx) (k : S50000x64.Idx)
    (hk0 : (k 0).val = 5000 * t.val + (x 0).val) (hk1 : (k 1).val = (x 1).val) :
    (blkP (F := Ideal) V c 0 t : Vec Ideal S5000x64 .f32) x = (V c main_arg0 : S50000x64.Idx → Elt Ideal .f32) k := by
  obtain ⟨e0, e1, -⟩ := blockAt t
  unfold blkP
  rw [View.read_apply]
  show V c main_arg0 _ = V c main_arg0 _
  refine congrArg _ ?_
  funext a
  apply Fin.ext
  match a with
  | ⟨0, _⟩ => show win0_0.index t (0 : Fin 2) * 5000 + 1 * (x 0).val = (k 0).val; rw [e0, hk0]; omega
  | ⟨1, _⟩ => show win0_0.index t (1 : Fin 2) * 64 + 1 * (x 1).val = (k 1).val; rw [e1, hk1]; omega

/-- The weight block at every point is the whole weight matrix. -/
theorem weightBlock_at (c : Dev nD) (t : Fin cfg0.N) (x : S128x64.Idx) :
    (blkP (F := Ideal) V c 1 t : Vec Ideal S128x64 .f32) x = (V c main_arg1 : S128x64.Idx → Elt Ideal .f32) x := by
  obtain ⟨-, -, e0, e1, -⟩ := blockAt t
  unfold blkP
  rw [View.read_apply]
  show V c main_arg1 _ = V c main_arg1 _
  refine congrArg _ ?_
  funext a
  apply Fin.ext
  match a with
  | ⟨0, _⟩ => show win0_1.index t (0 : Fin 2) * 128 + 1 * (x 0).val = (x 0).val; rw [e0]; omega
  | ⟨1, _⟩ => show win0_1.index t (1 : Fin 2) * 64 + 1 * (x 1).val = (x 1).val; rw [e1]; omega

/-! ## What a point writes back -/

/-- Point `t` writes to the first output array rows 5000·t … of `projSrc x W`: the body's one store is the product of
    the point's feature rows with the upper half of `W`, and the output block sits at the same rows as the feature block. -/
theorem writtenA_eq (c : Dev nD) (t : Fin cfg0.N) :
    (datP (F := Ideal) V c).flushed 2 t = ((cfg0.win 2).blk t).view.read (Elt Ideal) (Cert.Spec.projSrc (V c main_arg0) (V c main_arg1)) := by
  show (cfg0.win 2).cut (grid0.coords t) ((datP (F := Ideal) V c).after 2 t) = _
  rw [afterP2]
  unfold outA
  rw [View.canon_unit_zero corner]
  simp only [View.ld_unit_zero (S := S5000x64) corner, View.ld_unit_zero (S := S128x64) corner]
  obtain ⟨-, -, -, -, e0, e1, -⟩ := blockAt t
  funext j
  show k0_pay3 (F := Ideal) (blkP V c 0 t) (blkP V c 1 t) j = Cert.Spec.projSrc (V c main_arg0) (V c main_arg1) (((cfg0.win 2).blk t).view.emb j)
  refine upperBlock_value (V c main_arg0) (V c main_arg1) (blkP V c 0 t) (blkP V c 1 t) t.val (rowsBlock_at V c t) (weightBlock_at V c t) j (((cfg0.win 2).blk t).view.emb j) ?_ ?_
  · show win0_2.index t (0 : Fin 2) * 5000 + 1 * (j 0).val = 5000 * t.val + (j 0).val
    rw [e0]; omega
  · show win0_2.index t (1 : Fin 2) * 64 + 1 * (j 1).val = (j 1).val
    rw [e1]; omega

/-- And to the second output array the same rows of `projDst x W`. -/
theorem writtenB_eq (c : Dev nD) (t : Fin cfg0.N) :
    (datP (F := Ideal) V c).flushed 3 t = ((cfg0.win 3).blk t).view.read (Elt Ideal) (Cert.Spec.projDst (V c main_arg0) (V c main_arg1)) := by
  show (cfg0.win 3).cut (grid0.coords t) ((datP (F := Ideal) V c).after 3 t) = _
  rw [afterP3]
  unfold outB
  rw [View.canon_unit_zero corner]
  simp only [View.ld_unit_zero (S := S5000x64) corner, View.ld_unit_zero (S := S128x64) corner]
  obtain ⟨-, -, -, -, -, -, e0, e1⟩ := blockAt t
  funext j
  show k0_pay4 (F := Ideal) (blkP V c 0 t) (blkP V c 1 t) j = Cert.Spec.projDst (V c main_arg0) (V c main_arg1) (((cfg0.win 3).blk t).view.emb j)
  refine lowerBlock_value (V c main_arg0) (V c main_arg1) (blkP V c 0 t) (blkP V c 1 t) t.val (rowsBlock_at V c t) (weightBlock_at V c t) j (((cfg0.win 3).blk t).view.emb j) ?_ ?_
  · show win0_3.index t (0 : Fin 2) * 5000 + 1 * (j 0).val = 5000 * t.val + (j 0).val
    rw [e0]; omega
  · show win0_3.index t (1 : Fin 2) * 64 + 1 * (j 1).val = (j 1).val
    rw [e1]; omega

/-! ## The rows a block covers -/

/-- An entry of the first output array is in point `t`'s block exactly when, on each axis, its coordinate is within
    the block's extent from the block's corner. -/
theorem mem_rowsA (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v3_0).slice (win0_2.rect t)).set ↔ _
  rw [View.set_slice_whole, Rect.mem_set_unit]
  exact Iff.rfl

/-- The same for the second output array. -/
theorem mem_rowsB (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v3_1).slice (win0_3.rect t)).set ↔ _
  rw [View.set_slice_whole, Rect.mem_set_unit]
  exact Iff.rfl

/-- Every entry of the first output array is written by some point: row r by point r / 5000, which is below ten since
    r is below 50000, and 5000·(r / 5000) ≤ r < 5000·(r / 5000) + 5000. -/
theorem coveredA (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  have ht : t.val = (i 0).val / 5000 := rfl
  obtain ⟨-, -, -, -, e0, e1, -⟩ := blockAt t
  refine ⟨t, flush0_2 t, ?_⟩
  rw [mem_rowsA]
  intro a
  match a with
  | ⟨0, _⟩ => show win0_2.index t (0 : Fin 2) * 5000 ≤ (i 0).val ∧ (i 0).val < win0_2.index t (0 : Fin 2) * 5000 + 5000; rw [e0, ht]; omega
  | ⟨1, _⟩ => show win0_2.index t (1 : Fin 2) * 64 ≤ (i 1).val ∧ (i 1).val < win0_2.index t (1 : Fin 2) * 64 + 64; rw [e1]; omega

/-- And every entry of the second. -/
theorem coveredB (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  have ht : t.val = (i 0).val / 5000 := rfl
  obtain ⟨-, -, -, -, -, -, e0, e1⟩ := blockAt t
  refine ⟨t, flush0_3 t, ?_⟩
  rw [mem_rowsB]
  intro a
  match a with
  | ⟨0, _⟩ => show win0_3.index t (0 : Fin 2) * 5000 ≤ (i 0).val ∧ (i 0).val < win0_3.index t (0 : Fin 2) * 5000 + 5000; rw [e0, ht]; omega
  | ⟨1, _⟩ => show win0_3.index t (1 : Fin 2) * 64 ≤ (i 1).val ∧ (i 1).val < win0_3.index t (1 : Fin 2) * 64 + 64; rw [e1]; omega

/-! ## The two arrays after the call -/

/-- After the ten write-backs the first output array is every node's features projected by the upper half of `W`:
    each point writes its rows of that one function, and the points' rows fill the array. -/
theorem arrA_eq (c : Dev nD) : (datP (F := Ideal) V c).arrAt 2 cfg0.N = Cert.Spec.projSrc (V c main_arg0) (V c main_arg1) :=
  (datP (F := Ideal) V c).arrAt_eq_of_cover 2 (Cert.Spec.projSrc (V c main_arg0) (V c main_arg1)) (fun t _ => writtenA_eq V c t) coveredA

/-- And the second is every node's features projected by the lower half. -/
theorem arrB_eq (c : Dev nD) : (datP (F := Ideal) V c).arrAt 3 cfg0.N = Cert.Spec.projDst (V c main_arg0) (V c main_arg1) :=
  (datP (F := Ideal) V c).arrAt_eq_of_cover 3 (Cert.Spec.projDst (V c main_arg0) (V c main_arg1)) (fun t _ => writtenB_eq V c t) coveredB

end Cert.KernelIdeal.ProjValue

end
-- ==== Proof.Layer.lean ====
/-
  From the gather call's final array to the layer. The gather call finds the two projected arrays as the projection call
  left them — the node features times the upper and the lower half of `W` —, and the edge lists and the bias as the
  host's reshapes left them: the lists as columns, the bias as a row, entry for entry what was launched. So picking
  rows of those arrays by those columns and adding that row is the layer of the launched inputs.
-/
import proofs.«426469_j38474317037707_1_alg».proof.Proof.Ideal.Whole
import proofs.«426469_j38474317037707_1_alg».proof.Proof.ProjValue
import proofs.«426469_j38474317037707_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Layer

open Cert.KernelIdeal Cert.KernelIdeal.Gen Cert.KernelIdeal.Fr
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ)

/-- The three reshapes' results, as terms of the launched arrays. -/
theorem srcCol_eq (c : Dev nD) :
    (V1 m c main_v0 : S800000x1.Idx → BitVec 32)
      = shapeCast S800000x1 (m ((c : Thread nD τ).loc main_arg3) : S800000.Idx → BitVec 32) shapeCasts_S800000_S800000x1 := by
  show StableHlo.after hostOps0 (fun b => m (c, b)) (Proc.devRef .tc main_v0) = _
  after_results; rfl
theorem dstCol_eq (c : Dev nD) :
    (V1 m c main_v1 : S800000x1.Idx → BitVec 32)
      = shapeCast S800000x1 (m ((c : Thread nD τ).loc main_arg4) : S800000.Idx → BitVec 32) shapeCasts_S800000_S800000x1 := by
  show StableHlo.after hostOps0 (fun b => m (c, b)) (Proc.devRef .tc main_v1) = _
  after_results; rfl
theorem biasRow_eq (c : Dev nD) :
    (V1 m c main_v2 : S1x64.Idx → EReal)
      = shapeCast S1x64 (m ((c : Thread nD τ).loc main_arg2) : S64.Idx → EReal) shapeCasts_S64_S1x64 := by
  show StableHlo.after hostOps0 (fun b => m (c, b)) (Proc.devRef .tc main_v2) = _
  after_results; rfl

/-- A column's entry `[e, 0]` is the list's entry `e`; the row's entry `[0, j]` is the bias's entry `j`. -/
theorem srcCol_at (c : Dev nD) (e : Fin 800000) :
    (V1 m c main_v0 : S800000x1.Idx → BitVec 32) (ix2 e (0 : Fin 1)) = (m ((c : Thread nD τ).loc main_arg3) : S800000.Idx → BitVec 32) (ix1 e) := by
  rw [srcCol_eq]
  exact shapeCast_apply _ _ _ _ (by
    show (S800000.rowMajor (ix1 e)).val = (S800000x1.rowMajor (ix2 e (0 : Fin 1))).val
    rw [Shape.rowMajor_val_one, Shape.rowMajor_val_two]; show e.val = e.val * 1 + 0; omega)
theorem dstCol_at (c : Dev nD) (e : Fin 800000) :
    (V1 m c main_v1 : S800000x1.Idx → BitVec 32) (ix2 e (0 : Fin 1)) = (m ((c : Thread nD τ).loc main_arg4) : S800000.Idx → BitVec 32) (ix1 e) := by
  rw [dstCol_eq]
  exact shapeCast_apply _ _ _ _ (by
    show (S800000.rowMajor (ix1 e)).val = (S800000x1.rowMajor (ix2 e (0 : Fin 1))).val
    rw [Shape.rowMajor_val_one, Shape.rowMajor_val_two]; show e.val = e.val * 1 + 0; omega)
theorem biasRow_at (c : Dev nD) (j : Fin 64) :
    (V1 m c main_v2 : S1x64.Idx → EReal) (ix2 (0 : Fin 1) j) = (m ((c : Thread nD τ).loc main_arg2) : S64.Idx → EReal) (ix1 j) := by
  rw [biasRow_eq]
  exact shapeCast_apply _ _ _ _ (by
    show (S64.rowMajor (ix1 j)).val = (S1x64.rowMajor (ix2 (0 : Fin 1) j)).val
    rw [Shape.rowMajor_val_one, Shape.rowMajor_val_two]; show j.val = 0 * 64 + j.val; omega)

/-- Every entry of a column is an entry of its list: a range that holds of the list holds of the column. -/
theorem srcCol_lt (c : Dev nD) (h : ∀ e : S800000.Idx, ((m ((c : Thread nD τ).loc main_arg3) : S800000.Idx → BitVec 32) e).toNat < 50000) :
    ∀ e : S800000x1.Idx, ((V2 m c main_v0 : S800000x1.Idx → BitVec 32) e).toNat < 50000 := by
  intro e; rw [V2_src, srcCol_eq]; exact h _
theorem dstCol_lt (c : Dev nD) (h : ∀ e : S800000.Idx, ((m ((c : Thread nD τ).loc main_arg4) : S800000.Idx → BitVec 32) e).toNat < 50000) :
    ∀ e : S800000x1.Idx, ((V2 m c main_v1 : S800000x1.Idx → BitVec 32) e).toNat < 50000 := by
  intro e; rw [V2_dst, dstCol_eq]; exact h _

/-- Picking from what the gather call finds is the layer of what was launched. -/
theorem pick_found (c : Dev nD) :
    Cert.Spec.pick (V2 m c main_v3_0) (V2 m c main_v3_1) (V2 m c main_v2) (V2 m c main_v0) (V2 m c main_v1)
      = Cert.Spec.layer (m ((c : Thread nD τ).loc main_arg0)) (m ((c : Thread nD τ).loc main_arg1)) (m ((c : Thread nD τ).loc main_arg2))
          (m ((c : Thread nD τ).loc main_arg3)) (m ((c : Thread nD τ).loc main_arg4)) := by
  rw [V2_projSrc, V2_projDst, Cert.KernelIdeal.ProjValue.arrA_eq (V1 m) c, Cert.KernelIdeal.ProjValue.arrB_eq (V1 m) c,
    V1_x, V1_w, V2_bias, V2_src, V2_dst]
  funext i
  obtain ⟨e, j, rfl⟩ : ∃ (e : Fin 800000) (j : Fin 64), i = ix2 e j := ⟨i 0, i 1, eq_ix2 i⟩
  unfold Cert.Spec.pick Cert.Spec.layer
  show (_ + _) + (V1 m c main_v2 : S1x64.Idx → EReal) (ix2 (0 : Fin 1) j) = _
  rw [biasRow_at m c j]
  show (Cert.Spec.projSrc _ _ (ix2 (Cert.Spec.node ((V1 m c main_v0 : S800000x1.Idx → BitVec 32) (ix2 e (0 : Fin 1)))) j)
      + Cert.Spec.projDst _ _ (ix2 (Cert.Spec.node ((V1 m c main_v1 : S800000x1.Idx → BitVec 32) (ix2 e (0 : Fin 1)))) j)) + _ = _
  rw [srcCol_at m c e, dstCol_at m c e]

end Cert.KernelIdeal.Layer

end
-- ==== Proof.LibRowGatherScatter.lean ====
/-
  Three host indexing operations read at an index, for any extents: the gather of whole rows of an
  [N × C] table named by an [E × 1] column of row numbers (jnp's table[idx, :]), and the accumulating
  float scatters that add E updates (rows of an [E × C] array, or the entries of an [E] vector) into the
  rows (entries) those row numbers name (jnp's .at[idx].add, segment_sum), at the exact-arithmetic instance
  where the accumulation is a plain sum.
-/
import Idealize.ShloMosaic.PureOps.Ideal
import Idealize.ShloMosaic.PureOps.Contract
import Idealize.ShloMosaic.Lib.ValueIdx

noncomputable section

namespace Idealize.ShloMosaic.RowOps

open Idealize.ShloMosaic Idealize.ShloMosaic.ValueIdx

/-- Row e of the gathered array is the table's row at e's row number, read signed and clamped into the table. -/
theorem gather_rows_apply {α : Type} {N C E w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1) (hss : d.sliceSizes = ![1, C])
    (x : (⟨2, ![N, C]⟩ : Shape).Idx → α) (idx : IVec ⟨2, ![E, 1]⟩ w) (e : Fin E) (k : Fin C) (hN : 0 < N) :
    Host.gather d x idx (ix2 e k) = x (ix2 (⟨min (idx (ix2 e (0 : Fin 1))).toInt.toNat (N - 1), by omega⟩ : Fin N) k) := by
  unfold Host.gather
  congr 1
  funext a
  -- the result's one batch axis is axis 0 (axis 1 is its offset axis); no operand axis is a batching axis
  have hbd : d.batchDims = [0] := by
    show (⟨2, ![E, C]⟩ : Shape).kept d.offsetDims = [0]
    rw [hoff]; rfl
  have hob0 : ∀ a : Fin 2, a ∉ d.operandBatchingDims := fun a => by rw [hob]; exact List.not_mem_nil
  -- every entry of a one-element list of axes is that axis, whatever position it is read at
  have hall0 : ∀ X ∈ d.batchDims, X = 0 := fun X hX => by rw [hbd] at hX; exact List.mem_singleton.1 hX
  have hall1 : ∀ X ∈ d.offsetDims, X = 1 := fun X hX => by rw [hoff] at hX; exact List.mem_singleton.1 hX
  have coord0 : ∀ X : Fin 2, X = 0 → ((ix2 e k) X).val = e.val := fun X h => by subst h; rfl
  have coord1 : ∀ X : Fin 2, X = 1 → ((ix2 e k) X).val = k.val := fun X h => by subst h; rfl
  match a with
  | ⟨0, _⟩ =>
    -- operand axis 0: collapsed (slice size 1, no offset coordinate) and start-indexed: the clamped row number
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 e k) idx 0 + d.batchCoord (ix2 e k) 0 + d.offCoord (ix2 e k) 0 = min (idx (ix2 e 0)).toInt.toNat (N - 1)
    rw [GatherDims.batchCoord_eq_zero _ _ _ (hob0 0), GatherDims.offCoord_eq_zero _ _ _ hk]
    simp only [Nat.add_zero]
    unfold GatherDims.start
    rw [dif_pos hm]
    show min (idx _).toInt.toNat (N - d.sliceSizes 0) = _
    rw [hsl]
    congr 3
    congr 1
    -- the start index is read at (e, 0): e from the result's batch coordinate, 0 the one component of the index vector
    funext b
    match b with
    | ⟨0, _⟩ =>
      unfold GatherDims.siIdx
      rw [dif_neg (by rw [hivd]; simp)]
      unfold GatherDims.siCoord
      apply Fin.ext
      simp only [Fin.val_cast]
      exact coord0 _ (hall0 _ (List.getElem_mem _))
    | ⟨1, _⟩ =>
      unfold GatherDims.siIdx
      rw [dif_pos (by rw [hivd])]
      apply Fin.ext
      show List.idxOf (0 : Fin 2) d.startIndexMap = 0
      rw [hsim]; simp
  | ⟨1, _⟩ =>
    -- operand axis 1: not start-indexed (start 0), kept whole: the offset coordinate is the result's coordinate on axis 1
    apply Fin.ext
    have hk : (1 : Fin 2) ∈ d.sKept := by rw [GatherDims.mem_sKept, hcoll]; exact ⟨by simp, hob0 1⟩
    have hm : (1 : Fin 2) ∉ d.startIndexMap := by rw [hsim]; simp
    show d.start (ix2 e k) idx 1 + d.batchCoord (ix2 e k) 1 + d.offCoord (ix2 e k) 1 = k.val
    rw [GatherDims.batchCoord_eq_zero _ _ _ (hob0 1)]
    unfold GatherDims.start GatherDims.offCoord
    rw [dif_neg hm, dif_pos hk]
    simp only [Nat.add_zero, Nat.zero_add]
    exact coord1 _ (hall1 _ (List.getElem_mem _))

/-- Where one update lands: update (e, k') lands on (i, k) exactly when e's row number, read signed, is i and k' is k.
    On axis 0 (inserted: no window coordinate) the landing coordinate is the row number itself, not clamped, so a
    negative one or one past the table lands nowhere; on axis 1 (start 0) it is the update's own coordinate k', always
    inside the row. -/
private theorem resultIdx_rows_iff {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1) (idx : IVec ⟨2, ![E, 1]⟩ w) (e : Fin E) (k' : Fin C) (i : Fin N) (k : Fin C) :
    d.resultIdx? (ix2 e k') idx = some (ix2 i k) ↔ (idx (ix2 e (0 : Fin 1))).toInt = (i.val : Int) ∧ k' = k := by
  -- the updates' one scatter axis is axis 0 (axis 1 is their window axis); the operand's one window axis is axis 1
  have hus : d.uScatter = [0] := by
    show (⟨2, ![E, C]⟩ : Shape).kept d.updateWindowDims = [0]
    rw [huw]; rfl
  have hsk : d.sKept = [1] := by
    show (⟨2, ![N, C]⟩ : Shape).kept d.insertedWindowDims = [1]
    rw [hiw]; rfl
  have hall0 : ∀ X ∈ d.uScatter, X = 0 := fun X hX => by rw [hus] at hX; exact List.mem_singleton.1 hX
  have hall1 : ∀ X ∈ d.updateWindowDims, X = 1 := fun X hX => by rw [huw] at hX; exact List.mem_singleton.1 hX
  have coord0 : ∀ X : Fin 2, X = 0 → ((ix2 e k') X).val = e.val := fun X h => by subst h; rfl
  have coord1 : ∀ X : Fin 2, X = 1 → ((ix2 e k') X).val = k'.val := fun X h => by subst h; rfl
  -- the four ingredients of the landing index: start and window coordinate on each operand axis
  have hst0 : d.start (ix2 e k') idx 0 = (idx (ix2 e (0 : Fin 1))).toInt := by
    unfold ScatterDims.start
    rw [dif_pos (by rw [hsd]; exact List.mem_singleton.mpr rfl)]
    congr 2
    funext b
    match b with
    | ⟨0, _⟩ =>
      unfold ScatterDims.siIdx
      rw [dif_neg (by rw [hivd]; simp)]
      unfold ScatterDims.siCoord
      apply Fin.ext
      simp only [Fin.val_cast]
      exact coord0 _ (hall0 _ (List.getElem_mem _))
    | ⟨1, _⟩ =>
      unfold ScatterDims.siIdx
      rw [dif_pos (by rw [hivd])]
      apply Fin.ext
      show List.idxOf (0 : Fin 2) d.scatterDimsToOperandDims = 0
      rw [hsd]; simp
  have hw0 : d.window (ix2 e k') 0 = 0 := by
    unfold ScatterDims.window; rw [dif_neg (by rw [hsk]; simp)]
  have hst1 : d.start (ix2 e k') idx 1 = 0 := by
    unfold ScatterDims.start; rw [dif_neg (by rw [hsd]; simp)]
  have hw1 : d.window (ix2 e k') 1 = k'.val := by
    unfold ScatterDims.window; rw [dif_pos (by rw [hsk]; simp)]
    exact coord1 _ (hall1 _ (List.getElem_mem _))
  unfold ScatterDims.resultIdx?
  split
  · -- the landing index is inside the operand: compare it with (i, k) coordinate by coordinate
    rename_i h
    rw [Option.some.injEq]
    constructor
    · intro hf
      have h0 : (d.start (ix2 e k') idx 0 + d.window (ix2 e k') 0).toNat = i.val := congrArg (fun f => (f 0).val) hf
      have h1 : (d.start (ix2 e k') idx 1 + d.window (ix2 e k') 1).toNat = k.val := congrArg (fun f => (f 1).val) hf
      have hh := (h 0).1
      rw [hst0, hw0] at h0 hh
      rw [hst1, hw1] at h1
      exact ⟨by omega, Fin.ext (by omega)⟩
    · rintro ⟨hi, rfl⟩
      funext a
      match a with
      | ⟨0, _⟩ =>
        apply Fin.ext
        show (d.start (ix2 e k') idx 0 + d.window (ix2 e k') 0).toNat = i.val
        rw [hst0, hw0, hi]; omega
      | ⟨1, _⟩ =>
        apply Fin.ext
        show (d.start (ix2 e k') idx 1 + d.window (ix2 e k') 1).toNat = k'.val
        rw [hst1, hw1]; omega
  · -- the landing index leaves the operand: then the row number is no row of the table, i least of all
    rename_i h
    constructor
    · intro hf; exact absurd hf (by simp)
    · rintro ⟨hi, rfl⟩
      exfalso; apply h
      intro a
      match a with
      | ⟨0, _⟩ =>
        show 0 ≤ d.start (ix2 e k') idx 0 + d.window (ix2 e k') 0 ∧ d.start (ix2 e k') idx 0 + d.window (ix2 e k') 0 < (N : Int)
        rw [hst0, hw0, hi]; have := i.isLt; omega
      | ⟨1, _⟩ =>
        show 0 ≤ d.start (ix2 e k') idx 1 + d.window (ix2 e k') 1 ∧ d.start (ix2 e k') idx 1 + d.window (ix2 e k') 1 < (C : Int)
        rw [hst1, hw1]; have := k'.isLt; omega

/-- Entry (i, k) after the scatter: what was there plus the updates' entries (e, k) over the e whose row number is i. -/
theorem scatterAdd_rows_apply {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w) (upd : (⟨2, ![E, C]⟩ : Shape).Idx → EReal)
    (i : Fin N) (k : Fin C) :
    Ideal.hostScatterAdd d x idx upd (ix2 i k)
      = x (ix2 i k) + ∑ e : Fin E, if (idx (ix2 e (0 : Fin 1))).toInt = (i.val : Int) then upd (ix2 e k) else 0 := by
  unfold Ideal.hostScatterAdd
  congr 1
  -- the sum over the updates that land on (i, k), as a double sum over (e, k') of the updates guarded by "lands on (i, k)"
  rw [Finset.sum_filter, sum_idx2]
  refine Finset.sum_congr rfl fun e _ => ?_
  by_cases he : (idx (ix2 e (0 : Fin 1))).toInt = (i.val : Int)
  · -- row e is aimed at row i: of its C entries exactly the one in column k lands on (i, k)
    rw [if_pos he, Finset.sum_eq_single k]
    · rw [if_pos ((resultIdx_rows_iff d huw hiw hsd hivd idx e k i k).2 ⟨he, rfl⟩)]
    · intro k' _ hk'
      rw [if_neg fun h => hk' ((resultIdx_rows_iff d huw hiw hsd hivd idx e k' i k).1 h).2]
    · intro h; exact absurd (Finset.mem_univ k) h
  · -- row e is aimed elsewhere (or nowhere): none of its entries lands on (i, k)
    rw [if_neg he]
    refine Finset.sum_eq_zero fun k' _ => ?_
    rw [if_neg fun h => he ((resultIdx_rows_iff d huw hiw hsd hivd idx e k' i k).1 h).1]

/-- A sum over a rank-1 index set is the sum over its one coordinate. -/
private theorem sum_idx1 {M : Type*} [AddCommMonoid M] {n : Nat} (f : (⟨1, ![n]⟩ : Shape).Idx → M) :
    ∑ j, f j = ∑ a : Fin n, f (ix1 a) := by
  let φ : (⟨1, ![n]⟩ : Shape).Idx ≃ Fin n :=
    { toFun := fun j => j 0, invFun := fun a => ix1 a, left_inv := fun j => (eq_ix1 j).symm, right_inv := fun _ => rfl }
  rw [← Equiv.sum_comp φ.symm f]
  rfl

/-- Where one update of a vector lands: update e lands on entry i exactly when e's row number, read signed, is i (the
    operand's one axis is inserted: the landing coordinate is the row number itself, not clamped). -/
private theorem resultIdx_vec_iff {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1) (idx : IVec ⟨2, ![E, 1]⟩ w) (e : Fin E) (i : Fin N) :
    d.resultIdx? (ix1 e) idx = some (ix1 i) ↔ (idx (ix2 e (0 : Fin 1))).toInt = (i.val : Int) := by
  -- the operand has no window axis
  have hsk : d.sKept = [] := by
    show (⟨1, ![N]⟩ : Shape).kept d.insertedWindowDims = []
    rw [hiw]; rfl
  have coord0 : ∀ X : Fin 1, ((ix1 e) X).val = e.val := fun X => by
    obtain rfl : X = 0 := Subsingleton.elim _ _
    rfl
  have hst0 : d.start (ix1 e) idx 0 = (idx (ix2 e (0 : Fin 1))).toInt := by
    unfold ScatterDims.start
    rw [dif_pos (by rw [hsd]; exact List.mem_singleton.mpr rfl)]
    congr 2
    funext b
    match b with
    | ⟨0, _⟩ =>
      unfold ScatterDims.siIdx
      rw [dif_neg (by rw [hivd]; simp)]
      unfold ScatterDims.siCoord
      apply Fin.ext
      simp only [Fin.val_cast]
      exact coord0 _
    | ⟨1, _⟩ =>
      unfold ScatterDims.siIdx
      rw [dif_pos (by rw [hivd])]
      apply Fin.ext
      show List.idxOf (0 : Fin 1) d.scatterDimsToOperandDims = 0
      rw [hsd]; simp
  have hw0 : d.window (ix1 e) 0 = 0 := by
    unfold ScatterDims.window; rw [dif_neg (by rw [hsk]; simp)]
  have hax : ∀ a : Fin 1, a = 0 := fun a => Subsingleton.elim _ _
  unfold ScatterDims.resultIdx?
  split
  · rename_i h
    rw [Option.some.injEq]
    constructor
    · intro hf
      have h0 : (d.start (ix1 e) idx 0 + d.window (ix1 e) 0).toNat = i.val := congrArg (fun f => (f 0).val) hf
      have hh := (h 0).1
      rw [hst0, hw0] at h0 hh
      omega
    · intro hi
      funext a
      obtain rfl := hax a
      apply Fin.ext
      show (d.start (ix1 e) idx 0 + d.window (ix1 e) 0).toNat = i.val
      rw [hst0, hw0, hi]; omega
  · rename_i h
    constructor
    · intro hf; exact absurd hf (by simp)
    · intro hi
      exfalso; apply h
      intro a
      obtain rfl := hax a
      show 0 ≤ d.start (ix1 e) idx 0 + d.window (ix1 e) 0 ∧ d.start (ix1 e) idx 0 + d.window (ix1 e) 0 < (N : Int)
      rw [hst0, hw0, hi]; have := i.isLt; omega

/-- Entry i after the scatter of a vector: what was there plus the updates over the e whose row number is i. -/
theorem scatterAdd_vec_apply {N E w : Nat} (d : ScatterDims ⟨1, ![N]⟩ ⟨2, ![E, 1]⟩ ⟨1, ![E]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![E, 1]⟩ w) (upd : (⟨1, ![E]⟩ : Shape).Idx → EReal) (i : Fin N) :
    Ideal.hostScatterAdd d x idx upd (ix1 i)
      = x (ix1 i) + ∑ e : Fin E, if (idx (ix2 e (0 : Fin 1))).toInt = (i.val : Int) then upd (ix1 e) else 0 := by
  unfold Ideal.hostScatterAdd
  congr 1
  rw [Finset.sum_filter, sum_idx1]
  refine Finset.sum_congr rfl fun e _ => ?_
  by_cases he : (idx (ix2 e (0 : Fin 1))).toInt = (i.val : Int)
  · rw [if_pos he, if_pos ((resultIdx_vec_iff d huw hiw hsd hivd idx e i).2 he)]
  · rw [if_neg he, if_neg fun h => he ((resultIdx_vec_iff d huw hiw hsd hivd idx e i).1 h)]

end Idealize.ShloMosaic.RowOps

end
-- ==== Proof.RefLayer.lean ====
/-
  The reference program is the message-passing layer.

  The reference receives node features x (50000 × 64), a weight matrix W (128 × 64), a bias b (64) and two edge lists
  src, dst (800000 words each). It first adds 50000 to every negative word of an edge list, then takes for every edge e
  the feature rows x[src e, ·] and x[dst e, ·] (a row number is read signed and clamped into 0 … 49999), lays the two rows
  side by side as one row of 128 entries, multiplies by W and adds the bias:

      out[e, j] = Σ_{k<128} [x[src e, ·] | x[dst e, ·]][k] · W[k, j] + b[j].

  When every word of both edge lists is below 50000 nothing is wrapped and nothing is clamped: the word is non-negative as
  a signed number and is its own row number. The sum over k < 128 falls into k < 64, where the joined row is x[src e, k]
  and W's row is row k of its upper half, and 64 ≤ k < 128, where the joined row is x[dst e, k − 64] and W's row is row
  k − 64 of its lower half. That is the layer of the specification, the two projections taken at the edge's two nodes.
  Only the splitting of a finite sum over the extended reals is used: no distributivity, hence no finiteness.
-/
import proofs.«426469_j38474317037707_1_alg».proof.Proof.Gen.ReferenceIdeal.Read
import proofs.«426469_j38474317037707_1_alg».proof.Proof.Spec
import proofs.«426469_j38474317037707_1_alg».proof.Proof.LibRowGatherScatter
import Idealize.ShloMosaic.PureOps.Ideal
import Idealize.ShloMosaic.Lib.ValueIdx
import Idealize.ShloMosaic.Lib.Pipeline.Value
import Idealize.ShloMosaic.Lib.StableHlo.Predicate
import Mathlib.Algebra.BigOperators.Fin

noncomputable section

namespace Cert.RefLayer

open Cert.ReferenceIdeal Cert.ReferenceIdeal.Gen Cert.ReferenceIdeal.Read Idealize.ShloMosaic Idealize.ShloMosaic.ValueIdx
open Idealize.ShloMosaic.StableHlo.Predicate

/-! ## The edge lists: nothing to wrap, nothing to clamp -/

/-- A word below 50000 is non-negative as a signed number, so the wrap of the negative source indices leaves it alone. -/
theorem wrap_src (x3 : (⟨S800000, .i32⟩ : BufTy).Contents (Elt Ideal)) (i : S800000.Idx) (h : (x3 i).toNat < 50000) :
    val_main_v4 (F := Ideal) x3 i = x3 i := by
  rw [val_main_v4_apply, val_main_v1_apply, val_main_v0_apply, val_main_c_apply]
  -- the signed comparison with zero answers "no"
  have hc : IntOp.cmpi .slt (x3 i) 0#32 = 0#1 :=
    eq_zero_of_ne_one fun hh => by
      have := (slt_iff_toNat (a := x3 i) (b := 0#32) (by omega) (by decide)).1 hh
      simp at this
  rw [hc, select_zero]

/-- The same for the destination indices. -/
theorem wrap_dst (x4 : (⟨S800000, .i32⟩ : BufTy).Contents (Elt Ideal)) (i : S800000.Idx) (h : (x4 i).toNat < 50000) :
    val_main_v11 (F := Ideal) x4 i = x4 i := by
  rw [val_main_v11_apply, val_main_v8_apply, val_main_v7_apply, val_main_c_1_apply]
  have hc : IntOp.cmpi .slt (x4 i) 0#32 = 0#1 :=
    eq_zero_of_ne_one fun hh => by
      have := (slt_iff_toNat (a := x4 i) (b := 0#32) (by omega) (by decide)).1 hh
      simp at this
  rw [hc, select_zero]

/-- Read signed and clamped into the table's 50000 rows, a word below 50000 is its own node number. -/
theorem clamp_node (w : BitVec 32) (h : w.toNat < 50000) :
    min w.toInt.toNat (50000 - 1) = (Cert.Spec.node w).val := by
  rw [Cert.Spec.node_val_of_lt h, toInt_eq_toNat_of_lt (by omega)]
  simp only [Int.toNat_natCast]
  omega

/-! ## The two gathered arrays -/

/-- Row e of the first gathered array is the feature row of e's source node. -/
theorem gather_src (x0 : (⟨S50000x64, .f32⟩ : BufTy).Contents (Elt Ideal)) (x3 : (⟨S800000, .i32⟩ : BufTy).Contents (Elt Ideal))
    (hs : ∀ e : S800000.Idx, (x3 e).toNat < 50000) (e : Fin 800000) (k : Fin 64) :
    val_main_v6 (F := Ideal) x0 x3 (ix2 e k) = x0 (ix2 (Cert.Spec.node (x3 (ix1 e))) k) := by
  unfold val_main_v6
  rw [RowOps.gather_rows_apply gather_S50000x64_S800000x1_S800000x64_1_0_n_n_0_1_164 rfl rfl rfl rfl rfl rfl x0 _ e k (by norm_num)]
  -- entry (e, 0) of the index column is entry e of the (unwrapped) source list
  have hi : idx_main_v5 (ix2 e (0 : Fin 1)) = ix1 e := funext fun a => by match a with | ⟨0, _⟩ => rfl
  have hw : val_main_v5 (F := Ideal) x3 (ix2 e (0 : Fin 1)) = x3 (ix1 e) := by
    rw [val_main_v5_apply, hi, wrap_src x3 _ (hs _)]
  refine congrArg (fun r : Fin 50000 => x0 (ix2 r k)) (Fin.ext ?_)
  show min (val_main_v5 (F := Ideal) x3 (ix2 e (0 : Fin 1))).toInt.toNat (50000 - 1) = _
  rw [hw, clamp_node _ (hs _)]

/-- Row e of the second gathered array is the feature row of e's destination node. -/
theorem gather_dst (x0 : (⟨S50000x64, .f32⟩ : BufTy).Contents (Elt Ideal)) (x4 : (⟨S800000, .i32⟩ : BufTy).Contents (Elt Ideal))
    (hd : ∀ e : S800000.Idx, (x4 e).toNat < 50000) (e : Fin 800000) (k : Fin 64) :
    val_main_v13 (F := Ideal) x0 x4 (ix2 e k) = x0 (ix2 (Cert.Spec.node (x4 (ix1 e))) k) := by
  unfold val_main_v13
  rw [RowOps.gather_rows_apply gather_S50000x64_S800000x1_S800000x64_1_0_n_n_0_1_164 rfl rfl rfl rfl rfl rfl x0 _ e k (by norm_num)]
  have hi : idx_main_v12 (ix2 e (0 : Fin 1)) = ix1 e := funext fun a => by match a with | ⟨0, _⟩ => rfl
  have hw : val_main_v12 (F := Ideal) x4 (ix2 e (0 : Fin 1)) = x4 (ix1 e) := by
    rw [val_main_v12_apply, hi, wrap_dst x4 _ (hd _)]
  refine congrArg (fun r : Fin 50000 => x0 (ix2 r k)) (Fin.ext ?_)
  show min (val_main_v12 (F := Ideal) x4 (ix2 e (0 : Fin 1))).toInt.toNat (50000 - 1) = _
  rw [hw, clamp_node _ (hd _)]

/-! ## The joined rows -/

/-- The two gathered arrays laid side by side: column k < 64 of the joined array is column k of the first. -/
theorem concat_left (x0 : (⟨S50000x64, .f32⟩ : BufTy).Contents (Elt Ideal)) (x3 x4 : (⟨S800000, .i32⟩ : BufTy).Contents (Elt Ideal))
    (e : Fin 800000) (k : Fin 64) :
    val_main_v14 (F := Ideal) x0 x3 x4 (ix2 e (Fin.castAdd 64 k)) = val_main_v6 (F := Ideal) x0 x3 (ix2 e k) := by
  unfold val_main_v14
  exact concatenate_pair_apply_left (t := S800000x128) (s₁ := S800000x64) (s₂ := S800000x64) 1 _ _ _ _ rfl (ix2 e k)
    (fun b => by match b with | ⟨0, _⟩ => rfl | ⟨1, _⟩ => rfl)

/-- Column 64 + k of the joined array is column k of the second gathered array. -/
theorem concat_right (x0 : (⟨S50000x64, .f32⟩ : BufTy).Contents (Elt Ideal)) (x3 x4 : (⟨S800000, .i32⟩ : BufTy).Contents (Elt Ideal))
    (e : Fin 800000) (k : Fin 64) :
    val_main_v14 (F := Ideal) x0 x3 x4 (ix2 e (Fin.natAdd 64 k)) = val_main_v13 (F := Ideal) x0 x4 (ix2 e k) := by
  unfold val_main_v14
  exact concatenate_pair_apply_right (t := S800000x128) (s₁ := S800000x64) (s₂ := S800000x64) 1 _ _ _ _ rfl rfl (ix2 e k)
    (fun b hb => by match b with | ⟨0, _⟩ => rfl | ⟨1, _⟩ => exact absurd rfl hb)
    (by show k.val + 64 = 64 + k.val; omega)

/-! ## The reference is the layer -/

/-- With every word of both edge lists below 50000, the reference's result is the layer of the specification:
    the sum over the 128 joined columns is the sum over the source's 64 features against the upper half of W
    plus the sum over the destination's 64 features against the lower half. -/
theorem ref_eq (x0 : (⟨S50000x64, .f32⟩ : BufTy).Contents (Elt Ideal)) (x1 : (⟨S128x64, .f32⟩ : BufTy).Contents (Elt Ideal))
    (x2 : (⟨S64, .f32⟩ : BufTy).Contents (Elt Ideal)) (x3 x4 : (⟨S800000, .i32⟩ : BufTy).Contents (Elt Ideal))
    (hs : ∀ e : S800000.Idx, (x3 e).toNat < 50000) (hd : ∀ e : S800000.Idx, (x4 e).toNat < 50000) :
    val_main_v18 (F := Ideal) x0 x1 x2 x3 x4 = Cert.Spec.layer x0 x1 x2 x3 x4 := by
  funext i
  obtain ⟨e, j, rfl⟩ : ∃ (e : Fin 800000) (j : Fin 64), i = ix2 e j := ⟨i 0, i 1, eq_ix2 i⟩
  -- the product's term k reads the joined array at (e, k) and W at (k, j); the bias is read at j
  have hl : ∀ k : Fin 128, lidx_main_v15 (ix2 e j) k = ix2 e k := fun k => funext fun a => by
    match a with | ⟨0, _⟩ => rfl | ⟨1, _⟩ => rfl
  have hr : ∀ k : Fin 128, ridx_main_v15 (ix2 e j) k = ix2 k j := fun k => funext fun a => by
    match a with | ⟨0, _⟩ => rfl | ⟨1, _⟩ => rfl
  have hb : idx_main_v16 (idx_main_v17 (ix2 e j)) = ix1 j := funext fun a => by match a with | ⟨0, _⟩ => rfl
  rw [val_main_v18_apply, val_main_v15_apply, val_main_v17_apply, val_main_v16_apply, hb, Ideal.addf_def]
  simp only [hl, hr]
  show _ = (Cert.Spec.projSrc x0 x1 (ix2 (Cert.Spec.node (x3 (ix1 e))) j) + Cert.Spec.projDst x0 x1 (ix2 (Cert.Spec.node (x4 (ix1 e))) j)) + x2 (ix1 j)
  congr 1
  -- 128 = 64 + 64: the sum over the joined columns is the sum over the first 64 plus the sum over the last 64
  rw [show (∑ k : Fin 128, val_main_v14 (F := Ideal) x0 x3 x4 (ix2 e k) * x1 (ix2 k j))
      = ∑ k : Fin (64 + 64), val_main_v14 (F := Ideal) x0 x3 x4 (ix2 e k) * x1 (ix2 k j) from rfl, Fin.sum_univ_add]
  congr 1
  · refine Finset.sum_congr rfl fun f _ => ?_
    rw [concat_left, gather_src x0 x3 hs]
    rfl
  · refine Finset.sum_congr rfl fun f _ => ?_
    rw [concat_right, gather_dst x0 x4 hd]
    rfl

end Cert.RefLayer

end
-- ==== Proof.lean ====
/-
  The certificate of the message-passing layer: a kernel program of two calls against its reference.

  The kernel program first projects every node's features by the two halves of the weight matrix (ten row blocks, two
  matrix products each), then, on a 400 × 25 grid of edge blocks against node blocks, gathers by one-hot products: an
  accumulator is zeroed at an edge block's first node block, every node block adds the rows its nodes contribute, and
  the last one writes accumulator plus bias to the edge block's rows. The reference gathers the two feature rows of
  each edge, lays them side by side and multiplies by the whole weight matrix, plus bias. Under the precondition —
  finite float inputs, and every entry of the two edge lists a node number, 0 ≤ · < 50000 — both results are, entry by
  entry over the extended reals, `Cert.Spec.layer`:

      out[e, j] = Σ_f x[src e, f] · W[f, j] + Σ_f x[dst e, f] · W[64 + f, j] + b[j].

  On the kernel's side: a one-hot product over the extended reals picks one row (1 · a = a, 0 · a = 0, and a sum of
  zeros is zero), so the twenty-five node blocks of an edge block add up to the source's row of the first projection
  plus the destination's row of the second — only commutativity and associativity of + are used, never finiteness. On
  the reference's side: an in-range index is neither wrapped nor clamped, and the sum over the 128 joined features
  splits into the two halves. The frames: each program runs to its end on every fair schedule without a fault and leaves
  its five arguments as launched — for the kernel program by following the device's buffers through the three host
  reshapes and the two calls, at the word level and at the extended reals alike.
-/
import proofs.«426469_j38474317037707_1_alg».proof.Defs
import proofs.«426469_j38474317037707_1_alg».proof.Proof.Gen.Kernel
import proofs.«426469_j38474317037707_1_alg».proof.Proof.Gen.Kernel.Skeleton
import proofs.«426469_j38474317037707_1_alg».proof.Proof.Gen.Kernel.Launch
import proofs.«426469_j38474317037707_1_alg».proof.Proof.Gen.Kernel.Regions
import proofs.«426469_j38474317037707_1_alg».proof.Proof.Gen.Kernel.Points
import proofs.«426469_j38474317037707_1_alg».proof.Proof.Gen.KernelIdeal
import proofs.«426469_j38474317037707_1_alg».proof.Proof.Gen.KernelIdeal.Skeleton
import proofs.«426469_j38474317037707_1_alg».proof.Proof.Gen.KernelIdeal.Launch
import proofs.«426469_j38474317037707_1_alg».proof.Proof.Gen.KernelIdeal.Regions
import proofs.«426469_j38474317037707_1_alg».proof.Proof.Gen.KernelIdeal.Points
import proofs.«426469_j38474317037707_1_alg».proof.Proof.Gen.ReferenceIdeal
import proofs.«426469_j38474317037707_1_alg».proof.Proof.Gen.Pre_finite_inputs
import proofs.«426469_j38474317037707_1_alg».proof.Proof.Gen.ReferenceIdeal.Run
import proofs.«426469_j38474317037707_1_alg».proof.Proof.Gen.ReferenceIdeal.Read
import proofs.«426469_j38474317037707_1_alg».proof.Proof.Spec
import proofs.«426469_j38474317037707_1_alg».proof.Proof.IndexRange
import proofs.«426469_j38474317037707_1_alg».proof.Proof.Bits.Whole
import proofs.«426469_j38474317037707_1_alg».proof.Proof.Ideal.Whole
import proofs.«426469_j38474317037707_1_alg».proof.Proof.GmValue
import proofs.«426469_j38474317037707_1_alg».proof.Proof.Layer
import proofs.«426469_j38474317037707_1_alg».proof.Proof.RefLayer
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- The reference, a host program, runs and leaves its arguments as launched. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals, from memories that agree on the arguments, both programs end with the layer of the
    arguments in their result arrays. -/
theorem algebraic : Cert.algebraic_KernelIdeal_ReferenceIdeal := by
  intro m ρ m' ρ' hpre hagree
  have hs := fun c : Dev Cert.KernelIdeal.nD => Cert.IndexRange.src_lt (F := Ideal) _ _ _ _ _ (hpre c)
  have hd := fun c : Dev Cert.KernelIdeal.nD => Cert.IndexRange.dst_lt (F := Ideal) _ _ _ _ _ (hpre c)
  refine ⟨fun c => Cert.Spec.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun _ h c => ⟨(h c).1.trans ?_, (h c).2⟩)
      (Cert.KernelIdeal.Fr.run_result (F := Ideal) m ρ)
    rw [Cert.KernelIdeal.GmValue.arrOut_eq (Cert.KernelIdeal.Fr.V2 m) c
      (Cert.KernelIdeal.Layer.srcCol_lt m c (hs c)) (Cert.KernelIdeal.Layer.dstCol_lt m c (hd c))]
    exact Cert.KernelIdeal.Layer.pick_found m c
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v18_eq, (hagree c).1, (hagree c).2.1, (hagree c).2.2.1, (hagree c).2.2.2.1,
      (hagree c).2.2.2.2]
    exact Cert.RefLayer.ref_eq _ _ _ _ _ (hs c) (hd c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
